-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x2048x1024 : Shape := ⟨3, ![2, 2048, 1024]⟩
abbrev S50257x1024 : Shape := ⟨2, ![50257, 1024]⟩
abbrev S50257 : Shape := ⟨1, ![50257]⟩
abbrev S2x2048 : Shape := ⟨2, ![2, 2048]⟩
abbrev S_ : Shape := ⟨0, ![]⟩
abbrev S2x2047 : Shape := ⟨2, ![2, 2047]⟩

class Facts : Prop where
  bcast_S_S2x2048x1024 : S_.BroadcastsInDim S2x2048x1024 (![] : Fin 0 → Fin S2x2048x1024.rank)
  reducesTo_S2x2048x1024_S_d0_1_2 : S2x2048x1024.ReducesTo [0, 1, 2] S_
  h_S_ : 0 < S_.numel
  bcast_S_S50257x1024 : S_.BroadcastsInDim S50257x1024 (![] : Fin 0 → Fin S50257x1024.rank)
  reducesTo_S50257x1024_S_d0_1 : S50257x1024.ReducesTo [0, 1] S_
  bcast_S_S50257 : S_.BroadcastsInDim S50257 (![] : Fin 0 → Fin S50257.rank)
  reducesTo_S50257_S_d0 : S50257.ReducesTo [0] S_
  slices_S2x2048_S2x2047_0_1 : S2x2048.Slices ![0, 1] S2x2047
  bcast_S_S2x2047 : S_.BroadcastsInDim S2x2047 (![] : Fin 0 → Fin S2x2047.rank)
  reducesTo_S2x2047_S_d0_1 : S2x2047.ReducesTo [0, 1] S_

variable [Facts]

def fn_part1 {F : FTy → Type} [FloatOps F] (main_v13 : IVec S_ 1) (main_v14 : IVec S2x2047 32) (main_v16 : IVec S2x2047 1) : IVec S_ 1 :=
  let main_c_5 : IVec S_ 32 := constantI S_ 32 50257#32
  let main_v17 : IVec S2x2047 32 := broadcastInDim S2x2047 ![] bcast_S_S2x2047 main_c_5
  let main_v18 : IVec S2x2047 1 := cmpi .slt main_v14 main_v17
  let main_v19 : IVec S2x2047 1 := andi main_v16 main_v18
  let main_c_6 : IVec S_ 32 := constantI S_ 32 4294967196#32
  let main_v20 : IVec S2x2047 32 := broadcastInDim S2x2047 ![] bcast_S_S2x2047 main_c_6
  let main_v21 : IVec S2x2047 1 := cmpi .eq main_v14 main_v20
  let main_v22 : IVec S2x2047 1 := ori main_v19 main_v21
  let main_c_7 : IVec S_ 1 := constantI S_ 1 1#1
  let main_v23 : IVec S_ 1 := (fun x v => Host.reduce IntOp.andi x v reducesTo_S2x2047_S_d0_1 h_S_) main_v22 main_c_7
  let main_v24 : IVec S_ 1 := andi main_v13 main_v23
  main_v24

def fn {F : FTy → Type} [FloatOps F] (main_arg0 : FVec F S2x2048x1024 .f32) (main_arg1 : FVec F S50257x1024 .f32) (main_arg2 : FVec F S50257 .f32) (main_arg3 : IVec S2x2048 32) (main_arg4 : IVec S2x2048 32) : IVec S_ 1 :=
  let main_v0 : FVec F S2x2048x1024 .f32 := Host.absf main_arg0
  let main_cst : FVec F S_ .f32 := constant S_ .f32 0x7F800000#32
  let main_v1 : FVec F S2x2048x1024 .f32 := broadcastInDim S2x2048x1024 ![] bcast_S_S2x2048x1024 main_cst
  let main_v2 : IVec S2x2048x1024 1 := cmpf .olt main_v0 main_v1
  let main_c : IVec S_ 1 := constantI S_ 1 1#1
  let main_v3 : IVec S_ 1 := (fun x v => Host.reduce IntOp.andi x v reducesTo_S2x2048x1024_S_d0_1_2 h_S_) main_v2 main_c
  let main_v4 : FVec F S50257x1024 .f32 := Host.absf main_arg1
  let main_cst_0 : FVec F S_ .f32 := constant S_ .f32 0x7F800000#32
  let main_v5 : FVec F S50257x1024 .f32 := broadcastInDim S50257x1024 ![] bcast_S_S50257x1024 main_cst_0
  let main_v6 : IVec S50257x1024 1 := cmpf .olt main_v4 main_v5
  let main_c_1 : IVec S_ 1 := constantI S_ 1 1#1
  let main_v7 : IVec S_ 1 := (fun x v => Host.reduce IntOp.andi x v reducesTo_S50257x1024_S_d0_1 h_S_) main_v6 main_c_1
  let main_v8 : IVec S_ 1 := andi main_v3 main_v7
  let main_v9 : FVec F S50257 .f32 := Host.absf main_arg2
  let main_cst_2 : FVec F S_ .f32 := constant S_ .f32 0x7F800000#32
  let main_v10 : FVec F S50257 .f32 := broadcastInDim S50257 ![] bcast_S_S50257 main_cst_2
  let main_v11 : IVec S50257 1 := cmpf .olt main_v9 main_v10
  let main_c_3 : IVec S_ 1 := constantI S_ 1 1#1
  let main_v12 : IVec S_ 1 := (fun x v => Host.reduce IntOp.andi x v reducesTo_S50257_S_d0 h_S_) main_v11 main_c_3
  let main_v13 : IVec S_ 1 := andi main_v8 main_v12
  let main_v14 : IVec S2x2047 32 := (extractStridedSlice S2x2047 ![0, 1] · slices_S2x2048_S2x2047_0_1) main_arg3
  let main_c_4 : IVec S_ 32 := constantI S_ 32 0#32
  let main_v15 : IVec S2x2047 32 := broadcastInDim S2x2047 ![] bcast_S_S2x2047 main_c_4
  let main_v16 : IVec S2x2047 1 := cmpi .sge main_v14 main_v15
  fn_part1 (F := F) main_v13 main_v14 main_v16
-- ==== Kernel.lean ====
abbrev S2x2048x1024 : Shape := ⟨3, ![2, 2048, 1024]⟩
abbrev S50257x1024 : Shape := ⟨2, ![50257, 1024]⟩
abbrev S50257 : Shape := ⟨1, ![50257]⟩
abbrev S2x2048 : Shape := ⟨2, ![2, 2048]⟩
abbrev S2x2047x1024 : Shape := ⟨3, ![2, 2047, 1024]⟩
abbrev S4094x1024 : Shape := ⟨2, ![4094, 1024]⟩
abbrev S2x2047 : Shape := ⟨2, ![2, 2047]⟩
abbrev S4094 : Shape := ⟨1, ![4094]⟩
abbrev S_ : Shape := ⟨0, ![]⟩
abbrev S4096x1024 : Shape := ⟨2, ![4096, 1024]⟩
abbrev S4096 : Shape := ⟨1, ![4096]⟩
abbrev S4096x1 : Shape := ⟨2, ![4096, 1]⟩
abbrev S1x50257 : Shape := ⟨2, ![1, 50257]⟩
abbrev S2048x1024 : Shape := ⟨2, ![2048, 1024]⟩
abbrev S1024x1024 : Shape := ⟨2, ![1024, 1024]⟩
abbrev S1x1024 : Shape := ⟨2, ![1, 1024]⟩
abbrev S2048x1 : Shape := ⟨2, ![2048, 1]⟩
abbrev S2048 : Shape := ⟨1, ![2048]⟩

abbrev nBuf : Space → Nat
  | .hbm => 49
  | .vmem => 13
  | .smem => 0
  | _ => 0

abbrev bufTy : (tb : Table) → Fin (tcTables nBuf tb) → BufTy
  | .hbm, ⟨0, _⟩ => ⟨S2x2048x1024, .f32⟩
  | .hbm, ⟨1, _⟩ => ⟨S50257x1024, .f32⟩
  | .hbm, ⟨2, _⟩ => ⟨S50257, .f32⟩
  | .hbm, ⟨3, _⟩ => ⟨S2x2048, .i32⟩
  | .hbm, ⟨4, _⟩ => ⟨S2x2048, .i32⟩
  | .hbm, ⟨5, _⟩ => ⟨S2x2047x1024, .f32⟩
  | .hbm, ⟨6, _⟩ => ⟨S4094x1024, .f32⟩
  | .hbm, ⟨7, _⟩ => ⟨S2x2047, .i32⟩
  | .hbm, ⟨8, _⟩ => ⟨S4094, .i32⟩
  | .hbm, ⟨9, _⟩ => ⟨S_, .i32⟩
  | .hbm, ⟨10, _⟩ => ⟨S4094, .i32⟩
  | .hbm, ⟨11, _⟩ => ⟨S4094, .i1⟩
  | .hbm, ⟨12, _⟩ => ⟨S_, .i32⟩
  | .hbm, ⟨13, _⟩ => ⟨S_, .f32⟩
  | .hbm, ⟨14, _⟩ => ⟨S4096x1024, .f32⟩
  | .hbm, ⟨15, _⟩ => ⟨S4096x1024, .bf16⟩
  | .hbm, ⟨16, _⟩ => ⟨S_, .i32⟩
  | .hbm, ⟨17, _⟩ => ⟨S_, .i32⟩
  | .hbm, ⟨18, _⟩ => ⟨S4096, .i32⟩
  | .hbm, ⟨19, _⟩ => ⟨S4096x1, .i32⟩
  | .hbm, ⟨20, _⟩ => ⟨S1x50257, .f32⟩
  | .hbm, ⟨21, _⟩ => ⟨S4096x1, .f32⟩
  | .hbm, ⟨22, _⟩ => ⟨S4096, .f32⟩
  | .hbm, ⟨23, _⟩ => ⟨S4094, .f32⟩
  | .hbm, ⟨24, _⟩ => ⟨S_, .f32⟩
  | .hbm, ⟨25, _⟩ => ⟨S_, .f32⟩
  | .hbm, ⟨26, _⟩ => ⟨S4094, .f32⟩
  | .hbm, ⟨27, _⟩ => ⟨S4094, .f32⟩
  | .hbm, ⟨28, _⟩ => ⟨S4094, .f32⟩
  | .hbm, ⟨29, _⟩ => ⟨S4094, .f32⟩
  | .hbm, ⟨30, _⟩ => ⟨S_, .f32⟩
  | .hbm, ⟨31, _⟩ => ⟨S4094, .f32⟩
  | .hbm, ⟨32, _⟩ => ⟨S4094, .f32⟩
  | .hbm, ⟨33, _⟩ => ⟨S_, .f32⟩
  | .hbm, ⟨34, _⟩ => ⟨S4094, .f32⟩
  | .hbm, ⟨35, _⟩ => ⟨S4094, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S4094, .f32⟩
  | .hbm, ⟨43, _⟩ => ⟨S4094, .f32⟩
  | .hbm, ⟨44, _⟩ => ⟨S4094, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .local _ .vmem, ⟨0, _⟩ => ⟨S2048x1024, .bf16⟩
  | .local _ .vmem, ⟨1, _⟩ => ⟨S2048x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024, .f32⟩
  | .local _ .vmem, ⟨5, _⟩ => ⟨S1x1024, .f32⟩
  | .local _ .vmem, ⟨6, _⟩ => ⟨S2048x1, .i32⟩
  | .local _ .vmem, ⟨7, _⟩ => ⟨S2048x1, .i32⟩
  | .local _ .vmem, ⟨8, _⟩ => ⟨S2048x1, .f32⟩
  | .local _ .vmem, ⟨9, _⟩ => ⟨S2048x1, .f32⟩
  | .local _ .vmem, ⟨10, _⟩ => ⟨S2048x1, .f32⟩
  | .local _ .vmem, ⟨11, _⟩ => ⟨S2048x1, .f32⟩
  | .local _ .vmem, ⟨12, _⟩ => ⟨S2048x1, .f32⟩
  | _, _ => ⟨S2x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_c_0 : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_c_1 : Ref sig .tc := ⟨.hbm, 16, rfl⟩
abbrev main_call1_v0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst : Ref sig .tc := ⟨.hbm, 24, rfl⟩
abbrev main_call2_v0 : Ref sig .tc := ⟨.hbm, 25, rfl⟩
abbrev main_call2_v1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_2 : Ref sig .tc := ⟨.hbm, 30, rfl⟩
abbrev main_v17 : Ref sig .tc := ⟨.hbm, 31, rfl⟩
abbrev main_v18 : Ref sig .tc := ⟨.hbm, 32, rfl⟩
abbrev main_cst_3 : Ref sig .tc := ⟨.hbm, 33, rfl⟩
abbrev main_v19 : Ref sig .tc := ⟨.hbm, 34, rfl⟩
abbrev main_v20 : Ref sig .tc := ⟨.hbm, 35, rfl⟩
abbrev main_cst_4 : Ref sig .tc := ⟨.hbm, 36, rfl⟩
abbrev main_v21 : Ref sig .tc := ⟨.hbm, 37, rfl⟩
abbrev main_cst_5 : Ref sig .tc := ⟨.hbm, 38, rfl⟩
abbrev main_v22 : Ref sig .tc := ⟨.hbm, 39, rfl⟩
abbrev main_cst_6 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_7 : Ref sig .tc := ⟨.hbm, 45, rfl⟩
abbrev main_v27 : Ref sig .tc := ⟨.hbm, 46, rfl⟩
abbrev main_cst_8 : Ref sig .tc := ⟨.hbm, 47, rfl⟩
abbrev main_v28 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg1 : BitVec 32 := BitVec.ofNat 32 (i 1).val
  let c49_i32 : BitVec 32 := 49#32
  let v60 : BitVec 1 := Scalar.cmpi .eq arg1 c49_i32
  let v61 : BitVec 32 := Scalar.extui v60
  let c0_i32_33 : BitVec 32 := 0#32
  let v62 : BitVec 1 := Scalar.cmpi .ne v61 c0_i32_33
  v62

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x1 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  slices_S2x2048x1024_S2x2047x1024_0_0_0 : S2x2048x1024.Slices ![0, 0, 0] S2x2047x1024
  shapeCasts_S2x2047x1024_S4094x1024 : S2x2047x1024.ShapeCasts S4094x1024
  slices_S2x2048_S2x2047_0_1 : S2x2048.Slices ![0, 1] S2x2047
  shapeCasts_S2x2047_S4094 : S2x2047.ShapeCasts S4094
  bcast_S_S4094 : S_.BroadcastsInDim S4094 (![] : Fin 0 → Fin S4094.rank)
  pads_S4094x1024_S4096x1024_020_000 : S4094x1024.Pads (![0, 0] : Fin 2 → Nat) ![2, 0] ![0, 0] S4096x1024
  h_S_ : 0 < S_.numel
  bitsLt_bf16_f32 : FTy.bits .bf16 < FTy.bits .f32
  pads_S4094_S4096_020 : S4094.Pads (![0] : Fin 1 → Nat) ![2] ![0] S4096
  shapeCasts_S4096_S4096x1 : S4096.ShapeCasts S4096x1
  shapeCasts_S50257_S1x50257 : S50257.ShapeCasts S1x50257
  inb_S2048x1_S2048x1_0_0 : ∀ a, (![0, 0] : Fin 2 → Nat) a + S2048x1.size a ≤ S2048x1.size a
  h_S2048x1 : 0 < S2048x1.numel
  shapeCasts_S2048x1_S2048x1 : S2048x1.ShapeCasts S2048x1
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  iota_S2048x1024_d1_w32 : S2048x1024.Iotas .tc 32 [1]
  reduces_S2048x1024_S2048 : S2048x1024.Reduces [1] S2048
  shapeCasts_S2048_S2048x1 : S2048.ShapeCasts S2048x1
  broadcasts_S2048x1_S2048x1024 : S2048x1.Broadcasts S2048x1024
  shapeCasts_S4096x1_S4096 : S4096x1.ShapeCasts S4096
  slices_S4096_S4094_0 : S4096.Slices ![0] S4094
  reducesTo_S4094_S_d0 : S4094.ReducesTo [0] S_
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x1024.size a ≤ S4096x1024.size a
  hwx0_0 : ∀ i : grid0.Coords, EltTy.bits .bf16 = 32 ∨ (Rect.block (s := S4096x1024) S2048x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hstart0_1 : ∀ (i : grid0.Coords) a, cc0_transform_1 i a * S1024x1024.size a < S50257x1024.size a
  hwx0_1 : ∀ i : grid0.Coords, EltTy.bits .f32 = 32 ∨ (Rect.unit (s := S50257x1024) (fun a => cc0_transform_1 i a * S1024x1024.size a) (fun a => (Pipeline.Clip.of (cc0_transform_1 i a) (S1024x1024.size a) (S50257x1024.size a)).extent (S1024x1024.size a)) fun a => Pipeline.Clip.inb (Pipeline.Clip.ok_of (hstart0_1 i a))).WholeWords (EltTy.packing .f32)
  hwxs0_1 : ∀ i : grid0.Coords, EltTy.bits .f32 = 32 ∨ (Rect.unit (s := S1024x1024) (fun _ => 0) (fun a => (Pipeline.Clip.of (cc0_transform_1 i a) (S1024x1024.size a) (S50257x1024.size a)).extent (S1024x1024.size a)) fun a => (Nat.zero_add _).trans_le (Pipeline.Clip.extent_le (Pipeline.Clip.ok_of (hstart0_1 i a)))).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hstart0_2 : ∀ (i : grid0.Coords) a, cc0_transform_2 i a * S1x1024.size a < S1x50257.size a
  hwx0_2 : ∀ i : grid0.Coords, EltTy.bits .f32 = 32 ∨ (Rect.unit (s := S1x50257) (fun a => cc0_transform_2 i a * S1x1024.size a) (fun a => (Pipeline.Clip.of (cc0_transform_2 i a) (S1x1024.size a) (S1x50257.size a)).extent (S1x1024.size a)) fun a => Pipeline.Clip.inb (Pipeline.Clip.ok_of (hstart0_2 i a))).WholeWords (EltTy.packing .f32)
  hwxs0_2 : ∀ i : grid0.Coords, EltTy.bits .f32 = 32 ∨ (Rect.unit (s := S1x1024) (fun _ => 0) (fun a => (Pipeline.Clip.of (cc0_transform_2 i a) (S1x1024.size a) (S1x50257.size a)).extent (S1x1024.size a)) fun a => (Nat.zero_add _).trans_le (Pipeline.Clip.extent_le (Pipeline.Clip.ok_of (hstart0_2 i a)))).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2048x1.size a ≤ S4096x1.size a
  hwx0_3 : ∀ i : grid0.Coords, EltTy.bits .i32 = 32 ∨ (Rect.block (s := S4096x1) S2048x1.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S4096x1.size a
  hwx0_4 : ∀ i : grid0.Coords, EltTy.bits .f32 = 32 ∨ (Rect.block (s := S4096x1) S2048x1.size (cc0_transform_4 i) (hinb0_4 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_v7) S2048x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpecClip (Memref.whole main_arg1) S1024x1024.size cc0_transform_1 reads0_1 false false 2 stage0_1 sem0_1
    hrank0 hreads0_1 hstart0_1 nbuf0_1 (Memref.isWhole_whole _) hwx0_1 hwxs0_1 hstage0_1

abbrev win0_2 : Pipeline.Window sig grid0 :=
  Pipeline.Window.ofSpecClip (Memref.whole main_v10) S1x1024.size cc0_transform_2 reads0_2 false false 2 stage0_2 sem0_2
    hrank0 hreads0_2 hstart0_2 nbuf0_2 (Memref.isWhole_whole _) hwx0_2 hwxs0_2 hstage0_2

abbrev win0_3 : Pipeline.Window sig grid0 :=
  Pipeline.Window.ofSpec (Memref.whole main_v9) S2048x1.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v11) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S2x2048x1024 : Shape := ⟨3, ![2, 2048, 1024]⟩
abbrev S50257x1024 : Shape := ⟨2, ![50257, 1024]⟩
abbrev S50257 : Shape := ⟨1, ![50257]⟩
abbrev S2x2048 : Shape := ⟨2, ![2, 2048]⟩
abbrev S2x2048x50257 : Shape := ⟨3, ![2, 2048, 50257]⟩
abbrev S1x1x50257 : Shape := ⟨3, ![1, 1, 50257]⟩
abbrev S2x2047x50257 : Shape := ⟨3, ![2, 2047, 50257]⟩
abbrev S4094x50257 : Shape := ⟨2, ![4094, 50257]⟩
abbrev S2x2047 : Shape := ⟨2, ![2, 2047]⟩
abbrev S4094 : Shape := ⟨1, ![4094]⟩
abbrev S_ : Shape := ⟨0, ![]⟩
abbrev S4094x1 : Shape := ⟨2, ![4094, 1]⟩
abbrev S4094x1x1 : Shape := ⟨3, ![4094, 1, 1]⟩
abbrev S1 : Shape := ⟨1, ![1]⟩
abbrev S1x1x1 : Shape := ⟨3, ![1, 1, 1]⟩

abbrev nBuf : Space → Nat
  | .hbm => 85
  | .vmem => 0
  | .smem => 0
  | _ => 0

abbrev bufTy : (tb : Table) → Fin (tcTables nBuf tb) → BufTy
  | .hbm, ⟨0, _⟩ => ⟨S2x2048x1024, .f32⟩
  | .hbm, ⟨1, _⟩ => ⟨S50257x1024, .f32⟩
  | .hbm, ⟨2, _⟩ => ⟨S50257, .f32⟩
  | .hbm, ⟨3, _⟩ => ⟨S2x2048, .i32⟩
  | .hbm, ⟨4, _⟩ => ⟨S2x2048, .i32⟩
  | .hbm, ⟨5, _⟩ => ⟨S2x2048x50257, .f32⟩
  | .hbm, ⟨6, _⟩ => ⟨S1x1x50257, .f32⟩
  | .hbm, ⟨7, _⟩ => ⟨S2x2048x50257, .f32⟩
  | .hbm, ⟨8, _⟩ => ⟨S2x2048x50257, .f32⟩
  | .hbm, ⟨9, _⟩ => ⟨S2x2047x50257, .f32⟩
  | .hbm, ⟨10, _⟩ => ⟨S4094x50257, .f32⟩
  | .hbm, ⟨11, _⟩ => ⟨S2x2047, .i32⟩
  | .hbm, ⟨12, _⟩ => ⟨S4094, .i32⟩
  | .hbm, ⟨13, _⟩ => ⟨S_, .i32⟩
  | .hbm, ⟨14, _⟩ => ⟨S4094, .i32⟩
  | .hbm, ⟨15, _⟩ => ⟨S4094, .i1⟩
  | .hbm, ⟨16, _⟩ => ⟨S_, .i32⟩
  | .hbm, ⟨17, _⟩ => ⟨S_, .i32⟩
  | .hbm, ⟨18, _⟩ => ⟨S4094, .i32⟩
  | .hbm, ⟨19, _⟩ => ⟨S4094, .i32⟩
  | .hbm, ⟨20, _⟩ => ⟨S_, .f32⟩
  | .hbm, ⟨21, _⟩ => ⟨S4094, .f32⟩
  | .hbm, ⟨22, _⟩ => ⟨S_, .f32⟩
  | .hbm, ⟨23, _⟩ => ⟨S4094, .f32⟩
  | .hbm, ⟨24, _⟩ => ⟨S4094, .f32⟩
  | .hbm, ⟨25, _⟩ => ⟨S4094x1, .f32⟩
  | .hbm, ⟨26, _⟩ => ⟨S4094x50257, .f32⟩
  | .hbm, ⟨27, _⟩ => ⟨S4094x50257, .f32⟩
  | .hbm, ⟨28, _⟩ => ⟨S4094x50257, .f32⟩
  | .hbm, ⟨29, _⟩ => ⟨S_, .f32⟩
  | .hbm, ⟨30, _⟩ => ⟨S4094, .f32⟩
  | .hbm, ⟨31, _⟩ => ⟨S4094x1, .f32⟩
  | .hbm, ⟨32, _⟩ => ⟨S4094x1, .f32⟩
  | .hbm, ⟨33, _⟩ => ⟨S4094x50257, .f32⟩
  | .hbm, ⟨34, _⟩ => ⟨S4094x50257, .f32⟩
  | .hbm, ⟨35, _⟩ => ⟨S4094x1, .i32⟩
  | .hbm, ⟨36, _⟩ => ⟨S_, .i32⟩
  | .hbm, ⟨37, _⟩ => ⟨S4094x1, .i32⟩
  | .hbm, ⟨38, _⟩ => ⟨S4094x1, .i1⟩
  | .hbm, ⟨39, _⟩ => ⟨S_, .i32⟩
  | .hbm, ⟨40, _⟩ => ⟨S4094x1, .i32⟩
  | .hbm, ⟨41, _⟩ => ⟨S4094x1, .i32⟩
  | .hbm, ⟨42, _⟩ => ⟨S4094x1, .i32⟩
  | .hbm, ⟨43, _⟩ => ⟨S4094x1x1, .i32⟩
  | .hbm, ⟨44, _⟩ => ⟨S1, .i32⟩
  | .hbm, ⟨45, _⟩ => ⟨S_, .i32⟩
  | .hbm, ⟨46, _⟩ => ⟨S4094x1x1, .i32⟩
  | .hbm, ⟨47, _⟩ => ⟨S4094x1x1, .i1⟩
  | .hbm, ⟨48, _⟩ => ⟨S1x1x1, .i32⟩
  | .hbm, ⟨49, _⟩ => ⟨S4094x1x1, .i32⟩
  | .hbm, ⟨50, _⟩ => ⟨S4094x1x1, .i1⟩
  | .hbm, ⟨51, _⟩ => ⟨S4094x1x1, .i1⟩
  | .hbm, ⟨52, _⟩ => ⟨S_, .i1⟩
  | .hbm, ⟨53, _⟩ => ⟨S4094x1, .i1⟩
  | .hbm, ⟨54, _⟩ => ⟨S4094x1, .f32⟩
  | .hbm, ⟨55, _⟩ => ⟨S_, .f32⟩
  | .hbm, ⟨56, _⟩ => ⟨S4094x1, .f32⟩
  | .hbm, ⟨57, _⟩ => ⟨S4094x1, .f32⟩
  | .hbm, ⟨58, _⟩ => ⟨S4094, .f32⟩
  | .hbm, ⟨59, _⟩ => ⟨S4094, .f32⟩
  | .hbm, ⟨60, _⟩ => ⟨S_, .f32⟩
  | .hbm, ⟨61, _⟩ => ⟨S_, .f32⟩
  | .hbm, ⟨62, _⟩ => ⟨S4094, .f32⟩
  | .hbm, ⟨63, _⟩ => ⟨S4094, .f32⟩
  | .hbm, ⟨64, _⟩ => ⟨S4094, .f32⟩
  | .hbm, ⟨65, _⟩ => ⟨S4094, .f32⟩
  | .hbm, ⟨66, _⟩ => ⟨S_, .f32⟩
  | .hbm, ⟨67, _⟩ => ⟨S4094, .f32⟩
  | .hbm, ⟨68, _⟩ => ⟨S4094, .f32⟩
  | .hbm, ⟨69, _⟩ => ⟨S_, .f32⟩
  | .hbm, ⟨70, _⟩ => ⟨S4094, .f32⟩
  | .hbm, ⟨71, _⟩ => ⟨S4094, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S4094, .f32⟩
  | .hbm, ⟨79, _⟩ => ⟨S4094, .f32⟩
  | .hbm, ⟨80, _⟩ => ⟨S4094, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | _, _ => ⟨S2x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_c : Ref sig .tc := ⟨.hbm, 13, rfl⟩
abbrev main_v8 : Ref sig .tc := ⟨.hbm, 14, rfl⟩
abbrev main_v9 : Ref sig .tc := ⟨.hbm, 15, rfl⟩
abbrev main_c_0 : Ref sig .tc := ⟨.hbm, 16, rfl⟩
abbrev main_call0_v0 : Ref sig .tc := ⟨.hbm, 17, rfl⟩
abbrev main_call0_v1 : Ref sig .tc := ⟨.hbm, 18, rfl⟩
abbrev main_v10 : Ref sig .tc := ⟨.hbm, 19, rfl⟩
abbrev main_call1_cst : Ref sig .tc := ⟨.hbm, 20, rfl⟩
abbrev main_call1_v0 : Ref sig .tc := ⟨.hbm, 21, rfl⟩
abbrev main_call1_cst_0 : Ref sig .tc := ⟨.hbm, 22, rfl⟩
abbrev main_call1_v1 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_v6 : Ref sig .tc := ⟨.hbm, 28, rfl⟩
abbrev main_call1_cst_1 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_v11 : Ref sig .tc := ⟨.hbm, 34, rfl⟩
abbrev main_v12 : Ref sig .tc := ⟨.hbm, 35, rfl⟩
abbrev main_call2_c : Ref sig .tc := ⟨.hbm, 36, rfl⟩
abbrev main_call2_v0 : Ref sig .tc := ⟨.hbm, 37, rfl⟩
abbrev main_call2_v1 : Ref sig .tc := ⟨.hbm, 38, rfl⟩
abbrev main_call2_c_0 : Ref sig .tc := ⟨.hbm, 39, rfl⟩
abbrev main_call2_v2 : Ref sig .tc := ⟨.hbm, 40, rfl⟩
abbrev main_call2_v3 : Ref sig .tc := ⟨.hbm, 41, rfl⟩
abbrev main_call2_v4 : Ref sig .tc := ⟨.hbm, 42, rfl⟩
abbrev main_call2_v5 : Ref sig .tc := ⟨.hbm, 43, rfl⟩
abbrev main_call2_c_1 : Ref sig .tc := ⟨.hbm, 44, rfl⟩
abbrev main_call2_c_2 : Ref sig .tc := ⟨.hbm, 45, rfl⟩
abbrev main_call2_v6 : Ref sig .tc := ⟨.hbm, 46, rfl⟩
abbrev main_call2_v7 : Ref sig .tc := ⟨.hbm, 47, rfl⟩
abbrev main_call2_v8 : Ref sig .tc := ⟨.hbm, 48, rfl⟩
abbrev main_call2_v9 : Ref sig .tc := ⟨.hbm, 49, rfl⟩
abbrev main_call2_v10 : Ref sig .tc := ⟨.hbm, 50, rfl⟩
abbrev main_call2_v11 : Ref sig .tc := ⟨.hbm, 51, rfl⟩
abbrev main_call2_c_3 : Ref sig .tc := ⟨.hbm, 52, rfl⟩
abbrev main_call2_v12 : Ref sig .tc := ⟨.hbm, 53, rfl⟩
abbrev main_call2_v13 : Ref sig .tc := ⟨.hbm, 54, rfl⟩
abbrev main_call2_cst : Ref sig .tc := ⟨.hbm, 55, rfl⟩
abbrev main_call2_v14 : Ref sig .tc := ⟨.hbm, 56, rfl⟩
abbrev main_v13 : Ref sig .tc := ⟨.hbm, 57, rfl⟩
abbrev main_v14 : Ref sig .tc := ⟨.hbm, 58, rfl⟩
abbrev main_v15 : Ref sig .tc := ⟨.hbm, 59, rfl⟩
abbrev main_cst : Ref sig .tc := ⟨.hbm, 60, rfl⟩
abbrev main_call3_v0 : Ref sig .tc := ⟨.hbm, 61, rfl⟩
abbrev main_call3_v1 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_cst_1 : Ref sig .tc := ⟨.hbm, 66, rfl⟩
abbrev main_v19 : Ref sig .tc := ⟨.hbm, 67, rfl⟩
abbrev main_v20 : Ref sig .tc := ⟨.hbm, 68, rfl⟩
abbrev main_cst_2 : Ref sig .tc := ⟨.hbm, 69, rfl⟩
abbrev main_v21 : Ref sig .tc := ⟨.hbm, 70, rfl⟩
abbrev main_v22 : Ref sig .tc := ⟨.hbm, 71, rfl⟩
abbrev main_cst_3 : Ref sig .tc := ⟨.hbm, 72, rfl⟩
abbrev main_v23 : Ref sig .tc := ⟨.hbm, 73, rfl⟩
abbrev main_cst_4 : Ref sig .tc := ⟨.hbm, 74, rfl⟩
abbrev main_v24 : Ref sig .tc := ⟨.hbm, 75, rfl⟩
abbrev main_cst_5 : Ref sig .tc := ⟨.hbm, 76, rfl⟩
abbrev main_v25 : Ref sig .tc := ⟨.hbm, 77, rfl⟩
abbrev main_v26 : Ref sig .tc := ⟨.hbm, 78, rfl⟩
abbrev main_v27 : Ref sig .tc := ⟨.hbm, 79, rfl⟩
abbrev main_v28 : Ref sig .tc := ⟨.hbm, 80, rfl⟩
abbrev main_cst_6 : Ref sig .tc := ⟨.hbm, 81, rfl⟩
abbrev main_v29 : Ref sig .tc := ⟨.hbm, 82, rfl⟩
abbrev main_cst_7 : Ref sig .tc := ⟨.hbm, 83, rfl⟩
abbrev main_v30 : Ref sig .tc := ⟨.hbm, 84, rfl⟩

abbrev nD : Nat := 1
abbrev τ : Topo := Topo.v7x

variable {F : FTy → Type} [FloatOps F]

class Facts₀ : Prop where
  bcast_S50257_S1x1x50257_2 : S50257.BroadcastsInDim S1x1x50257 (![2] : Fin 1 → Fin S1x1x50257.rank)
  bcast_S1x1x50257_S2x2048x50257_0_1_2 : S1x1x50257.BroadcastsInDim S2x2048x50257 (![0, 1, 2] : Fin 3 → Fin S2x2048x50257.rank)
  slices_S2x2048x50257_S2x2047x50257_0_0_0 : S2x2048x50257.Slices ![0, 0, 0] S2x2047x50257
  shapeCasts_S2x2047x50257_S4094x50257 : S2x2047x50257.ShapeCasts S4094x50257
  slices_S2x2048_S2x2047_0_1 : S2x2048.Slices ![0, 1] S2x2047
  shapeCasts_S2x2047_S4094 : S2x2047.ShapeCasts S4094
  bcast_S_S4094 : S_.BroadcastsInDim S4094 (![] : Fin 0 → Fin S4094.rank)
  reducesTo_S4094x50257_S4094_d1 : S4094x50257.ReducesTo [1] S4094
  h_S_ : 0 < S_.numel
  bcast_S4094_S4094x1_0 : S4094.BroadcastsInDim S4094x1 (![0] : Fin 1 → Fin S4094x1.rank)
  bcast_S4094x1_S4094x50257_0_1 : S4094x1.BroadcastsInDim S4094x50257 (![0, 1] : Fin 2 → Fin S4094x50257.rank)
  bcast_S_S4094x1 : S_.BroadcastsInDim S4094x1 (![] : Fin 0 → Fin S4094x1.rank)
  shapeCasts_S4094x1_S4094x1x1 : S4094x1.ShapeCasts S4094x1x1
  bcast_S_S4094x1x1 : S_.BroadcastsInDim S4094x1x1 (![] : Fin 0 → Fin S4094x1x1.rank)
  bcast_S1_S1x1x1_2 : S1.BroadcastsInDim S1x1x1 (![2] : Fin 1 → Fin S1x1x1.rank)
  bcast_S1x1x1_S4094x1x1_0_1_2 : S1x1x1.BroadcastsInDim S4094x1x1 (![0, 1, 2] : Fin 3 → Fin S4094x1x1.rank)
  reducesTo_S4094x1x1_S4094x1_d2 : S4094x1x1.ReducesTo [2] S4094x1
  shapeCasts_S4094x1_S4094 : S4094x1.ShapeCasts S4094
  reducesTo_S4094_S_d0 : S4094.ReducesTo [0] S_
  dot_S2x2048x1024_S50257x1024_S2x2048x50257_2_1_01_0_n_n_wf : DotDims.WF S2x2048x1024 S50257x1024 S2x2048x50257 [2] [1] [0, 1] [0] [] []
  gather_S4094x50257_S4094x1x1_S4094x1_n_1_0_0_1_2_11_wf : GatherDims.WF S4094x50257 S4094x1x1 S4094x1 [] [1] [0] [1] [0] 2 ![1, 1]

variable [Facts₀]

def dot_S2x2048x1024_S50257x1024_S2x2048x50257_2_1_01_0_n_n : DotDims S2x2048x1024 S50257x1024 S2x2048x50257 where
  lhsContracting := [2]
  rhsContracting := [1]
  lhsNonContracting := [0, 1]
  rhsNonContracting := [0]
  lhsBatch := []
  rhsBatch := []
  wf := dot_S2x2048x1024_S50257x1024_S2x2048x50257_2_1_01_0_n_n_wf
def gather_S4094x50257_S4094x1x1_S4094x1_n_1_0_0_1_2_11 : GatherDims S4094x50257 S4094x1x1 S4094x1 where
  offsetDims := []
  collapsedSliceDims := [1]
  operandBatchingDims := [0]
  startIndicesBatchingDims := [0]
  startIndexMap := [1]
  indexVectorDim := 2
  sliceSizes := ![1, 1]
  wf := gather_S4094x50257_S4094x1x1_S4094x1_n_1_0_0_1_2_11_wf

class Facts : Prop extends Facts₀ where

variable [Facts]
-- ==== Proof.KernelFrame.lean ====
/-
  The frame of `Cert.Kernel`: every weakly fair execution of @main terminates, nothing faulting, and the five
  argument arrays end as launched — from RELATIONAL proof data that says nothing about values.

  @main is host lines, one pipelined region on the grid [2, 50], host lines. The region's body only loads and stores
  whole buffers (five staging buffers, three scratch buffers carried across the points) at literal unit rectangles,
  and branches on the grid coordinates alone; so from the eight buffers at ANY contents it runs to the eight buffers
  at SOME contents (`kernelRun`). The proof data (`rdat`) therefore relates what the body finds in a staging buffer
  to what it leaves there by the relation that always holds, and keeps as invariant only that the scratch buffers
  hold something and the generator register is in some state. What the run then concludes (`run_main`) is what
  follows from the schedule alone: an input window's array is never written, so it ends as the region found it; an
  unscoped buffer that is no window's array and that no later host line writes ends as the region found it. The five
  argument arrays are of these two kinds (window 1's array; four arrays no window stages), and no host line before
  the region writes them (`frame`).
-/
import proofs.«423894_j137438953739_3_alg».proof.Defs
import proofs.«423894_j137438953739_3_alg».proof.Proof.Gen.Kernel.Frame
import proofs.«423894_j137438953739_3_alg».proof.Proof.Gen.Kernel.Skeleton
import proofs.«423894_j137438953739_3_alg».proof.Proof.Gen.Pre_finite_inputs
import Idealize.ShloMosaic.Lib.Pipeline.FrameSuffix
import Idealize.ShloMosaic.Lib.Tactic

set_option maxRecDepth 16384

noncomputable section

namespace Cert.Kernel.FrameProof

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The body's triple, saying nothing of values -/

/-- The eight buffers the body touches (five staging memrefs, three scratch), each owned whole at contents nothing
    names. -/
def held (c : Dev nD)
    (arg2 : Memref sig .tc .vmem S2048x1024 .bf16) (arg3 : Memref sig .tc .vmem S1024x1024 .f32)
    (arg4 : Memref sig .tc .vmem S1x1024 .f32) (arg5 : Memref sig .tc .vmem S2048x1 .i32)
    (arg6 arg7 arg8 arg9 : Memref sig .tc .vmem S2048x1 .f32) : sProp 𝕄 :=
  iprop((∃ d, owns (c : Thread nD τ) arg2 fullShare d) ∗ (∃ d, owns (c : Thread nD τ) arg3 fullShare d)
    ∗ (∃ d, owns (c : Thread nD τ) arg4 fullShare d) ∗ (∃ d, owns (c : Thread nD τ) arg5 fullShare d)
    ∗ (∃ d, owns (c : Thread nD τ) arg6 fullShare d) ∗ (∃ d, owns (c : Thread nD τ) arg7 fullShare d)
    ∗ (∃ d, owns (c : Thread nD τ) arg8 fullShare d) ∗ (∃ d, owns (c : Thread nD τ) arg9 fullShare d))

/-- A memref's elements at any contents of their buffer are the memref owned at some contents. -/
theorem forget (c : Dev nD) {sp : Space} {sh : Shape} {e : EltTy} (M : Memref sig .tc sp sh e) (f : M.view.ty.Contents (Elt F)) :
    (M.view.loc (c : Thread nD τ) ↦[M.view.set]{fullShare} f : sProp 𝕄) ⊢ iprop(∃ d, owns (c : Thread nD τ) M fullShare d) :=
  (owns_intro (c : Thread nD τ) M fullShare f).trans (by iintro H; iexists _; iexact H)

set_option maxHeartbeats 2000000 in
/-- The body only loads and stores whole buffers at literal unit rectangles and branches on the grid coordinates:
    from the eight buffers at any contents it runs, faulting nowhere, to the eight buffers at some contents. Both
    conditionals are joined inside the contents the stores leave, which the post forgets. -/
theorem kernelRun (c : Dev nD) (i : grid0.Coords)
    (arg2 : Memref sig .tc .vmem S2048x1024 .bf16) (harg2 : arg2.IsWhole) (arg3 : Memref sig .tc .vmem S1024x1024 .f32) (harg3 : arg3.IsWhole)
    (arg4 : Memref sig .tc .vmem S1x1024 .f32) (harg4 : arg4.IsWhole) (arg5 : Memref sig .tc .vmem S2048x1 .i32) (harg5 : arg5.IsWhole)
    (arg6 : Memref sig .tc .vmem S2048x1 .f32) (harg6 : arg6.IsWhole) (arg7 : Memref sig .tc .vmem S2048x1 .f32) (harg7 : arg7.IsWhole)
    (arg8 : Memref sig .tc .vmem S2048x1 .f32) (harg8 : arg8.IsWhole) (arg9 : Memref sig .tc .vmem S2048x1 .f32) (harg9 : arg9.IsWhole)
    (𝒱₀ : Variants) (E : Set ℕ) (K : PUnit → sProp 𝕄) :
    iprop(held (F := F) c arg2 arg3 arg4 arg5 arg6 arg7 arg8 arg9 ∗ (held (F := F) c arg2 arg3 arg4 arg5 arg6 arg7 arg8 arg9 -∗ K ⟨⟩))
      ⊢ wp frame (wpE (defs₀ (F := F)) 𝒱₀ c none) E
          (cc0__focal_loss_kernel i arg2 harg2 arg3 harg3 arg4 harg4 arg5 harg5 arg6 harg6 arg7 harg7 arg8 harg8 arg9 harg9) K := by
  simp only [cc0__focal_loss_kernel_eq_skeleton]; unfold cc0__focal_loss_kernel_skel
  simp only [k0_part1_eq_skeleton]
  iintro ⟨Hh, Hk⟩
  unfold held owns
  icases Hh with ⟨⟨%d2, %f2, -, H2⟩, ⟨%d3, %f3, -, H3⟩, ⟨%d4, %f4, -, H4⟩, ⟨%d5, %f5, -, H5⟩, ⟨%d6, %f6, -, H6⟩, ⟨%d7, %f7, -, H7⟩, ⟨%d8, %f8, -, H8⟩, ⟨%d9, %f9, -, H9⟩⟩
  sl_exec
  sl_step
  ihave H2 := (forget (F := F) c arg2 _) $$ H2
  ihave H3 := (forget (F := F) c arg3 _) $$ H3
  ihave H4 := (forget (F := F) c arg4 _) $$ H4
  ihave H5 := (forget (F := F) c arg5 _) $$ H5
  ihave H6 := (forget (F := F) c arg6 _) $$ H6
  ihave H7 := (forget (F := F) c arg7 _) $$ H7
  ihave H8 := (forget (F := F) c arg8 _) $$ H8
  ihave H9 := (forget (F := F) c arg9 _) $$ H9
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- A whole buffer at some contents is its whole memref owned at some contents, -/
theorem owns_of_pt (c : Dev nD) (b : Ref sig .tc) :
    (iprop(∃ f : Buf (Elt F) ((c : Thread nD τ).loc b), ((c : Thread nD τ).loc b) ↦{fullShare} f) : sProp 𝕄)
      ⊢ iprop(∃ d, owns (c : Thread nD τ) (Memref.whole b) fullShare d) := by
  iintro ⟨%f, H⟩; iexists f
  iapply (Entails.of_eq (owns_whole (Val := Elt F) (c : Thread nD τ) b fullShare f).symm); iexact H
/-- and back. -/
theorem pt_of_owns (c : Dev nD) (b : Ref sig .tc) :
    (iprop(∃ d, owns (c : Thread nD τ) (Memref.whole b) fullShare d) : sProp 𝕄)
      ⊢ iprop(∃ f : Buf (Elt F) ((c : Thread nD τ).loc b), ((c : Thread nD τ).loc b) ↦{fullShare} f) := by
  iintro ⟨%d, H⟩; iexists d
  iapply (Entails.of_eq (owns_whole (Val := Elt F) (c : Thread nD τ) b fullShare d)); iexact H

/-! ## The proof data: relations that say nothing -/

/-- The relational proof data of the one pipeline on core `c`: the arrays as the region finds them; of what the body
    leaves in any staging buffer, nothing (the relation holds of any two contents); the invariant the class's (the
    scratch at some contents, the generator register at some state); nothing owed; full shares. -/
def rdat (c : Dev nD) : RDat τ (Elt F) Unit ℕ (UR sig nD τ) ℕ (cfgs 0) c where
  A w := V m c (Pipeline.arrRef spec0 w)
  after _ _ _ _ := True
  Φ _ := Pipeline.ΦA spec0 c
  q _ := fullShare
  owed _ := 0

theorem rdat_share (c : Dev nD) (w : Fin cfg0.W) : (rdat m c).share w = fullShare := by
  unfold RDat.share; split <;> rfl

set_option maxHeartbeats 1000000 in
/-- The body obligation at every point: whatever the staging buffers hold, the body runs from the invariant and the
    five current buffers back to them; what it leaves is unconstrained. -/
theorem body_obligation (𝒱₀ : Variants) (c : Dev nD) : (rdat m c).BodyObligation (defs₀ (F := F)) 𝒱₀ () Set.univ := fun t Y _ => by
  rw [bigSep_W0, bigSep_W0]
  show iprop(Pipeline.ΦA spec0 c ∗ (rdat m c).owesAt () t.castSucc
      ∗ owns (c : Thread nD τ) (st0_0 t) fullShare (Y 0) ∗ owns (c : Thread nD τ) (st0_1 t) fullShare (Y 1)
      ∗ owns (c : Thread nD τ) (st0_2 t) fullShare (Y 2) ∗ owns (c : Thread nD τ) (st0_3 t) fullShare (Y 3)
      ∗ owns (c : Thread nD τ) (st0_4 t) fullShare (Y 4))
    ⊢ wp frame (wpE (defs₀ (F := F)) 𝒱₀ c none) Set.univ (bodyAt0 t) (fun _ =>
      iprop(Pipeline.ΦA spec0 c ∗ (rdat m c).owesAt () t.castSucc
        ∗ (∃ X, ⌜True⌝ ∗ owns (c : Thread nD τ) (st0_0 t) fullShare X) ∗ (∃ X, ⌜True⌝ ∗ owns (c : Thread nD τ) (st0_1 t) fullShare X)
        ∗ (∃ X, ⌜True⌝ ∗ owns (c : Thread nD τ) (st0_2 t) fullShare X) ∗ (∃ X, ⌜True⌝ ∗ owns (c : Thread nD τ) (st0_3 t) fullShare X)
        ∗ (∃ X, ⌜True⌝ ∗ owns (c : Thread nD τ) (st0_4 t) fullShare X)))
  unfold Pipeline.ΦA bodyAt0
  rw [scopedRest0_eq]
  iintro ⟨⟨⟨S0, S1, S2⟩, Hr⟩, Ho, H0, H1, H2, H3, H4⟩
  ihave S0 := (owns_of_pt (F := F) c cc0_scratch0) $$ S0
  ihave S1 := (owns_of_pt (F := F) c cc0_scratch1) $$ S1
  ihave S2 := (owns_of_pt (F := F) c cc0_scratch2) $$ S2
  iapply (kernelRun (F := F) c (grid0.coords t) _ _ _ _ _ _ _ _ _ _ _ _ _ _ _ _ 𝒱₀ Set.univ _)
  isplitl [H0 H1 H2 H3 H4 S0 S1 S2]
  · unfold held
    isplitl [H0]; · iexists _; iexact H0
    isplitl [H1]; · iexists _; iexact H1
    isplitl [H2]; · iexists _; iexact H2
    isplitl [H3]; · iexists _; iexact H3
    isplitl [H4]; · iexists _; iexact H4
    isplitl [S0]; · iexact S0
    isplitl [S1]; · iexact S1
    iexact S2
  unfold held
  iintro ⟨⟨%X0, H0⟩, ⟨%X1, H1⟩, ⟨%X2, H2⟩, ⟨%X3, H3⟩, ⟨%X4, H4⟩, S0, S1, S2⟩
  ihave S0 := (pt_of_owns (F := F) c cc0_scratch0) $$ S0
  ihave S1 := (pt_of_owns (F := F) c cc0_scratch1) $$ S1
  ihave S2 := (pt_of_owns (F := F) c cc0_scratch2) $$ S2
  isplitl [S0 S1 S2 Hr]
  · isplitr [Hr]
    · isplitl [S0]; · iexact S0
      isplitl [S1]; · iexact S1
      iexact S2
    iexact Hr
  isplitl [Ho]; · iexact Ho
  isplitl [H0]; · iexists X0; isplitr; · ipureintro; trivial
                  iexact H0
  isplitl [H1]; · iexists X1; isplitr; · ipureintro; trivial
                  iexact H1
  isplitl [H2]; · iexists X2; isplitr; · ipureintro; trivial
                  iexact H2
  isplitl [H3]; · iexists X3; isplitr; · ipureintro; trivial
                  iexact H3
  iexists X4; isplitr; · ipureintro; trivial
  iexact H4

/-! ## The run and the frame -/

/-- Every buffer but the five argument arrays; every buffer a host line after the region writes is among them. -/
def T : Finset (Ref sig .tc) := Finset.univ \ {main_arg0, main_arg1, main_arg2, main_arg3, main_arg4}

theorem mem_T {b : Ref sig .tc} (h : b ∉ ({main_arg0, main_arg1, main_arg2, main_arg3, main_arg4} : Finset (Ref sig .tc))) : b ∈ T :=
  Finset.mem_sdiff.mpr ⟨Finset.mem_univ _, h⟩

/-- Each host line after the region writes only its own result buffer, which is no argument array. -/
theorem sfx_T : ∀ ops ∈ ([hostOps1, hostOps1_1, hostOps1_2] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl | rfl | rfl
  · simp only [hostOps1, List.mem_cons, List.mem_nil_iff, or_false] at hop
    rcases hop with rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      exact mem_T (by decide)
  · simp only [hostOps1_1, List.mem_cons, List.mem_nil_iff, or_false] at hop
    rcases hop with rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      exact mem_T (by decide)
  · simp only [hostOps1_2, List.mem_cons, List.mem_nil_iff, or_false] at hop
    rcases hop with rfl | rfl | rfl | rfl | rfl | rfl | rfl | rfl | rfl | rfl | rfl | rfl | rfl | rfl | rfl | rfl | rfl | rfl | rfl | rfl | rfl
    all_goals
      intro b hb
      simp only [StableHlo.nullary_writes, StableHlo.unary_writes, StableHlo.binary_writes, StableHlo.ternary_writes, StableHlo.quaternary_writes, StableHlo.reshape_writes, StableHlo.binaryIndexed_writes, Finset.mem_singleton] at hb
      obtain rfl := Proc.devRef_injective (τ := τ) _ hb
      exact mem_T (by decide)

set_option backward.isDefEq.respectTransparency.types false in
/-- Every weakly fair execution of @main terminates, nothing faulting; every array of the pipeline ends at some
    contents it may hold (an input's at its entry contents), every other unscoped buffer the later host lines do not
    write at its region-entry contents. -/
theorem run_main (𝒱₀ : Variants) : θ_run defs (onTc (τ := τ) (main (F := F))) (s₀ m ρ)
    (RDat.FramePostR (cfgs 0) (rdat m) T (fun c b => V0 m c (Proc.devRef .tc b))) :=
  RDat.θ_run_frame_around_T cfgs (0 : Fin 1) launch0 defs₀ 𝒱₀ (rdat m) T m ρ main
    (hbody := body_obligation m 𝒱₀) (hshare := rdat_share m) (howed := fun _ _ => rfl)
    (V₀ := V0 m) (opss := [hostOps1, hostOps1_1, hostOps1_2]) (hsub := sfx_sub) (hfresh := sfx_fresh) (hkeep := sfx_keeps)
    (hT := sfx_T) (hmain := hmain m 𝒱₀) (hA := fun _ _ => rfl) (hΦ := fun _ _ => rfl)

theorem not_mem_T {b : Ref sig .tc} (h : b ∈ ({main_arg0, main_arg1, main_arg2, main_arg3, main_arg4} : Finset (Ref sig .tc))) : b ∉ T :=
  fun hb => (Finset.mem_sdiff.mp hb).2 h

/-- The frame claim's post from the run's: window 1's array (an input: its entry contents) and the four argument
    arrays no window stages (unscoped, outside `T`: their region-entry contents), each as launched since no host line
    before the region writes it. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨((h c).2 main_arg0 (Finset.mem_sdiff.mpr ⟨Pipeline.mem_restRefs_of main_arg0 (by decide) (by decide), not_mem_T (by decide)⟩)).trans (V_main_arg0 m c),
     (RDat.FramePostR.arr_in h c 1 rfl).trans (V_main_arg1 m c),
     ((h c).2 main_arg2 (Finset.mem_sdiff.mpr ⟨Pipeline.mem_restRefs_of main_arg2 (by decide) (by decide), not_mem_T (by decide)⟩)).trans (V_main_arg2 m c),
     ((h c).2 main_arg3 (Finset.mem_sdiff.mpr ⟨Pipeline.mem_restRefs_of main_arg3 (by decide) (by decide), not_mem_T (by decide)⟩)).trans (V_main_arg3 m c),
     ((h c).2 main_arg4 (Finset.mem_sdiff.mpr ⟨Pipeline.mem_restRefs_of main_arg4 (by decide) (by decide), not_mem_T (by decide)⟩)).trans (V_main_arg4 m c)⟩)
    (run_main m ρ Variants.none)

/-- The frame claim at the instance the program is printed at. -/
theorem frame_p : @Cert.frame_Kernel Cert.Kernel.Gen.facts Cert.Pre_finite_inputs.Gen.facts :=
  fun m ρ _ => frame (F := Bits) m ρ

end Cert.Kernel.FrameProof

end
-- ==== Proof.IdealData.lean ====
/-
  What the idealized kernel's region holds, point by point, as terms over the skeleton's payloads (at the ideal
  instance: floats are extended reals).

  The grid's 100 points run row block `r` (two of them) outermost and vocabulary tile `vt` (fifty) innermost. At a
  point the body reads the row block's 2048 × 1024 embeddings (`xblk`), the tile's 1024 rows of `W` (`wblk`) and 1024
  entries of the bias (`bblk`), and the row block's 2048 labels (`lblk`). Tile 49 runs 943 entries past the
  vocabulary's end: there the staging buffers hold words nothing names, and `wblk` / `bblk` fill them with zero —
  the masked logits (`k0_pay9`) do not depend on what stands there.

  Between points the kernel carries three 2048 × 1 scratch vectors (`Scr`): the running maximum, the rescaled running
  sum of exponentials and the selected logit. Tile 0 resets them (`reset`) before it runs; every tile updates them
  (`step`); tile 49 stores `(max + log sum) - selected` to the output block (`outAt`).
-/
import proofs.«423894_j137438953739_3_alg».proof.Proof.Gen.KernelIdeal.Frame
import proofs.«423894_j137438953739_3_alg».proof.Proof.Gen.KernelIdeal.Skeleton

noncomputable section

namespace Cert.KernelIdeal.Exact

open Cert.KernelIdeal Cert.KernelIdeal.Gen
open Idealize.ShloMosaic Idealize.ShloMosaic.TcCoe Idealize.SL.Sem

variable (m : (ℓ : Loc nD τ sig) → Buf (Elt Ideal) ℓ)

/-- The row block's embeddings at point `t`. -/
def xblk (c : Dev nD) (t : Fin cfg0.N) : Vec Ideal S2048x1024 .bf16 := Gen.iblk (F := Ideal) m c 0 t
/-- The tile's rows of `W` at point `t`: inside the array what the array holds, zero past its end. -/
def wblk (c : Dev nD) (t : Fin cfg0.N) : Vec Ideal S1024x1024 .f32 :=
  win0_1.fill (grid0.coords t) (fun _ => (0 : EReal)) (Gen.iblk (F := Ideal) m c 1 t)
/-- The tile's entries of the bias at point `t`, likewise. -/
def bblk (c : Dev nD) (t : Fin cfg0.N) : Vec Ideal S1x1024 .f32 :=
  win0_2.fill (grid0.coords t) (fun _ => (0 : EReal)) (Gen.iblk (F := Ideal) m c 2 t)
/-- The row block's labels at point `t`. -/
def lblk (c : Dev nD) (t : Fin cfg0.N) : Vec Ideal S2048x1 .i32 := Gen.iblk (F := Ideal) m c 3 t

/-- The three carried vectors: running maximum, rescaled running sum of exponentials, selected logit. -/
structure Scr where
  mx : Vec Ideal S2048x1 .f32
  sm : Vec Ideal S2048x1 .f32
  tg : Vec Ideal S2048x1 .f32

/-- What tile 0 stores before it runs: `-∞`, zero, zero. -/
def reset : Scr := ⟨k0_pay5 (F := Ideal), k0_pay6 (F := Ideal), k0_pay7 (F := Ideal)⟩

/-- Whether the tile at `i` starts inside the vocabulary, as the kernel computes it (it does at every point). -/
def guard (i : grid0.Coords) : BitVec 1 :=
  Scalar.cmpi .slt (Scalar.muli (BitVec.ofNat 32 (i 1).val) 1024#32) 50257#32

/-- One tile: from the carried vectors `s` and the point's blocks to the carried vectors after it. -/
def step (i : grid0.Coords) (x : Vec Ideal S2048x1024 .bf16) (w : Vec Ideal S1024x1024 .f32) (b : Vec Ideal S1x1024 .f32)
    (lab : Vec Ideal S2048x1 .i32) (s : Scr) : Scr :=
  ⟨k0_pay2 (k0_pay10 i x w b s.mx s.mx),
   k0_pay1 (guard i) (k0_pay11 i x w b s.mx s.mx s.mx) (k0_pay12 i x w b s.mx s.mx) s.sm s.sm,
   k0_pay3 (k0_pay8 i) (k0_pay9 i x w b) lab s.tg⟩

/-- The carried vectors after the first `n` points (a tile 0 starts from `reset`, whatever stood before). -/
def scrAfter (c : Dev nD) : Nat → Scr
  | 0 => reset
  | n + 1 =>
    if h : n < cfg0.N then
      step (grid0.coords ⟨n, h⟩) (xblk m c ⟨n, h⟩) (wblk m c ⟨n, h⟩) (bblk m c ⟨n, h⟩) (lblk m c ⟨n, h⟩)
        (if n % 50 = 0 then reset else scrAfter c n)
    else reset

/-- What point `t` leaves in the output's staging buffer when it stores there (tile 49). -/
def outAt (c : Dev nD) (t : Fin cfg0.N) : Vec Ideal S2048x1 .f32 :=
  k0_pay4 (scrAfter m c (t.val + 1)).mx (scrAfter m c (t.val + 1)).sm (scrAfter m c (t.val + 1)).tg

end Cert.KernelIdeal.Exact

end
-- ==== Proof.IdealDats.lean ====
/-
  The proof data of the idealized kernel's region at the ideal instance.

  Between points the three carried vectors (running maximum, rescaled running sum of exponentials, selected logit)
  stand in the kernel's three scratch buffers, and the region's invariant names them: before a tile 0 (which resets
  them) and after the last point they hold anything; elsewhere they hold what the points so far made of them
  (scrAfter). After the body the input windows' staging buffers hold their blocks (the clipped ones filled out with
  zero past the array's end) and, at tile 49, the output window's holds (max + log sum) - selected (outAt).
-/
import proofs.«423894_j137438953739_3_alg».proof.Proof.IdealData
import proofs.«423894_j137438953739_3_alg».proof.Proof.Gen.KernelIdeal.Frame
import proofs.«423894_j137438953739_3_alg».proof.Proof.Gen.KernelIdeal.Points
import proofs.«423894_j137438953739_3_alg».proof.Proof.Gen.KernelIdeal.Launch
import proofs.«423894_j137438953739_3_alg».proof.Proof.Gen.KernelIdeal.Skeleton
import Idealize.ShloMosaic.Lib.Pipeline.FrameSuffix
import Idealize.ShloMosaic.Lib.Tactic

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-- The kernel's variants: none. -/
abbrev 𝒱₀ : Variants := Variants.none

/-- The three scratch operands as memrefs. -/
abbrev scM0 : Memref sig .tc .vmem S2048x1 .f32 := Memref.whole cc0_scratch0
abbrev scM1 : Memref sig .tc .vmem S2048x1 .f32 := Memref.whole cc0_scratch1
abbrev scM2 : Memref sig .tc .vmem S2048x1 .f32 := Memref.whole cc0_scratch2

/-- The three scratch buffers at the carried vectors s. -/
def scrOwn (c : Dev nD) (s : Scr) : sProp 𝕄 :=
  iprop(owns (c : Thread nD τ) scM0 fullShare s.mx ∗ owns (c : Thread nD τ) scM1 fullShare s.sm
    ∗ owns (c : Thread nD τ) scM2 fullShare s.tg)

/-- The region's invariant before position n: before a tile 0 and after the last point every scratch buffer at
    anything (the class's invariant); elsewhere the three scratch buffers at the carried vectors after the first n
    points; the generator register at some state throughout. -/
def PhiS (c : Dev nD) (n : ℕ) : sProp 𝕄 :=
  if n % 50 = 0 then Pipeline.ΦA spec0 c
  else iprop(scrOwn c (scrAfter m c n) ∗ ∃ r, prngReg c r)

theorem PhiS_reset (c : Dev nD) (n : ℕ) (h : n % 50 = 0) : PhiS m c n = Pipeline.ΦA spec0 c := by
  unfold PhiS; rw [if_pos h]

theorem PhiS_carried (c : Dev nD) (n : ℕ) (h : ¬n % 50 = 0) :
    PhiS m c n = iprop(scrOwn c (scrAfter m c n) ∗ ∃ r, prngReg c r) := by
  unfold PhiS; rw [if_neg h]

/-- The proof data of the one pipeline on core c: the arrays as the region finds them; after the body at point t
    each input's staging buffer at its block and the output's at outAt; the invariant PhiS; nothing owed; full
    shares. -/
def dats (_ : Fin 1) (c : Dev nD) : Dat τ (Elt Ideal) Unit ℕ (UR sig nD τ) ℕ cfg0 c where
  A w := Gen.V m c (Pipeline.arrRef spec0 w)
  after w t := match w with
    | ⟨0, _⟩ => xblk m c t
    | ⟨1, _⟩ => wblk m c t
    | ⟨2, _⟩ => bblk m c t
    | ⟨3, _⟩ => lblk m c t
    | ⟨4, _⟩ => outAt m c t
  Φ t := PhiS m c t.val
  q _ := fullShare
  owed _ := 0

/-- The proof data's arrays are the region-entry contents. -/
theorem A_eq (c : Dev nD) (w : Fin cfg0.W) : (dats m 0 c).A w = Gen.V m c (Pipeline.arrRef spec0 w) := by
  dsimp only [dats]

/-- What the body leaves, window by window. -/
theorem dats_after0 (c : Dev nD) (t : Fin cfg0.N) : (dats m 0 c).after 0 t = xblk m c t := by dsimp only [dats]
theorem dats_after1 (c : Dev nD) (t : Fin cfg0.N) : (dats m 0 c).after 1 t = wblk m c t := by dsimp only [dats]
theorem dats_after2 (c : Dev nD) (t : Fin cfg0.N) : (dats m 0 c).after 2 t = bblk m c t := by dsimp only [dats]
theorem dats_after3 (c : Dev nD) (t : Fin cfg0.N) : (dats m 0 c).after 3 t = lblk m c t := by dsimp only [dats]
theorem dats_after4 (c : Dev nD) (t : Fin cfg0.N) : (dats m 0 c).after 4 t = outAt m c t := by dsimp only [dats]

/-- The invariant at a point's start and end, restated at the position. -/
theorem Phi_castSucc (c : Dev nD) (t : Fin cfg0.N) : (dats m 0 c).Φ t.castSucc = PhiS m c t.val := by
  dsimp only [dats]; simp only [Fin.coe_castSucc]
theorem Phi_succ (c : Dev nD) (t : Fin cfg0.N) : (dats m 0 c).Φ t.succ = PhiS m c (t.val + 1) := by
  dsimp only [dats]; simp only [Fin.val_succ]

/-- What the launch hands the region is the invariant before the first point. -/
theorem hin (c : Dev nD) : Pipeline.ΦA spec0 c ⊢ (dats m 0 c).Φ 0 := by
  rw [show (dats m 0 c).Φ 0 = PhiS m c 0 from rfl, PhiS_reset m c 0 (Nat.zero_mod _)]

/-- The invariant after the last point is what the launch takes back. -/
theorem hout (c : Dev nD) : (dats m 0 c).Φ (Fin.last cfg0.N) ⊢ Pipeline.ΦA spec0 c := by
  rw [show (dats m 0 c).Φ (Fin.last cfg0.N) = PhiS m c cfg0.N from rfl,
    PhiS_reset m c cfg0.N (show cfg0.N % 50 = 0 from by rw [show cfg0.N = 100 from N_0])]

end Cert.KernelIdeal.Exact

end
-- ==== Proof.IdealBody.lean ====
/-
  The idealized kernel's body, run once per case of its two conditionals on whole buffers at any contents.

  The body resets the three scratch vectors at a tile 0, loads the point's blocks and the running maximum, stores
  the new running sum, maximum and selected logit, and at a tile 49 stores (max + log sum) - selected to the output
  block. Every access is a whole-buffer load or store, so a load reads the buffer's contents (after a store, the
  stored vector) and the buffers end at the payloads of the last stores: componentwise IdealData's step of the
  scratch vectors the point started from (the reset ones at a tile 0).
-/
import proofs.«423894_j137438953739_3_alg».proof.Proof.IdealDats
import Idealize.ShloMosaic.Lib.Pipeline.Value

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

abbrev cond1 (i : grid0.Coords) : Prop := Scalar.cmpi .ne (Scalar.extui (Scalar.cmpi .eq (BitVec.ofNat 32 (i 1).val) 0#32)) 0#32 = 1#1
abbrev cond2 (i : grid0.Coords) : Prop := k0_cond2 i = 1#1

section Whole

variable {κ : Kind} {sp : Space} {S : Shape} {e : EltTy}

/-- A load through the whole-shape rectangle at zero offsets reads the contents. -/
theorem readAt_zero (v : View sig κ sp S e) {off : Fin S.rank → Nat} (h : off = fun _ => 0)
    (inb : ∀ a, off a + S.size a ≤ S.size a) (f : v.ty.Contents (Elt Ideal)) :
    v.readAt (Elt Ideal) (Rect.unit off S.size inb).toLoadRect f = v.read (Elt Ideal) f :=
  (View.readAt_eq_ld v f _).trans (View.ld_unit_zero h inb _)

/-- After a whole-shape store, whatever came before it, the buffer reads the store's payload. -/
theorem read_writes_zero (v : View sig κ sp S e) {off : Fin S.rank → Nat} (h : off = fun _ => 0)
    (inb : ∀ a, off a + S.size a ≤ S.size a) (f : v.ty.Contents (Elt Ideal)) (w : S.Idx → Elt Ideal e)
    (L : List (View.Piece (Elt Ideal) S e)) :
    v.read (Elt Ideal) (v.writes (Elt Ideal) f ((⟨Rect.unit off S.size inb, w⟩ : View.Piece (Elt Ideal) S e) :: L)) = w :=
  (View.read_writes_eq_canon v f _ fun y => ⟨_, List.mem_cons_self, View.mem_set_unit_zero h inb y⟩).trans
    (View.canon_cons_unit_zero h inb w L)

/-- A whole-shape load after a whole-shape store reads the store's payload. -/
theorem readCov_zero (v : View sig κ sp S e) {off : Fin S.rank → Nat} (h : off = fun _ => 0)
    (inb : ∀ a, off a + S.size a ≤ S.size a) (w : S.Idx → Elt Ideal e) (L : List (View.Piece (Elt Ideal) S e)) :
    v.readCov ((⟨Rect.unit off S.size inb, w⟩ : View.Piece (Elt Ideal) S e) :: L) (Rect.unit off S.size inb).toLoadRect = w := by
  rw [View.readCov_eq_canon_ld _ _ _ (fun y => ⟨_, List.mem_cons_self, View.mem_set_unit_zero h inb y⟩),
    View.canon_cons_unit_zero h inb, View.ld_unit_zero h]

end Whole

/-- The zero offsets of a rank-2 access, however spelt. -/
theorem hz2 : (![0, 0] : Fin 2 → Nat) = fun _ => 0 := funext fun a => by fin_cases a <;> rfl

/-! ## The three runs

The conditions as the body computes them: cond1 at a tile 0 (the reset), cond2 at a tile 49 (the output's store). -/

set_option maxHeartbeats 1000000 in
/-- A tile 0: the scratch buffers, at anything, are reset; they end at the first step from the reset vectors; the
    output's buffer is not touched. -/
theorem run_A (c : Dev nD) (E : Set ℕ) (i : grid0.Coords)
    (a2 : Memref sig .tc .vmem S2048x1024 .bf16) (h2 : a2.IsWhole) (a3 : Memref sig .tc .vmem S1024x1024 .f32) (h3 : a3.IsWhole)
    (a4 : Memref sig .tc .vmem S1x1024 .f32) (h4 : a4.IsWhole) (a5 : Memref sig .tc .vmem S2048x1 .i32) (h5 : a5.IsWhole)
    (a6 : Memref sig .tc .vmem S2048x1 .f32) (h6 : a6.IsWhole)
    (hc1 : cond1 i) (hc2 : ¬cond2 i)
    (X0 : Vec Ideal S2048x1024 .bf16) (X1 : Vec Ideal S1024x1024 .f32) (X2 : Vec Ideal S1x1024 .f32) (X3 : Vec Ideal S2048x1 .i32)
    (X4 : Vec Ideal S2048x1 .f32) (S0 S1 S2 : Vec Ideal S2048x1 .f32) (K : PUnit → sProp 𝕄) :
    iprop(owns (c : Thread nD τ) a2 fullShare X0 ∗ owns (c : Thread nD τ) a3 fullShare X1 ∗ owns (c : Thread nD τ) a4 fullShare X2
        ∗ owns (c : Thread nD τ) a5 fullShare X3 ∗ owns (c : Thread nD τ) a6 fullShare X4
        ∗ owns (c : Thread nD τ) scM0 fullShare S0 ∗ owns (c : Thread nD τ) scM1 fullShare S1 ∗ owns (c : Thread nD τ) scM2 fullShare S2
        ∗ (iprop(owns (c : Thread nD τ) a2 fullShare X0 ∗ owns (c : Thread nD τ) a3 fullShare X1 ∗ owns (c : Thread nD τ) a4 fullShare X2
            ∗ owns (c : Thread nD τ) a5 fullShare X3 ∗ owns (c : Thread nD τ) a6 fullShare X4
            ∗ owns (c : Thread nD τ) scM0 fullShare (step i X0 X1 X2 X3 reset).mx
            ∗ owns (c : Thread nD τ) scM1 fullShare (step i X0 X1 X2 X3 reset).sm
            ∗ owns (c : Thread nD τ) scM2 fullShare (step i X0 X1 X2 X3 reset).tg) -∗ K ⟨⟩))
      ⊢ wp frame (wpE (defs₀ (F := Ideal)) 𝒱₀ c none) E
          (cc0__focal_loss_kernel i a2 h2 a3 h3 a4 h4 a5 h5 a6 h6 scM0 (Memref.isWhole_whole _) scM1 (Memref.isWhole_whole _) scM2 (Memref.isWhole_whole _)) K := by
  simp only [cc0__focal_loss_kernel_eq_skeleton]; unfold cc0__focal_loss_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, Hk⟩
  subst hf0 hf1 hf2 hf3 hf4 hg0 hg1 hg2
  sl_exec (disch := first | exact hc1 | exact hc2)
  sl_step
  have e0 := readAt_zero (S := S2048x1024) a2.view hz2 inb_S2048x1024_S2048x1024_0_0 f0
  have e1 := readAt_zero (S := S1024x1024) a3.view hz2 inb_S1024x1024_S1024x1024_0_0 f1
  have e2 := readAt_zero (S := S1x1024) a4.view hz2 inb_S1x1024_S1x1024_0_0 f2
  have e3 := readAt_zero (S := S2048x1) a5.view hz2 inb_S2048x1_S2048x1_0_0 f3
  have eg0 := readAt_zero (S := S2048x1) scM0.view hz2 inb_S2048x1_S2048x1_0_0 g0
  have eg1 := readAt_zero (S := S2048x1) scM1.view hz2 inb_S2048x1_S2048x1_0_0 g1
  have eg2 := readAt_zero (S := S2048x1) scM2.view hz2 inb_S2048x1_S2048x1_0_0 g2
  have c0 := readCov_zero (S := S2048x1) scM0.view hz2 inb_S2048x1_S2048x1_0_0 (k0_pay5 (F := Ideal)) []
  have c1 := readCov_zero (S := S2048x1) scM1.view hz2 inb_S2048x1_S2048x1_0_0 (k0_pay6 (F := Ideal)) []
  have c2 := readCov_zero (S := S2048x1) scM2.view hz2 inb_S2048x1_S2048x1_0_0 (k0_pay7 (F := Ideal)) []
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [G0]
  · iexists _; isplitr
    swap; · iexact G0
    ipureintro
    sl_unfold_run_names
    refine (read_writes_zero (S := S2048x1) _ hz2 inb_S2048x1_S2048x1_0_0 _ _ _).trans ?_
    rw [e0, e1, e2, c0]
    rfl
  isplitl [G1]
  · iexists _; isplitr
    swap; · iexact G1
    ipureintro
    sl_unfold_run_names
    refine (read_writes_zero (S := S2048x1) _ hz2 inb_S2048x1_S2048x1_0_0 _ _ _).trans ?_
    rw [e0, e1, e2, c0, c1]
    rfl
  · iexists _; isplitr
    swap; · iexact G2
    ipureintro
    sl_unfold_run_names
    refine (read_writes_zero (S := S2048x1) _ hz2 inb_S2048x1_S2048x1_0_0 _ _ _).trans ?_
    rw [e0, e1, e2, e3, c2]
    rfl

set_option maxHeartbeats 1000000 in
/-- A tile between: the scratch buffers at the carried vectors s end at the step from s; the output's buffer is not
    touched. -/
theorem run_B (c : Dev nD) (E : Set ℕ) (i : grid0.Coords)
    (a2 : Memref sig .tc .vmem S2048x1024 .bf16) (h2 : a2.IsWhole) (a3 : Memref sig .tc .vmem S1024x1024 .f32) (h3 : a3.IsWhole)
    (a4 : Memref sig .tc .vmem S1x1024 .f32) (h4 : a4.IsWhole) (a5 : Memref sig .tc .vmem S2048x1 .i32) (h5 : a5.IsWhole)
    (a6 : Memref sig .tc .vmem S2048x1 .f32) (h6 : a6.IsWhole)
    (hc1 : ¬cond1 i) (hc2 : ¬cond2 i)
    (X0 : Vec Ideal S2048x1024 .bf16) (X1 : Vec Ideal S1024x1024 .f32) (X2 : Vec Ideal S1x1024 .f32) (X3 : Vec Ideal S2048x1 .i32)
    (X4 : Vec Ideal S2048x1 .f32) (s : Scr) (K : PUnit → sProp 𝕄) :
    iprop(owns (c : Thread nD τ) a2 fullShare X0 ∗ owns (c : Thread nD τ) a3 fullShare X1 ∗ owns (c : Thread nD τ) a4 fullShare X2
        ∗ owns (c : Thread nD τ) a5 fullShare X3 ∗ owns (c : Thread nD τ) a6 fullShare X4
        ∗ owns (c : Thread nD τ) scM0 fullShare s.mx ∗ owns (c : Thread nD τ) scM1 fullShare s.sm ∗ owns (c : Thread nD τ) scM2 fullShare s.tg
        ∗ (iprop(owns (c : Thread nD τ) a2 fullShare X0 ∗ owns (c : Thread nD τ) a3 fullShare X1 ∗ owns (c : Thread nD τ) a4 fullShare X2
            ∗ owns (c : Thread nD τ) a5 fullShare X3 ∗ owns (c : Thread nD τ) a6 fullShare X4
            ∗ owns (c : Thread nD τ) scM0 fullShare (step i X0 X1 X2 X3 s).mx
            ∗ owns (c : Thread nD τ) scM1 fullShare (step i X0 X1 X2 X3 s).sm
            ∗ owns (c : Thread nD τ) scM2 fullShare (step i X0 X1 X2 X3 s).tg) -∗ K ⟨⟩))
      ⊢ wp frame (wpE (defs₀ (F := Ideal)) 𝒱₀ c none) E
          (cc0__focal_loss_kernel i a2 h2 a3 h3 a4 h4 a5 h5 a6 h6 scM0 (Memref.isWhole_whole _) scM1 (Memref.isWhole_whole _) scM2 (Memref.isWhole_whole _)) K := by
  obtain ⟨S0, S1, S2⟩ := s
  simp only [cc0__focal_loss_kernel_eq_skeleton]; unfold cc0__focal_loss_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, Hk⟩
  subst hf0 hf1 hf2 hf3 hf4 hg0 hg1 hg2
  sl_exec (disch := first | exact hc1 | exact hc2)
  sl_step
  have e0 := readAt_zero (S := S2048x1024) a2.view hz2 inb_S2048x1024_S2048x1024_0_0 f0
  have e1 := readAt_zero (S := S1024x1024) a3.view hz2 inb_S1024x1024_S1024x1024_0_0 f1
  have e2 := readAt_zero (S := S1x1024) a4.view hz2 inb_S1x1024_S1x1024_0_0 f2
  have e3 := readAt_zero (S := S2048x1) a5.view hz2 inb_S2048x1_S2048x1_0_0 f3
  have eg0 := readAt_zero (S := S2048x1) scM0.view hz2 inb_S2048x1_S2048x1_0_0 g0
  have eg1 := readAt_zero (S := S2048x1) scM1.view hz2 inb_S2048x1_S2048x1_0_0 g1
  have eg2 := readAt_zero (S := S2048x1) scM2.view hz2 inb_S2048x1_S2048x1_0_0 g2
  have c0 := readCov_zero (S := S2048x1) scM0.view hz2 inb_S2048x1_S2048x1_0_0 (k0_pay5 (F := Ideal)) []
  have c1 := readCov_zero (S := S2048x1) scM1.view hz2 inb_S2048x1_S2048x1_0_0 (k0_pay6 (F := Ideal)) []
  have c2 := readCov_zero (S := S2048x1) scM2.view hz2 inb_S2048x1_S2048x1_0_0 (k0_pay7 (F := Ideal)) []
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [G0]
  · iexists _; isplitr
    swap; · iexact G0
    ipureintro
    sl_unfold_run_names
    refine (read_writes_zero (S := S2048x1) _ hz2 inb_S2048x1_S2048x1_0_0 _ _ _).trans ?_
    rw [e0, e1, e2, eg0]
    rfl
  isplitl [G1]
  · iexists _; isplitr
    swap; · iexact G1
    ipureintro
    sl_unfold_run_names
    refine (read_writes_zero (S := S2048x1) _ hz2 inb_S2048x1_S2048x1_0_0 _ _ _).trans ?_
    rw [e0, e1, e2, eg0, eg1]
    rfl
  · iexists _; isplitr
    swap; · iexact G2
    ipureintro
    sl_unfold_run_names
    refine (read_writes_zero (S := S2048x1) _ hz2 inb_S2048x1_S2048x1_0_0 _ _ _).trans ?_
    rw [e0, e1, e2, e3, eg2]
    rfl

set_option maxHeartbeats 1000000 in
/-- A tile 49: as between, and the output's buffer ends at (max + log sum) - selected of the new carried vectors. -/
theorem run_C (c : Dev nD) (E : Set ℕ) (i : grid0.Coords)
    (a2 : Memref sig .tc .vmem S2048x1024 .bf16) (h2 : a2.IsWhole) (a3 : Memref sig .tc .vmem S1024x1024 .f32) (h3 : a3.IsWhole)
    (a4 : Memref sig .tc .vmem S1x1024 .f32) (h4 : a4.IsWhole) (a5 : Memref sig .tc .vmem S2048x1 .i32) (h5 : a5.IsWhole)
    (a6 : Memref sig .tc .vmem S2048x1 .f32) (h6 : a6.IsWhole)
    (hc1 : ¬cond1 i) (hc2 : cond2 i)
    (X0 : Vec Ideal S2048x1024 .bf16) (X1 : Vec Ideal S1024x1024 .f32) (X2 : Vec Ideal S1x1024 .f32) (X3 : Vec Ideal S2048x1 .i32)
    (X4 : Vec Ideal S2048x1 .f32) (s : Scr) (K : PUnit → sProp 𝕄) :
    iprop(owns (c : Thread nD τ) a2 fullShare X0 ∗ owns (c : Thread nD τ) a3 fullShare X1 ∗ owns (c : Thread nD τ) a4 fullShare X2
        ∗ owns (c : Thread nD τ) a5 fullShare X3 ∗ owns (c : Thread nD τ) a6 fullShare X4
        ∗ owns (c : Thread nD τ) scM0 fullShare s.mx ∗ owns (c : Thread nD τ) scM1 fullShare s.sm ∗ owns (c : Thread nD τ) scM2 fullShare s.tg
        ∗ (iprop(owns (c : Thread nD τ) a2 fullShare X0 ∗ owns (c : Thread nD τ) a3 fullShare X1 ∗ owns (c : Thread nD τ) a4 fullShare X2
            ∗ owns (c : Thread nD τ) a5 fullShare X3 ∗ owns (c : Thread nD τ) a6 fullShare (k0_pay4 (step i X0 X1 X2 X3 s).mx (step i X0 X1 X2 X3 s).sm (step i X0 X1 X2 X3 s).tg)
            ∗ owns (c : Thread nD τ) scM0 fullShare (step i X0 X1 X2 X3 s).mx
            ∗ owns (c : Thread nD τ) scM1 fullShare (step i X0 X1 X2 X3 s).sm
            ∗ owns (c : Thread nD τ) scM2 fullShare (step i X0 X1 X2 X3 s).tg) -∗ K ⟨⟩))
      ⊢ wp frame (wpE (defs₀ (F := Ideal)) 𝒱₀ c none) E
          (cc0__focal_loss_kernel i a2 h2 a3 h3 a4 h4 a5 h5 a6 h6 scM0 (Memref.isWhole_whole _) scM1 (Memref.isWhole_whole _) scM2 (Memref.isWhole_whole _)) K := by
  obtain ⟨S0, S1, S2⟩ := s
  simp only [cc0__focal_loss_kernel_eq_skeleton]; unfold cc0__focal_loss_kernel_skel
  simp only [k0_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%g0, %hg0, G0⟩, ⟨%g1, %hg1, G1⟩, ⟨%g2, %hg2, G2⟩, Hk⟩
  subst hf0 hf1 hf2 hf3 hf4 hg0 hg1 hg2
  sl_exec (disch := first | exact hc1 | exact hc2)
  sl_step
  have e0 := readAt_zero (S := S2048x1024) a2.view hz2 inb_S2048x1024_S2048x1024_0_0 f0
  have e1 := readAt_zero (S := S1024x1024) a3.view hz2 inb_S1024x1024_S1024x1024_0_0 f1
  have e2 := readAt_zero (S := S1x1024) a4.view hz2 inb_S1x1024_S1x1024_0_0 f2
  have e3 := readAt_zero (S := S2048x1) a5.view hz2 inb_S2048x1_S2048x1_0_0 f3
  have eg0 := readAt_zero (S := S2048x1) scM0.view hz2 inb_S2048x1_S2048x1_0_0 g0
  have eg1 := readAt_zero (S := S2048x1) scM1.view hz2 inb_S2048x1_S2048x1_0_0 g1
  have eg2 := readAt_zero (S := S2048x1) scM2.view hz2 inb_S2048x1_S2048x1_0_0 g2
  have c0 := readCov_zero (S := S2048x1) scM0.view hz2 inb_S2048x1_S2048x1_0_0 (k0_pay5 (F := Ideal)) []
  have c1 := readCov_zero (S := S2048x1) scM1.view hz2 inb_S2048x1_S2048x1_0_0 (k0_pay6 (F := Ideal)) []
  have c2 := readCov_zero (S := S2048x1) scM2.view hz2 inb_S2048x1_S2048x1_0_0 (k0_pay7 (F := Ideal)) []
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    sl_unfold_run_names
    refine (read_writes_zero (S := S2048x1) _ hz2 inb_S2048x1_S2048x1_0_0 _ _ _).trans ?_
    rw [readCov_zero (S := S2048x1) scM0.view hz2 inb_S2048x1_S2048x1_0_0 _ _, readCov_zero (S := S2048x1) scM1.view hz2 inb_S2048x1_S2048x1_0_0 _ _, readCov_zero (S := S2048x1) scM2.view hz2 inb_S2048x1_S2048x1_0_0 _ _, e0, e1, e2, e3, eg0, eg1, eg2]
    rfl
  isplitl [G0]
  · iexists _; isplitr
    swap; · iexact G0
    ipureintro
    sl_unfold_run_names
    refine (read_writes_zero (S := S2048x1) _ hz2 inb_S2048x1_S2048x1_0_0 _ _ _).trans ?_
    rw [e0, e1, e2, eg0]
    rfl
  isplitl [G1]
  · iexists _; isplitr
    swap; · iexact G1
    ipureintro
    sl_unfold_run_names
    refine (read_writes_zero (S := S2048x1) _ hz2 inb_S2048x1_S2048x1_0_0 _ _ _).trans ?_
    rw [e0, e1, e2, eg0, eg1]
    rfl
  · iexists _; isplitr
    swap; · iexact G2
    ipureintro
    sl_unfold_run_names
    refine (read_writes_zero (S := S2048x1) _ hz2 inb_S2048x1_S2048x1_0_0 _ _ _).trans ?_
    rw [e0, e1, e2, e3, eg2]
    rfl

end Cert.KernelIdeal.Exact

end
-- ==== Proof.IdealBefore.lean ====
/-
  What the idealized kernel's body finds in the input windows' staging buffers at each point.

  The embeddings' and the labels' windows are whole and are fetched when the row block changes (tile 0); at the
  other tiles their index has not moved and the body, which only reads them, left the block in place: at every
  point the buffer holds the row block's block. The windows of W and of the bias are fetched at every point, and
  their last tile runs past the array's end: the buffer holds the array's block on the part the fetch fills and,
  past it, whatever the buffer held before (d).
-/
import proofs.«423894_j137438953739_3_alg».proof.Proof.IdealDats

set_option maxRecDepth 16384

noncomputable section

namespace Cert.KernelIdeal.Exact

open Cert.KernelIdeal Cert.KernelIdeal.Gen
open Idealize.ShloMosaic Idealize.ShloMosaic.TcCoe
open Idealize.SL Idealize.SL.Sem
open Idealize.ShloMosaic.Pipeline (Dat Cfg Window)

variable (m : (ℓ : Loc nD τ sig) → Buf (Elt Ideal) ℓ)

/-- The embeddings' buffer holds the row block's embeddings at every point. -/
theorem before_0 (c : Dev nD) (t : Fin cfg0.N) (d) : (dats m 0 c).before 0 t d = xblk m c t :=
  Gen.before0_0_of m (dats m 0 c) (A_eq m c 0) (fun t => dats_after0 m c t) t d

/-- The labels' buffer holds the row block's labels at every point. -/
theorem before_3 (c : Dev nD) (t : Fin cfg0.N) (d) : (dats m 0 c).before 3 t d = lblk m c t :=
  Gen.before0_3_of m (dats m 0 c) (A_eq m c 3) (fun t => dats_after3 m c t) t d

/-- The buffer of W's window, just fetched: the tile's rows inside the array, d past its end. -/
theorem before_1 (c : Dev nD) (t : Fin cfg0.N) (d) :
    (dats m 0 c).before 1 t d = win0_1.fill (grid0.coords t) d (Gen.iblk (F := Ideal) m c 1 t) := by
  rw [Dat.before_fetched (dats m 0 c) 1 t (Gen.fetch0_1 t) d]
  unfold Dat.fetched Dat.blockOf Gen.iblk
  rw [A_eq m c 1]

/-- The buffer of the bias's window, just fetched: the tile's entries inside the array, d past its end. -/
theorem before_2 (c : Dev nD) (t : Fin cfg0.N) (d) :
    (dats m 0 c).before 2 t d = win0_2.fill (grid0.coords t) d (Gen.iblk (F := Ideal) m c 2 t) := by
  rw [Dat.before_fetched (dats m 0 c) 2 t (Gen.fetch0_2 t) d]
  unfold Dat.fetched Dat.blockOf Gen.iblk
  rw [A_eq m c 2]

end Cert.KernelIdeal.Exact

end
-- ==== Proof.Spec.lean ====
/-
  The value the two programs are compared through, as pure functions over the extended reals.

  Row `n` (`n < 4094 = 2 · 2047`) of the shifted problem is position `s = n % 2047` of sequence `b = n / 2047`: its
  logits are `ℓ j = ∑ d, emb[b, s, d] · W[j, d] + bias[j]` over the vocabulary `j < 50257`, and its label is
  `labels[b, s + 1]`. The cross entropy of the row at a vocabulary entry `k`, in the arrangement of a shifted
  log-softmax, is `-((ℓ k - M) - log ∑ j, exp (ℓ j - M))` with `M` the row's maximum (`ce`).

  The tiled form visits the vocabulary in 50 tiles of 1024 entries, the entries past the vocabulary's end (the last
  943 of tile 49) standing at `⊥`, and carries three numbers per row (`Acc`): the running maximum `m`, the running
  sum `l` of `exp (ℓ j - m)` rescaled by `exp (m - m')` whenever the maximum moves to `m'`, and the sum `t` of the
  entries the label selects. After the last tile it returns `(m + log l) - t` (`Acc.out`).
-/
import Idealize.ShloMosaic.PureOps.Ideal
import Idealize.ShloMosaic.Lib.ValueIdx

noncomputable section

namespace Cert.Spec

open Idealize.ShloMosaic Idealize.ShloMosaic.ValueIdx

/-- The sequence of row `n`. -/
def rowB (n : Fin 4094) : Fin 2 := ⟨n.val / 2047, by have := n.isLt; omega⟩
/-- The position of row `n` in its sequence (the embedding read). -/
def rowS (n : Fin 4094) : Fin 2048 := ⟨n.val % 2047, by have := n.isLt; omega⟩
/-- The next position (the label read). -/
def rowS1 (n : Fin 4094) : Fin 2048 := ⟨n.val % 2047 + 1, by have := n.isLt; omega⟩

/-- The logit of row `n` at vocabulary entry `j`. -/
def logit (emb : (⟨3, ![2, 2048, 1024]⟩ : Shape).Idx → EReal) (W : (⟨2, ![50257, 1024]⟩ : Shape).Idx → EReal)
    (bias : (⟨1, ![50257]⟩ : Shape).Idx → EReal) (n : Fin 4094) (j : Fin 50257) : EReal :=
  (∑ d : Fin 1024, emb (ix3 (rowB n) (rowS n) d) * W (ix2 j d)) + bias (ix1 j)

/-- The label of row `n`, as the 32-bit word the input holds. -/
def label (labels : (⟨2, ![2, 2048]⟩ : Shape).Idx → BitVec 32) (n : Fin 4094) : BitVec 32 :=
  labels (ix2 (rowB n) (rowS1 n))

/-- A row's maximum, from `⊥`. -/
def rowMax (ℓ : Fin 50257 → EReal) : EReal := (Finset.univ : Finset (Fin 50257)).fold max ⊥ ℓ

/-- The cross entropy of a row with logits `ℓ` at the vocabulary entry `k`: minus the shifted log-softmax there. -/
def ce (ℓ : Fin 50257 → EReal) (k : Fin 50257) : EReal :=
  -((ℓ k - rowMax ℓ) - Ideal.log (∑ j : Fin 50257, Ideal.exp (ℓ j - rowMax ℓ)))

/-- Entry `k` of tile `vt` of a row: the logit at `vt · 1024 + k` inside the vocabulary, `⊥` past its end. -/
def tile (ℓ : Fin 50257 → EReal) (vt : Nat) (k : Fin 1024) : EReal :=
  if h : vt * 1024 + k.val < 50257 then ℓ ⟨vt * 1024 + k.val, h⟩ else ⊥

/-- Whether the label word `lab` selects entry `k` of tile `vt`. -/
def hit (lab : BitVec 32) (vt : Nat) (k : Fin 1024) : Bool := lab == BitVec.ofNat 32 (vt * 1024 + k.val)

/-- What the tiled form carries for one row: running maximum, rescaled running sum of exponentials, selected logit. -/
structure Acc where
  m : EReal
  l : EReal
  t : EReal

/-- Before the first tile. -/
def Acc.init : Acc := ⟨⊥, 0, 0⟩

/-- One tile `x` (its entries past the vocabulary at `⊥`), `sel` marking the entry the label selects. -/
def Acc.step (a : Acc) (x : Fin 1024 → EReal) (sel : Fin 1024 → Bool) : Acc :=
  let m' : EReal := max a.m ((Finset.univ : Finset (Fin 1024)).fold max ⊥ x)
  ⟨m', a.l * Ideal.exp (a.m - m') + ∑ k : Fin 1024, Ideal.exp (x k - m'),
    a.t + ∑ k : Fin 1024, if sel k then x k else 0⟩

/-- What is returned after the last tile. -/
def Acc.out (a : Acc) : EReal := (a.m + Ideal.log a.l) - a.t

/-- The carried numbers after the first `n` tiles of a row with logits `ℓ` and label word `lab`. -/
def accUpTo (ℓ : Fin 50257 → EReal) (lab : BitVec 32) : Nat → Acc
  | 0 => Acc.init
  | n + 1 => (accUpTo ℓ lab n).step (tile ℓ n) (hit lab n)

end Cert.Spec

end
-- ==== Proof.IdealStep.lean ====
/-
  The kernel body's arithmetic read at one row, at the ideal instance (floats are extended reals, every operation the
  textbook one).

  At a grid point `i` the body holds a 2048 × 1024 block `x` of embeddings, 1024 rows `w` of the weight matrix and 1024
  entries `b` of the bias. Entry `(p, k)` of the masked logits (`k0_pay9`) is `∑ d, x (p, d) * w (k, d) + b k` while
  the column `(i 1) · 1024 + k` lies inside the vocabulary of 50257 entries, and `⊥` past its end (`tileOf`,
  `pay9_apply`): a product into a zero accumulator contracted over axis 1 of both operands, a format change that is
  the identity, a one-row broadcast of the bias, and a select on the signed comparison of the column number with 50257,
  which is the comparison of naturals because every column number is below 2³¹.

  The three carried columns (running maximum, rescaled running sum of exponentials, selected logit) read at row `p` are
  the carried numbers `Cert.Spec.Acc` of that row (`accOf`): the reset values are `Acc.init` (`reset_acc`), one tile's
  update is `Acc.step` on the row's tile entries with the label's hit test (`step_acc`), and the stored result is
  `Acc.out` (`pay4_acc`). The tile-start guard `(i 1) · 1024 < 50257` holds at every point (`guard_eq`), so each
  guarded update is taken. The update sees the weight rows and bias entries only through the masked logits, hence
  not at all past the vocabulary's end (`step_congr`).
-/
import proofs.«423894_j137438953739_3_alg».proof.Proof.IdealData
import proofs.«423894_j137438953739_3_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.IdealRules
import Idealize.ShloMosaic.Lib.StableHlo.Predicate

noncomputable section

namespace Cert.KernelIdeal.Exact

open Cert.KernelIdeal Cert.KernelIdeal.Gen
open Idealize.ShloMosaic Idealize.ShloMosaic.ValueIdx Idealize.SL.Sem

variable (i : grid0.Coords) (x : Vec Ideal S2048x1024 .bf16) (w : Vec Ideal S1024x1024 .f32) (b : Vec Ideal S1x1024 .f32)
  (lab : Vec Ideal S2048x1 .i32) (s : Scr) (p : Fin 2048) (k : Fin 1024)

/-- The second grid coordinate is a tile number below 50. -/
theorem tile_lt : (i 1).val < 50 := (i 1).isLt

/-- The column number of entry `(p, k)` of the tile at `i`: tile start plus lane, as a 32-bit word. -/
theorem pay8_apply : k0_pay8 i (ix2 p k) = BitVec.ofNat 32 ((i 1).val * 1024 + k.val) := by
  have h1 := tile_lt i
  have h2 := k.isLt
  unfold k0_pay8
  show IntOp.addi (Scalar.muli (BitVec.ofNat 32 (i 1).val) 1024#32)
      (iota .tc S2048x1024 32 [1] Facts₀.iota_S2048x1024_d1_w32 (ix2 p k)) = _
  rw [iota_single_apply]
  show BitVec.ofNat 32 (i 1).val * 1024#32 + BitVec.ofNat 32 k.val = _
  apply BitVec.eq_of_toNat_eq
  simp only [BitVec.toNat_add, BitVec.toNat_mul, BitVec.toNat_ofNat]
  omega

theorem guard_eq : guard i = 1#1 := by
  have h1 := tile_lt i
  unfold guard
  show IntOp.cmpi .slt (BitVec.ofNat 32 (i 1).val * 1024#32) 50257#32 = 1#1
  rw [Idealize.ShloMosaic.StableHlo.Predicate.slt_iff_toNat]
  · simp only [BitVec.toNat_mul, BitVec.toNat_ofNat]; omega
  · simp only [BitVec.toNat_mul, BitVec.toNat_ofNat]; omega
  · decide

def accOf (s : Scr) (p : Fin 2048) : Cert.Spec.Acc := ⟨s.mx (ix2 p 0), s.sm (ix2 p 0), s.tg (ix2 p 0)⟩

theorem ofBits_neg_inf : Ideal.ofBits .f32 0xFF800000#32 = ⊥ := by simp [Ideal.ofBits, Ideal.ieee]

theorem reset_acc : accOf reset p = Cert.Spec.Acc.init := by
  unfold accOf reset Cert.Spec.Acc.init k0_pay5 k0_pay6 k0_pay7
  simp only [shapeCast_self]
  show Cert.Spec.Acc.mk (Ideal.ofBits .f32 0xFF800000#32) (Ideal.ofBits .f32 0x00000000#32) (Ideal.ofBits .f32 0x00000000#32) = _
  rw [ofBits_neg_inf, Ideal.ofBits_zero_f32]

theorem pay4_acc : k0_pay4 (F := Ideal) s.mx s.sm s.tg (ix2 p 0) = (accOf s p).out := rfl

/-! ### The block product at an entry

The contraction runs over axis 1 of both operands: entry `(p, k)` of `x · wᵀ` is `∑ d, x (p, d) * w (k, d)`.
The four lemmas below read the product's operand indices axis by axis. -/

theorem mm_lhs_0 (j : S2048x1024.Idx) (q : dot_S2048x1024_S1024x1024_S2048x1024_1_1_0_0_n_n.contr.Idx) :
    (dot_S2048x1024_S1024x1024_S2048x1024_1_1_0_0_n_n.lhsIdx j q 0).val = (j 0).val := by
  unfold DotDims.lhsIdx
  rw [dif_neg (show ¬(0 : Fin S2048x1024.rank) ∈ dot_S2048x1024_S1024x1024_S2048x1024_1_1_0_0_n_n.lhsBatch by decide), dif_pos (show (0 : Fin S2048x1024.rank) ∈ dot_S2048x1024_S1024x1024_S2048x1024_1_1_0_0_n_n.lhsNonContracting by decide)]
  rfl
theorem mm_lhs_1 (j : S2048x1024.Idx) (q : dot_S2048x1024_S1024x1024_S2048x1024_1_1_0_0_n_n.contr.Idx) :
    (dot_S2048x1024_S1024x1024_S2048x1024_1_1_0_0_n_n.lhsIdx j q 1).val = (q ⟨0, by decide⟩).val :=
  dot_S2048x1024_S1024x1024_S2048x1024_1_1_0_0_n_n.lhsIdx_val_of_single rfl j q
theorem mm_rhs_0 (j : S2048x1024.Idx) (q : dot_S2048x1024_S1024x1024_S2048x1024_1_1_0_0_n_n.contr.Idx) :
    (dot_S2048x1024_S1024x1024_S2048x1024_1_1_0_0_n_n.rhsIdx j q 0).val = (j 1).val := by
  unfold DotDims.rhsIdx
  rw [dif_neg (show ¬(0 : Fin S1024x1024.rank) ∈ dot_S2048x1024_S1024x1024_S2048x1024_1_1_0_0_n_n.rhsBatch by decide), dif_pos (show (0 : Fin S1024x1024.rank) ∈ dot_S2048x1024_S1024x1024_S2048x1024_1_1_0_0_n_n.rhsNonContracting by decide)]
  rfl
theorem mm_rhs_1 (j : S2048x1024.Idx) (q : dot_S2048x1024_S1024x1024_S2048x1024_1_1_0_0_n_n.contr.Idx) :
    (dot_S2048x1024_S1024x1024_S2048x1024_1_1_0_0_n_n.rhsIdx j q 1).val = (q ⟨0, by decide⟩).val :=
  dot_S2048x1024_S1024x1024_S2048x1024_1_1_0_0_n_n.rhsIdx_val_of_single rfl j q

/-- The product into a zero accumulator, at entry `(p, k)`. -/
theorem mm_apply (xv : FVec Ideal S2048x1024 .bf16) (wv : FVec Ideal S1024x1024 .bf16) :
    matmul dot_S2048x1024_S1024x1024_S2048x1024_1_1_0_0_n_n none xv wv (constant S2048x1024 .f32 0x00000000#32) (ix2 p k)
      = ∑ d : Fin 1024, xv (ix2 p d) * wv (ix2 k d) := by
  simp only [matmul]
  rw [Ideal.matmul_constant_zero_apply, ← Equiv.sum_comp (contrEquiv1 dot_S2048x1024_S1024x1024_S2048x1024_1_1_0_0_n_n 1024 rfl rfl).symm]
  refine Finset.sum_congr rfl fun d _ => ?_
  have hk := contrEquiv1_symm_val dot_S2048x1024_S1024x1024_S2048x1024_1_1_0_0_n_n 1024 rfl rfl d
  have el : dot_S2048x1024_S1024x1024_S2048x1024_1_1_0_0_n_n.lhsIdx (ix2 p k) ((contrEquiv1 dot_S2048x1024_S1024x1024_S2048x1024_1_1_0_0_n_n 1024 rfl rfl).symm d) = ix2 p d := funext fun a => Fin.ext (by
    match a with
    | ⟨0, _⟩ => exact mm_lhs_0 _ _
    | ⟨1, _⟩ => exact (mm_lhs_1 _ _).trans hk)
  have er : dot_S2048x1024_S1024x1024_S2048x1024_1_1_0_0_n_n.rhsIdx (ix2 p k) ((contrEquiv1 dot_S2048x1024_S1024x1024_S2048x1024_1_1_0_0_n_n 1024 rfl rfl).symm d) = ix2 k d := funext fun a => Fin.ext (by
    match a with
    | ⟨0, _⟩ => exact mm_rhs_0 _ _
    | ⟨1, _⟩ => exact (mm_rhs_1 _ _).trans hk)
  rw [el, er]

/-- The named mask constant is `⊥` at the ideal instance. -/
theorem neg_big_eq : Named.named (F := Ideal) Cert.KernelIdeal.κ "neg_big" (φ := .f32) 0xFF333332#32 = ⊥ :=
  IdealRules.named_const.ideal_named_scalar _ _ _ _ rfl

/-- Entry `(p, k)` of the tile at `i`: the logit at column `tile start + k` inside the vocabulary, `⊥` past its end. -/
def tileOf (p : Fin 2048) (k : Fin 1024) : EReal :=
  if (i 1).val * 1024 + k.val < 50257 then (∑ d : Fin 1024, x (ix2 p d) * w (ix2 k d)) + b (ix2 0 k) else ⊥

/-- The column test: the signed comparison of the column word with the vocabulary size is the comparison of naturals. -/
theorem col_lt_iff : IntOp.cmpi .slt (BitVec.ofNat 32 ((i 1).val * 1024 + k.val)) 50257#32 = 1#1
    ↔ (i 1).val * 1024 + k.val < 50257 := by
  have h1 := tile_lt i
  have h2 := k.isLt
  rw [Idealize.ShloMosaic.StableHlo.Predicate.slt_iff_toNat]
  · simp only [BitVec.toNat_ofNat]
    constructor <;> intro h <;> omega
  · simp only [BitVec.toNat_ofNat]; omega
  · decide

theorem pay9_apply : k0_pay9 (F := Ideal) i x w b (ix2 p k) = tileOf i x w b p k := by
  unfold k0_pay9 tileOf
  simp only [shapeCast_self]
  show Scalar.select (IntOp.cmpi .slt (k0_pay8 i (ix2 p k)) 50257#32)
      (matmul (F := Ideal) dot_S2048x1024_S1024x1024_S2048x1024_1_1_0_0_n_n none x (truncf (F := Ideal) .bf16 w Facts₀.bitsLt_bf16_f32) (constant (F := Ideal) S2048x1024 .f32 0x00000000#32) (ix2 p k)
        + broadcastTo S2048x1024 b Facts₀.broadcasts_S1x1024_S2048x1024 (ix2 p k) : EReal)
      (Named.named (F := Ideal) Cert.KernelIdeal.κ "neg_big" (φ := .f32) 0xFF333332#32) = _
  rw [pay8_apply, mm_apply, broadcastTo_1b_ab_apply, neg_big_eq]
  unfold Scalar.select
  by_cases h : (i 1).val * 1024 + k.val < 50257
  · rw [if_pos h]
    exact (if_pos ((col_lt_iff i k).mpr h)).trans rfl
  · rw [if_neg h]
    exact if_neg (fun h' => h ((col_lt_iff i k).mp h'))

/-! ### Layout operations of the body, read at an entry -/

section Layout
variable {α : Type}

/-- A vector of 2048 entries cast to a column reads, at row `p`, its entry `p`. -/
theorem cast_col_apply (v : S2048.Idx → α) (h : S2048.ShapeCasts S2048x1) (p : Fin 2048) :
    shapeCast S2048x1 v h (ix2 p (0 : Fin 1)) = v (ix1 p) :=
  shapeCast_apply v h _ _ (by
    rw [Shape.rowMajor_val_one, Shape.rowMajor_val_two]
    show p.val = p.val * 1 + 0
    omega)

/-- A column broadcast along the lanes reads, at `(p, k)`, the column's row `p`. -/
theorem bcast_col_apply (v : S2048x1.Idx → α) (h : S2048x1.Broadcasts S2048x1024) (p : Fin 2048) (k : Fin 1024) :
    broadcastTo S2048x1024 v h (ix2 p k) = v (ix2 p (0 : Fin 1)) := by
  refine broadcastTo_apply v h (ix2 p k) (ix2 p (0 : Fin 1)) fun ax => ?_
  match ax with
  | ⟨0, _⟩ => rfl
  | ⟨1, _⟩ => rfl

end Layout

/-- The entry of row `p` with lane `k` put back on the reduced axis is `(p, k)`. -/
theorem lift_row (h : S2048x1024.Reduces [1] S2048) (p : Fin 2048) (k : Fin 1024) : h.lift (ix1 p) k = ix2 p k :=
  funext fun a => Fin.ext (by
    match a with
    | ⟨0, _⟩ => rfl
    | ⟨1, _⟩ => rfl)

/-- A lane maximum from `-∞`, at row `p`: the fold of `max` from `⊥` over the row's entries. -/
theorem rowmax_apply (v : FVec Ideal S2048x1024 .f32) (h : S2048x1024.Reduces [1] S2048) (hφ : FKind.Formats .f32)
    (hacc : (0xFF800000#32 : BitVec 32) = FKind.maximumf.neutral .f32 hφ) (p : Fin 2048) :
    multiReduction (F := Ideal) .maximumf [1] S2048 v 0xFF800000#32 h hφ hacc (ix1 p)
      = (Finset.univ : Finset (Fin 1024)).fold max ⊥ (fun k => v (ix2 p k)) := by
  refine (Ideal.multiReduction_maximumf_single v _ h hφ hacc (ix1 p)).trans ?_
  show (Finset.univ : Finset (Fin 1024)).fold max (Ideal.ofBits .f32 0xFF800000#32) (v ∘ h.lift (ix1 p)) = _
  rw [ofBits_neg_inf]
  exact congrArg (fun f => Finset.fold max ⊥ f (Finset.univ : Finset (Fin 1024))) (funext fun k => congrArg v (lift_row h p k))

/-- A lane sum from zero, at row `p`: the sum of the row's entries. -/
theorem rowsum_apply (v : FVec Ideal S2048x1024 .f32) (h : S2048x1024.Reduces [1] S2048) (hφ : FKind.Formats .f32)
    (hacc : (0x00000000#32 : BitVec 32) = FKind.add.neutral .f32 hφ) (p : Fin 2048) :
    multiReduction (F := Ideal) .add [1] S2048 v 0x00000000#32 h hφ hacc (ix1 p) = ∑ k : Fin 1024, v (ix2 p k) := by
  refine (Ideal.multiReduction_add_single v _ h hφ hacc (ix1 p)).trans ?_
  exact Finset.sum_congr rfl fun k _ => congrArg v (lift_row h p k)

/-! ### The body's three updates over arbitrary operands, at row `p`

Each lemma reads one update of the body over operands that stay variables: the taken select, the pointwise
arithmetic and the casts between a vector of 2048 entries and a column. -/

section Updates
variable (g : BitVec 1)

/-- The maximum's update: `max` of the carried maximum and the tile's lane maximum. -/
theorem sel_max_apply (hg : g = 1#1) (mv : FVec Ideal S2048x1 .f32) (r : FVec Ideal S2048 .f32) (h : S2048.ShapeCasts S2048x1) (p : Fin 2048) :
    Scalar.select g (maximumf (F := Ideal) mv (shapeCast S2048x1 r h)) mv (ix2 p 0) = max (mv (ix2 p 0)) (r (ix1 p)) := by
  subst hg
  rw [select_one]
  show max (mv (ix2 p 0)) (shapeCast S2048x1 r h (ix2 p 0)) = _
  rw [cast_col_apply]

/-- The sum's update: the carried sum times the rescaling factor, plus the tile's lane sum. -/
theorem sel_sum_apply (hg : g = 1#1) (sv ev : FVec Ideal S2048x1 .f32) (r : FVec Ideal S2048 .f32) (h : S2048.ShapeCasts S2048x1)
    (h' : S2048x1.ShapeCasts S2048x1) (p : Fin 2048) :
    shapeCast S2048x1 (Scalar.select g (addf (F := Ideal) (mulf (F := Ideal) sv ev) (shapeCast S2048x1 r h)) sv) h' (ix2 p 0)
      = sv (ix2 p 0) * ev (ix2 p 0) + r (ix1 p) := by
  subst hg
  rw [shapeCast_self, select_one]
  show sv (ix2 p 0) * ev (ix2 p 0) + shapeCast S2048x1 r h (ix2 p 0) = _
  rw [cast_col_apply]

end Updates

/-- The selected logit's update: the carried value plus the tile's lane sum. -/
theorem add_cast_apply (tv : FVec Ideal S2048x1 .f32) (r : FVec Ideal S2048 .f32) (h : S2048.ShapeCasts S2048x1)
    (h' : S2048x1.ShapeCasts S2048x1) (p : Fin 2048) :
    shapeCast S2048x1 (addf (F := Ideal) tv (shapeCast S2048x1 r h)) h' (ix2 p 0) = tv (ix2 p 0) + r (ix1 p) := by
  rw [shapeCast_self]
  show tv (ix2 p 0) + shapeCast S2048x1 r h (ix2 p 0) = _
  rw [cast_col_apply]

/-- The lane sum of `exp (T - M)`, `M` a column broadcast along the lanes. -/
theorem expsum_apply (T : FVec Ideal S2048x1024 .f32) (M : FVec Ideal S2048x1 .f32) (hb : S2048x1.Broadcasts S2048x1024)
    (h : S2048x1024.Reduces [1] S2048) (hφ : FKind.Formats .f32) (hacc : (0x00000000#32 : BitVec 32) = FKind.add.neutral .f32 hφ)
    (p : Fin 2048) :
    multiReduction (F := Ideal) .add [1] S2048 (exp (F := Ideal) (subf (F := Ideal) T (broadcastTo S2048x1024 M hb))) 0x00000000#32 h hφ hacc (ix1 p)
      = ∑ k : Fin 1024, Ideal.exp (T (ix2 p k) - M (ix2 p 0)) := by
  refine (rowsum_apply _ h hφ hacc p).trans ?_
  refine Finset.sum_congr rfl fun k _ => ?_
  show Ideal.exp (T (ix2 p k) - broadcastTo S2048x1024 M hb (ix2 p k)) = _
  rw [bcast_col_apply]

/-- The lane sum of `T` over the lanes where `C` holds the row's word of the column `L` (broadcast along the lanes),
    the other lanes counting zero. -/
theorem selsum_apply (L : IVec S2048x1 32) (C : IVec S2048x1024 32) (T : FVec Ideal S2048x1024 .f32)
    (hc : S2048x1.ShapeCasts S2048x1) (hb : S2048x1.Broadcasts S2048x1024) (h : S2048x1024.Reduces [1] S2048) (hφ : FKind.Formats .f32)
    (hacc : (0x00000000#32 : BitVec 32) = FKind.add.neutral .f32 hφ) (p : Fin 2048) :
    multiReduction (F := Ideal) .add [1] S2048
        (select (cmpi .eq (broadcastTo S2048x1024 (shapeCast S2048x1 L hc) hb) C) T (broadcast S2048x1024 (Scalar.ofBits (F := Ideal) .f32 0x00000000#32)))
        0x00000000#32 h hφ hacc (ix1 p)
      = ∑ k : Fin 1024, if L (ix2 p 0) == C (ix2 p k) then T (ix2 p k) else 0 := by
  rw [shapeCast_self]
  refine (rowsum_apply _ h hφ hacc p).trans ?_
  refine Finset.sum_congr rfl fun k _ => ?_
  show Scalar.select (IntOp.cmpi .eq (broadcastTo S2048x1024 L hb (ix2 p k)) (C (ix2 p k))) (T (ix2 p k))
      (Ideal.ofBits .f32 0x00000000#32) = _
  rw [bcast_col_apply, Ideal.ofBits_zero_f32]
  unfold Scalar.select
  by_cases hh : L (ix2 p 0) = C (ix2 p k)
  · rw [if_pos (beq_iff_eq.mpr hh)]
    exact if_pos (Idealize.ShloMosaic.StableHlo.Predicate.cmpi_eq_iff.mpr hh)
  · rw [if_neg (fun h' => hh (beq_iff_eq.mp h'))]
    exact if_neg (fun h' => hh (Idealize.ShloMosaic.StableHlo.Predicate.cmpi_eq_iff.mp h'))

/-! ### The three carried numbers after one tile, at row `p` -/

/-- The running maximum after the tile at `i`, at row `p`, from the carried maximum `mv`. -/
def newMax (mv : Vec Ideal S2048x1 .f32) (p : Fin 2048) : EReal :=
  max (mv (ix2 p 0)) ((Finset.univ : Finset (Fin 1024)).fold max ⊥ (tileOf i x w b p))

theorem pay10_apply (mv : Vec Ideal S2048x1 .f32) :
    k0_pay10 (F := Ideal) i x w b mv mv (ix2 p 0) = newMax i x w b mv p := by
  unfold k0_pay10 newMax
  refine (sel_max_apply _ (guard_eq i) mv _ _ p).trans ?_
  refine congrArg (fun z : EReal => max (mv (ix2 p 0)) z) ?_
  refine (rowmax_apply _ _ _ _ p).trans ?_
  exact congrArg (fun f => Finset.fold max ⊥ f (Finset.univ : Finset (Fin 1024))) (funext fun k => pay9_apply i x w b p k)

theorem pay2_apply (v : FVec Ideal S2048x1 .f32) : k0_pay2 (F := Ideal) v = v := by
  unfold k0_pay2
  exact shapeCast_self v _

theorem pay11_apply (mv : Vec Ideal S2048x1 .f32) :
    k0_pay11 (F := Ideal) i x w b mv mv mv (ix2 p 0) = Ideal.exp (mv (ix2 p 0) - newMax i x w b mv p) := by
  unfold k0_pay11
  show Ideal.exp (mv (ix2 p 0) - k0_pay10 (F := Ideal) i x w b mv mv (ix2 p 0)) = _
  rw [pay10_apply]

theorem pay12_apply (mv : Vec Ideal S2048x1 .f32) :
    k0_pay12 (F := Ideal) i x w b mv mv (ix1 p) = ∑ k : Fin 1024, Ideal.exp (tileOf i x w b p k - newMax i x w b mv p) := by
  unfold k0_pay12
  refine (expsum_apply _ _ _ _ _ _ p).trans ?_
  refine Finset.sum_congr rfl fun k _ => ?_
  rw [pay9_apply, pay10_apply]

theorem pay1_apply (mv sv : Vec Ideal S2048x1 .f32) :
    k0_pay1 (F := Ideal) (guard i) (k0_pay11 i x w b mv mv mv) (k0_pay12 i x w b mv mv) sv sv (ix2 p 0)
      = sv (ix2 p 0) * Ideal.exp (mv (ix2 p 0) - newMax i x w b mv p)
        + ∑ k : Fin 1024, Ideal.exp (tileOf i x w b p k - newMax i x w b mv p) := by
  unfold k0_pay1
  refine (sel_sum_apply _ (guard_eq i) sv _ _ _ _ p).trans ?_
  rw [pay11_apply, pay12_apply]

theorem pay3_apply (tv : Vec Ideal S2048x1 .f32) :
    k0_pay3 (F := Ideal) (k0_pay8 i) (k0_pay9 i x w b) lab tv (ix2 p 0)
      = tv (ix2 p 0) + ∑ k : Fin 1024,
          if lab (ix2 p 0) == BitVec.ofNat 32 ((i 1).val * 1024 + k.val) then tileOf i x w b p k else 0 := by
  unfold k0_pay3
  refine (add_cast_apply tv _ _ _ p).trans ?_
  refine congrArg (fun z : EReal => tv (ix2 p 0) + z) ?_
  refine (selsum_apply lab _ _ _ _ _ _ _ p).trans ?_
  refine Finset.sum_congr rfl fun k _ => ?_
  rw [pay8_apply, pay9_apply]

theorem step_acc : accOf (step i x w b lab s) p
    = (accOf s p).step (tileOf i x w b p) (fun k => lab (ix2 p 0) == BitVec.ofNat 32 ((i 1).val * 1024 + k.val)) := by
  have e1 : (step i x w b lab s).mx (ix2 p 0) = newMax i x w b s.mx p :=
    (congrFun (pay2_apply _) (ix2 p 0)).trans (pay10_apply i x w b p s.mx)
  have e2 : (step i x w b lab s).sm (ix2 p 0) = _ := pay1_apply i x w b p s.mx s.sm
  have e3 : (step i x w b lab s).tg (ix2 p 0) = _ := pay3_apply i x w b lab p s.tg
  unfold accOf
  rw [e1, e2, e3]
  rfl

theorem step_congr (w' : Vec Ideal S1024x1024 .f32) (b' : Vec Ideal S1x1024 .f32)
    (hw : ∀ (k d : Fin 1024), (i 1).val * 1024 + k.val < 50257 → w (ix2 k d) = w' (ix2 k d))
    (hb : ∀ k : Fin 1024, (i 1).val * 1024 + k.val < 50257 → b (ix2 0 k) = b' (ix2 0 k)) :
    step i x w b lab s = step i x w' b' lab s := by
  have h9 : k0_pay9 (F := Ideal) i x w b = k0_pay9 (F := Ideal) i x w' b' := by
    funext j
    obtain ⟨p, k, rfl⟩ : ∃ (p : Fin 2048) (k : Fin 1024), j = ix2 p k := ⟨j 0, j 1, eq_ix2 j⟩
    rw [pay9_apply, pay9_apply]
    unfold tileOf
    by_cases h : (i 1).val * 1024 + k.val < 50257
    · rw [if_pos h, if_pos h, hb k h]
      exact congrArg (fun z : EReal => z + b' (ix2 0 k)) (Finset.sum_congr rfl fun d _ => by rw [hw k d h])
    · rw [if_neg h, if_neg h]
  have h10 : ∀ m₁ m₂ : Vec Ideal S2048x1 .f32,
      k0_pay10 (F := Ideal) i x w b m₁ m₂ = k0_pay10 (F := Ideal) i x w' b' m₁ m₂ := by
    intro m₁ m₂; unfold k0_pay10; rw [h9]
  have h11 : ∀ m₁ m₂ m₃ : Vec Ideal S2048x1 .f32,
      k0_pay11 (F := Ideal) i x w b m₁ m₂ m₃ = k0_pay11 (F := Ideal) i x w' b' m₁ m₂ m₃ := by
    intro m₁ m₂ m₃; unfold k0_pay11; rw [h10]
  have h12 : ∀ m₁ m₂ : Vec Ideal S2048x1 .f32,
      k0_pay12 (F := Ideal) i x w b m₁ m₂ = k0_pay12 (F := Ideal) i x w' b' m₁ m₂ := by
    intro m₁ m₂; unfold k0_pay12; rw [h9, h10]
  unfold step
  rw [h9, h10, h11, h12]

end Cert.KernelIdeal.Exact

end
-- ==== Proof.IdealBlocks.lean ====
/-
  The idealized kernel's input blocks and the arrays its region finds, read at an index.

  A block's element sits in its array, on each axis, at the block index times the block's size plus the element's own
  coordinate. Point `t` of the grid is row block `t / 50` and vocabulary tile `t % 50`: the embeddings' and the labels'
  blocks start at row `(t / 50) · 2048`, a tile of `W` at row `(t % 50) · 1024` and a tile of the bias at column
  `(t % 50) · 1024`. The last tile overhangs the vocabulary's end; inside the array a clipped block, filled out with
  anything, is the array's block.

  The arrays the region finds are the launch arguments through the host operations before it: the embeddings cut to the
  first 2047 positions of each sequence, flattened to 4094 rows and padded with two rows of zero; the labels cut to the
  last 2047 positions, flattened and padded with two zero words; the bias as one row.
-/
import proofs.«423894_j137438953739_3_alg».proof.Proof.IdealData
import proofs.«423894_j137438953739_3_alg».proof.Proof.Spec
import Idealize.ShloMosaic.Lib.Pipeline.Value
import Idealize.ShloMosaic.Lib.ValueIdx
import Idealize.ShloMosaic.Lib.KernelVsHost

set_option maxRecDepth 16384

noncomputable section

namespace Cert.KernelIdeal.Exact

open Cert.KernelIdeal Cert.KernelIdeal.Gen
open Idealize.ShloMosaic Idealize.ShloMosaic.TcCoe Idealize.SL.Sem
open Idealize.ShloMosaic.ValueIdx

variable (m : (ℓ : Loc nD τ sig) → Buf (Elt Ideal) ℓ) (c : Dev nD)

/-! ## The grid's points -/

/-- Point `t`'s row block. -/
theorem coords_r (t : Fin cfg0.N) : (grid0.coords t 0).val = t.val / 50 :=
  (by decide +kernel : ∀ t : Fin grid0.N, (grid0.coords t 0).val = t.val / 50) t

/-- Point `t`'s vocabulary tile. -/
theorem coords_vt (t : Fin cfg0.N) : (grid0.coords t 1).val = t.val % 50 :=
  (by decide +kernel : ∀ t : Fin grid0.N, (grid0.coords t 1).val = t.val % 50) t

/-- The grid has a hundred points. -/
theorem t_lt (t : Fin cfg0.N) : t.val < 100 := t.isLt

/-! ## The blocks at a point -/

/-- The embeddings' block at point `t` is rows `(t / 50) · 2048 …` of the array. -/
theorem xblk_apply (t : Fin cfg0.N) (p : Fin 2048) (d : Fin 1024) :
    xblk m c t (ix2 p d) = (Gen.V m c main_v7 : S4096x1024.Idx → EReal) (ix2 ⟨(t.val / 50) * 2048 + p.val, by have := t_lt t; have := p.isLt; omega⟩ d) := by
  unfold xblk Gen.iblk
  rw [View.read_apply]
  refine (cast_eq _ _).trans ?_
  refine congrArg (Gen.V m c main_v7 : S4096x1024.Idx → EReal) ?_
  funext a
  apply Fin.ext
  refine (win0_0.rect_emb_val t (ix2 p d) a).trans ?_
  have ht := t_lt t
  match a with
  | ⟨0, _⟩ =>
    show (BitVec.ofNat 32 (grid0.coords t 0).val).toNat * 2048 + p.val = t.val / 50 * 2048 + p.val
    rw [coords_r, BitVec.toNat_ofNat, Nat.mod_eq_of_lt (by omega)]
  | ⟨1, _⟩ =>
    show (0#32).toNat * 1024 + d.val = d.val
    simp

/-- The labels' block at point `t` is rows `(t / 50) · 2048 …` of the column. -/
theorem lblk_apply (t : Fin cfg0.N) (p : Fin 2048) :
    lblk m c t (ix2 p 0) = (Gen.V m c main_v9 : S4096x1.Idx → BitVec 32) (ix2 ⟨(t.val / 50) * 2048 + p.val, by have := t_lt t; have := p.isLt; omega⟩ 0) := by
  unfold lblk Gen.iblk
  rw [View.read_apply]
  refine (cast_eq _ _).trans ?_
  refine congrArg (Gen.V m c main_v9 : S4096x1.Idx → BitVec 32) ?_
  funext a
  apply Fin.ext
  refine (win0_3.rect_emb_val t (ix2 p 0) a).trans ?_
  have ht := t_lt t
  match a with
  | ⟨0, _⟩ =>
    show (BitVec.ofNat 32 (grid0.coords t 0).val).toNat * 2048 + p.val = t.val / 50 * 2048 + p.val
    rw [coords_r, BitVec.toNat_ofNat, Nat.mod_eq_of_lt (by omega)]
  | ⟨1, _⟩ =>
    show (0#32).toNat * 1 + 0 = 0
    simp

/-- A tile of `W`, filled out with anything past the array's end, is inside the array rows `(t % 50) · 1024 …` of `W`:
    the row is among those the clipped transfer moves, and there the filled block is the array's. -/
theorem fill1_apply (t : Fin cfg0.N) (d1 : Vec Ideal S1024x1024 .f32) (k d : Fin 1024) (h : (t.val % 50) * 1024 + k.val < 50257) :
    win0_1.fill (grid0.coords t) d1 (Gen.iblk (F := Ideal) m c 1 t) (ix2 k d)
      = (Gen.V m c main_arg1 : S50257x1024.Idx → EReal) (ix2 ⟨(t.val % 50) * 1024 + k.val, h⟩ d) := by
  have ht := t_lt t
  have hvt : (BitVec.ofNat 32 (grid0.coords t 1).val).toNat = t.val % 50 := by
    rw [coords_vt, BitVec.toNat_ofNat, Nat.mod_eq_of_lt (by omega)]
  have hmv : win0_1.moved (grid0.coords t) (ix2 k d) = true := by
    rw [Pipeline.Window.moved_iff]
    intro a
    match a with
    | ⟨0, _⟩ =>
      show k.val < (Pipeline.Clip.of (BitVec.ofNat 32 (grid0.coords t 1).val).toNat 1024 50257).extent 1024
      rw [hvt]
      unfold Pipeline.Clip.of
      split
      · exact k.isLt
      · show k.val < 50257 - t.val % 50 * 1024
        omega
    | ⟨1, _⟩ =>
      show d.val < (Pipeline.Clip.of (0#32).toNat 1024 1024).extent 1024
      exact d.isLt
  unfold Pipeline.Window.fill
  rw [dif_pos hmv]
  unfold Gen.iblk
  rw [View.read_apply]
  refine (cast_eq _ _).trans ?_
  refine congrArg (Gen.V m c main_arg1 : S50257x1024.Idx → EReal) ?_
  funext a
  apply Fin.ext
  refine (win0_1.rect_emb_val t _ a).trans ?_
  match a with
  | ⟨0, _⟩ =>
    show (BitVec.ofNat 32 (grid0.coords t 1).val).toNat * 1024 + k.val = t.val % 50 * 1024 + k.val
    rw [hvt]
  | ⟨1, _⟩ =>
    show (0#32).toNat * 1024 + d.val = d.val
    simp

/-- A tile of the bias likewise: inside the array, columns `(t % 50) · 1024 …` of the one row. -/
theorem fill2_apply (t : Fin cfg0.N) (d2 : Vec Ideal S1x1024 .f32) (k : Fin 1024) (h : (t.val % 50) * 1024 + k.val < 50257) :
    win0_2.fill (grid0.coords t) d2 (Gen.iblk (F := Ideal) m c 2 t) (ix2 0 k)
      = (Gen.V m c main_v10 : S1x50257.Idx → EReal) (ix2 0 ⟨(t.val % 50) * 1024 + k.val, h⟩) := by
  have ht := t_lt t
  have hvt : (BitVec.ofNat 32 (grid0.coords t 1).val).toNat = t.val % 50 := by
    rw [coords_vt, BitVec.toNat_ofNat, Nat.mod_eq_of_lt (by omega)]
  have hmv : win0_2.moved (grid0.coords t) (ix2 0 k) = true := by
    rw [Pipeline.Window.moved_iff]
    intro a
    match a with
    | ⟨0, _⟩ =>
      show 0 < (Pipeline.Clip.of (0#32).toNat 1 1).extent 1
      exact Nat.one_pos
    | ⟨1, _⟩ =>
      show k.val < (Pipeline.Clip.of (BitVec.ofNat 32 (grid0.coords t 1).val).toNat 1024 50257).extent 1024
      rw [hvt]
      unfold Pipeline.Clip.of
      split
      · exact k.isLt
      · show k.val < 50257 - t.val % 50 * 1024
        omega
  unfold Pipeline.Window.fill
  rw [dif_pos hmv]
  unfold Gen.iblk
  rw [View.read_apply]
  refine (cast_eq _ _).trans ?_
  refine congrArg (Gen.V m c main_v10 : S1x50257.Idx → EReal) ?_
  funext a
  apply Fin.ext
  refine (win0_2.rect_emb_val t _ a).trans ?_
  match a with
  | ⟨0, _⟩ =>
    show (0#32).toNat * 1 + 0 = 0
    simp
  | ⟨1, _⟩ =>
    show (BitVec.ofNat 32 (grid0.coords t 1).val).toNat * 1024 + k.val = t.val % 50 * 1024 + k.val
    rw [hvt]

/-! ## The arrays the region finds -/

/-- The embeddings as the region finds them: the first 2047 positions of each sequence, flattened to 4094 rows, two
    rows of the converted zero word appended (the narrowing to bf16 is the identity on extended reals). -/
theorem V_v7_eq : (Gen.V m c main_v7 : S4096x1024.Idx → EReal)
    = truncf (F := Ideal) .bf16 (pad S4096x1024 ![0, 0] ![2, 0] ![0, 0]
        (shapeCast S4094x1024 (extractStridedSlice S2x2047x1024 ![0, 0, 0] (m ((c.tc : Thread nD τ).loc main_arg0) : S2x2048x1024.Idx → EReal) slices_S2x2048x1024_S2x2047x1024_0_0_0) shapeCasts_S2x2047x1024_S4094x1024)
        (sitofp (F := Ideal) .f32 (constantI S_ 32 0#32)) pads_S4094x1024_S4096x1024_020_000 h_S_) bitsLt_bf16_f32 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Read at a row: row `q < 4094` is position `q % 2047` of sequence `q / 2047`; the two appended rows are zero. -/
theorem V_v7_apply (q : Fin 4096) (d : Fin 1024) :
    (Gen.V m c main_v7 : S4096x1024.Idx → EReal) (ix2 q d)
      = if h : q.val < 4094 then (m ((c.tc : Thread nD τ).loc main_arg0) : S2x2048x1024.Idx → EReal) (ix3 (Cert.Spec.rowB ⟨q.val, h⟩) (Cert.Spec.rowS ⟨q.val, h⟩) d) else (0 : EReal) := by
  rw [V_v7_eq]
  refine (truncf_apply (φ := .f32) (ψ := .bf16) _ bitsLt_bf16_f32 (ix2 q d)).trans ?_
  by_cases h : q.val < 4094
  · rw [dif_pos h]
    -- inside the padded array: row `q` of the flattened rows
    refine (pad_apply_of_inside _ _ _ _ _ _ _ (ix2 q d) (ix2 (⟨q.val, h⟩ : Fin 4094) d) ?_).trans ?_
    · intro a
      match a with
      | ⟨0, _⟩ => show q.val = 0 + q.val * (0 + 1); omega
      | ⟨1, _⟩ => show d.val = 0 + d.val * (0 + 1); omega
    -- row `q` of the flattened rows is position `q % 2047` of sequence `q / 2047`
    refine (shapeCast_apply _ _ (ix2 (⟨q.val, h⟩ : Fin 4094) d)
      (ix3 (Cert.Spec.rowB ⟨q.val, h⟩) (⟨q.val % 2047, Nat.mod_lt _ (by omega)⟩ : Fin 2047) d) ?_).trans ?_
    · rw [Shape.rowMajor_val_three, Shape.rowMajor_val_two]
      show (q.val / 2047 * 2047 + q.val % 2047) * 1024 + d.val = q.val * 1024 + d.val
      rw [Nat.div_add_mod' q.val 2047]
    -- and the cut starts at position 0
    refine extractStridedSlice_apply _ _ _ _ (ix3 (Cert.Spec.rowB ⟨q.val, h⟩) (Cert.Spec.rowS ⟨q.val, h⟩) d) ?_
    intro a
    match a with
    | ⟨0, _⟩ => show q.val / 2047 = 0 + q.val / 2047; omega
    | ⟨1, _⟩ => show q.val % 2047 = 0 + q.val % 2047; omega
    | ⟨2, _⟩ => show d.val = 0 + d.val; omega
  · rw [dif_neg h]
    -- the two appended rows hold the padding value, the zero word converted
    refine (pad_apply_of_not_inside _ _ _ _ _ _ _ (ix2 q d) (⟨0, by decide⟩ : Fin 2) ?_).trans ?_
    · show ¬(0 ≤ q.val ∧ (q.val - 0) % (0 + 1) = 0 ∧ (q.val - 0) / (0 + 1) < 4094)
      omega
    exact sitofp_zero

/-- The labels as the region finds them: the last 2047 positions of each sequence, flattened to 4094 rows, two zero
    words appended, as one column. -/
theorem V_v9_eq : (Gen.V m c main_v9 : S4096x1.Idx → BitVec 32)
    = shapeCast S4096x1 (pad S4096 ![0] ![2] ![0]
        (shapeCast S4094 (extractStridedSlice S2x2047 ![0, 1] (m ((c.tc : Thread nD τ).loc main_arg3) : S2x2048.Idx → BitVec 32) slices_S2x2048_S2x2047_0_1) shapeCasts_S2x2047_S4094)
        (constantI S_ 32 0#32) pads_S4094_S4096_020 h_S_) shapeCasts_S4096_S4096x1 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Read at a row: row `q < 4094` holds the label of position `q % 2047 + 1` of sequence `q / 2047`; the two appended
    rows hold the zero word. -/
theorem V_v9_apply (q : Fin 4096) :
    (Gen.V m c main_v9 : S4096x1.Idx → BitVec 32) (ix2 q 0)
      = if h : q.val < 4094 then Cert.Spec.label (m ((c.tc : Thread nD τ).loc main_arg3)) ⟨q.val, h⟩ else 0#32 := by
  rw [V_v9_eq]
  -- the column's row `q` is entry `q` of the padded vector
  refine (shapeCast_apply _ _ (ix2 q 0) (ix1 q) ?_).trans ?_
  · rw [Shape.rowMajor_val_one, Shape.rowMajor_val_two]
    show q.val = q.val * 1 + 0
    omega
  by_cases h : q.val < 4094
  · rw [dif_pos h]
    -- inside the padded vector: entry `q` of the flattened labels
    refine (pad_apply_of_inside _ _ _ _ _ _ _ (ix1 q) (ix1 (⟨q.val, h⟩ : Fin 4094)) ?_).trans ?_
    · intro a
      match a with
      | ⟨0, _⟩ => show q.val = 0 + q.val * (0 + 1); omega
    -- entry `q` of the flattened labels is position `q % 2047` of sequence `q / 2047` of the cut
    refine (shapeCast_apply _ _ (ix1 (⟨q.val, h⟩ : Fin 4094))
      (ix2 (Cert.Spec.rowB ⟨q.val, h⟩) (⟨q.val % 2047, Nat.mod_lt _ (by omega)⟩ : Fin 2047)) ?_).trans ?_
    · rw [Shape.rowMajor_val_two, Shape.rowMajor_val_one]
      show q.val / 2047 * 2047 + q.val % 2047 = q.val
      exact Nat.div_add_mod' q.val 2047
    -- and the cut starts at position 1
    refine extractStridedSlice_apply _ _ _ _ (ix2 (Cert.Spec.rowB ⟨q.val, h⟩) (Cert.Spec.rowS1 ⟨q.val, h⟩)) ?_
    intro a
    match a with
    | ⟨0, _⟩ => show q.val / 2047 = 0 + q.val / 2047; omega
    | ⟨1, _⟩ => show q.val % 2047 + 1 = 1 + q.val % 2047; omega
  · rw [dif_neg h]
    -- the two appended entries hold the padding value, the zero word
    refine (pad_apply_of_not_inside _ _ _ _ _ _ _ (ix1 q) (⟨0, by decide⟩ : Fin 1) ?_).trans ?_
    · show ¬(0 ≤ q.val ∧ (q.val - 0) % (0 + 1) = 0 ∧ (q.val - 0) / (0 + 1) < 4094)
      omega
    rfl

/-- The bias as the region finds it: the argument as one row. -/
theorem V_v10_eq : (Gen.V m c main_v10 : S1x50257.Idx → EReal)
    = shapeCast S1x50257 (m ((c.tc : Thread nD τ).loc main_arg2) : S50257.Idx → EReal) shapeCasts_S50257_S1x50257 := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

/-- Read at a column: the bias there. -/
theorem V_v10_apply (j : Fin 50257) :
    (Gen.V m c main_v10 : S1x50257.Idx → EReal) (ix2 0 j) = (m ((c.tc : Thread nD τ).loc main_arg2) : S50257.Idx → EReal) (ix1 j) := by
  rw [V_v10_eq]
  refine shapeCast_apply _ _ (ix2 0 j) (ix1 j) ?_
  rw [Shape.rowMajor_val_one, Shape.rowMajor_val_two]
  show j.val = 0 * 50257 + j.val
  omega

/-- The valid-row mask the region finds: the shifted labels against the ignore word. -/
theorem V_v5_eq : (Gen.V m c main_v5 : S4094.Idx → BitVec 1)
    = cmpi .ne (shapeCast S4094 (extractStridedSlice S2x2047 ![0, 1] (m ((c.tc : Thread nD τ).loc main_arg3) : S2x2048.Idx → BitVec 32) slices_S2x2048_S2x2047_0_1) shapeCasts_S2x2047_S4094)
        (broadcastInDim S4094 ![] bcast_S_S4094 (constantI S_ 32 4294967196#32)) := by
  dsimp only [Gen.V, Gen.V0]
  simp only [Gen.hostOps0, Gen.hostOps0_1, Gen.hostOps0_2, Gen.hostOps0_3, Gen.hostOps0_4, List.flatten_cons, List.flatten_nil, List.append_nil, List.cons_append, List.nil_append]
  after_results
  rfl

end Cert.KernelIdeal.Exact

end
-- ==== Proof.IdealIndep.lean ====
/-
  The words past the vocabulary's end do not reach what the kernel carries.

  Tile 49 of `W` and of the bias runs 943 entries past the arrays' end; whatever fills the staging buffers there, the
  masked logits read those entries only under a column index `≥ 50257`, where the mask answers `-∞`. So one tile's
  update of the carried vectors is the same for any two fillings: inside the arrays a filled block is the array's block.
-/
import proofs.«423894_j137438953739_3_alg».proof.Proof.IdealStep
import proofs.«423894_j137438953739_3_alg».proof.Proof.IdealBlocks

noncomputable section

namespace Cert.KernelIdeal.Exact

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- One tile's update from blocks filled with `d1`, `d2` past the arrays' end is the update from the zero-filled blocks. -/
theorem step_fill_indep (t : Fin cfg0.N) (x : Vec Ideal S2048x1024 .bf16) (lab : Vec Ideal S2048x1 .i32) (s : Scr)
    (d1 : Vec Ideal S1024x1024 .f32) (d2 : Vec Ideal S1x1024 .f32) :
    step (grid0.coords t) x (win0_1.fill (grid0.coords t) d1 (Gen.iblk (F := Ideal) m c 1 t))
        (win0_2.fill (grid0.coords t) d2 (Gen.iblk (F := Ideal) m c 2 t)) lab s
      = step (grid0.coords t) x (wblk m c t) (bblk m c t) lab s := by
  refine step_congr (grid0.coords t) x _ _ lab s (wblk m c t) (bblk m c t) ?_ ?_
  · intro k d h
    rw [coords_vt] at h
    rw [fill1_apply m c t d1 k d h]
    unfold wblk
    rw [fill1_apply m c t _ k d h]
  · intro k h
    rw [coords_vt] at h
    rw [fill2_apply m c t d2 k h]
    unfold bblk
    rw [fill2_apply m c t _ k h]

end Cert.KernelIdeal.Exact

end
-- ==== Proof.IdealRun.lean ====
/-
  The idealized kernel's region with exact proof data: the body obligation at every point, the run, and the frame.

  At a point the inputs' staging buffers hold their blocks — the two clipped windows' filled out, past the array's
  end, with words nothing names, which the masked logits do not read —, the scratch buffers hold the carried vectors
  (anything before a tile 0, which resets them), and the output's buffer is stored at a tile 49 only. The three runs
  of the body (one per case of its two conditionals) give the obligation; the pipeline's frame rule gives the run,
  whose post reads every array off the proof data; the frame claim follows.
-/
import proofs.«423894_j137438953739_3_alg».proof.Proof.IdealBody
import proofs.«423894_j137438953739_3_alg».proof.Proof.IdealBefore
import proofs.«423894_j137438953739_3_alg».proof.Proof.IdealIndep
import proofs.«423894_j137438953739_3_alg».proof.Defs
import proofs.«423894_j137438953739_3_alg».proof.Proof.Gen.Pre_finite_inputs

set_option maxRecDepth 16384

noncomputable section

namespace Cert.KernelIdeal.Exact

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

variable (m : (ℓ : Loc nD τ sig) → Buf (Elt Ideal) ℓ)

/-! ## The branch conditions in closed form, and where the output window is idle -/

/-- The reset's condition holds at the tiles 0. -/
theorem hcond1 : ∀ t : Fin cfg0.N, cond1 (grid0.coords t) ↔ t.val % 50 = 0 :=
  (by decide +kernel : ∀ t : Fin grid0.N, cond1 (grid0.coords t) ↔ t.val % 50 = 0)
/-- The output store's condition holds at the tiles 49. -/
theorem hcond2 : ∀ t : Fin cfg0.N, cond2 (grid0.coords t) ↔ t.val % 50 = 49 :=
  (by decide +kernel : ∀ t : Fin grid0.N, cond2 (grid0.coords t) ↔ t.val % 50 = 49)
/-- The output window is idle off the tiles 49, -/
theorem idle4 : ∀ t : Fin cfg0.N, ¬t.val % 50 = 49 → cfg0.idle 4 (grid0.coords t) = true :=
  (by decide +kernel : ∀ t : Fin grid0.N, ¬t.val % 50 = 49 → idle0 4 (grid0.coords t) = true)
/-- live at them, -/
theorem live4 : ∀ t : Fin cfg0.N, t.val % 50 = 49 → cfg0.idle 4 (grid0.coords t) = false :=
  (by decide +kernel : ∀ t : Fin grid0.N, t.val % 50 = 49 → idle0 4 (grid0.coords t) = false)
/-- and not written back off them. -/
theorem noflush4 (t : Fin cfg0.N) (h : ¬t.val % 50 = 49) : (cfg0.win 4).flush t = false := by
  cases hf : (cfg0.win 4).flush t
  · rfl
  · exact absurd ((flush0_4 t).mp hf) h

/-! ## The invariant's two shapes -/

/-- The class's invariant with the scratch operands as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)
          ∗ (∃ d, owns (c : Thread nD τ) scM2 fullShare d)) ∗ (∃ r, prngReg c r)) := by
  unfold Pipeline.ΦA; rw [scopedRest0_eq]; simp only [scM0, scM1, scM2, owns_whole]; try rfl

/-- The carried vectors after a point, from those before it. -/
theorem scrAfter_succ (c : Dev nD) (t : Fin cfg0.N) :
    scrAfter m c (t.val + 1) = step (grid0.coords t) (xblk m c t) (wblk m c t) (bblk m c t) (lblk m c t)
      (if t.val % 50 = 0 then reset else scrAfter m c t.val) := by
  rw [scrAfter, dif_pos t.isLt]

/-! ## What the body leaves in each window's buffer -/

/-- The staging memrefs at point t, as the pipeline passes them. -/
abbrev ms0 (t : Fin cfg0.N) : Memref sig .tc .vmem S2048x1024 .bf16 := win0_0.stage (cfg0.slots t 0)
abbrev ms1 (t : Fin cfg0.N) : Memref sig .tc .vmem S1024x1024 .f32 := win0_1.stage (cfg0.slots t 1)
abbrev ms2 (t : Fin cfg0.N) : Memref sig .tc .vmem S1x1024 .f32 := win0_2.stage (cfg0.slots t 2)
abbrev ms3 (t : Fin cfg0.N) : Memref sig .tc .vmem S2048x1 .i32 := win0_3.stage (cfg0.slots t 3)
abbrev ms4 (t : Fin cfg0.N) : Memref sig .tc .vmem S2048x1 .f32 := win0_4.stage (cfg0.slots t 4)

theorem leaves0 (c : Dev nD) (t : Fin cfg0.N) :
    (dats m 0 c).leaves 0 t = owns (c : Thread nD τ) (ms0 t) fullShare (xblk m c t) := by
  rw [← dats_after0]
theorem leaves3 (c : Dev nD) (t : Fin cfg0.N) :
    (dats m 0 c).leaves 3 t = owns (c : Thread nD τ) (ms3 t) fullShare (lblk m c t) := by
  rw [← dats_after3]
/-- A clipped window's buffer is stated on the part inside the array: the block, whatever fills out the rest. -/
theorem leaves1 (c : Dev nD) (t : Fin cfg0.N) :
    (dats m 0 c).leaves 1 t
      = iprop(∃ d, owns (c : Thread nD τ) (ms1 t) fullShare (win0_1.fill (grid0.coords t) d (Gen.iblk (F := Ideal) m c 1 t))) := by
  have h : win0_1.cut (grid0.coords t) ((dats m 0 c).after 1 t) = Gen.iblk (F := Ideal) m c 1 t := by
    rw [dats_after1]; unfold wblk; exact win0_1.cut_fill _ _ _
  rw [← h]; rfl
theorem leaves2 (c : Dev nD) (t : Fin cfg0.N) :
    (dats m 0 c).leaves 2 t
      = iprop(∃ d, owns (c : Thread nD τ) (ms2 t) fullShare (win0_2.fill (grid0.coords t) d (Gen.iblk (F := Ideal) m c 2 t))) := by
  have h : win0_2.cut (grid0.coords t) ((dats m 0 c).after 2 t) = Gen.iblk (F := Ideal) m c 2 t := by
    rw [dats_after2]; unfold bblk; exact win0_2.cut_fill _ _ _
  rw [← h]; rfl
/-- The output window's buffer: handed back as found off the tiles 49, at the stored vector at them. -/
theorem leaves4_idle (c : Dev nD) (t : Fin cfg0.N) (h : ¬t.val % 50 = 49) :
    (dats m 0 c).leaves 4 t = iprop(∃ d, owns (c : Thread nD τ) (ms4 t) fullShare ((dats m 0 c).before 4 t d)) :=
  Dat.leaves_idle (dats m 0 c) 4 t (idle4 t h) (noflush4 t h)
theorem leaves4_live (c : Dev nD) (t : Fin cfg0.N) (h : t.val % 50 = 49) :
    (dats m 0 c).leaves 4 t = owns (c : Thread nD τ) (ms4 t) fullShare (outAt m c t) := by
  unfold Dat.leaves; rw [live4 t h, dats_after4]

/-! ## The body obligation, at a generic point -/

/-- What the body is called with at point t, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t)

set_option maxHeartbeats 2000000 in
/-- The body at any point. The inputs' buffers hold their blocks, the clipped ones filled out with whatever stood past
    the array's end (which the masked logits do not read: step_fill_indep). At a tile 0 the scratch buffers hold
    anything and the body resets them; elsewhere they hold the carried vectors; the body leaves them at the next
    carried vectors. The output's buffer is handed back as found, except at a tile 49, which stores
    (max + log sum) - selected there and after which the scratch's contents are forgotten. -/
theorem sound_body (c : Dev nD) (t : Fin cfg0.N) :
    bodyPre m c t ⊢ wp frame (wpE (defs₀ (F := Ideal)) 𝒱₀ c none) Set.univ (bodyAt0 t) (fun _ => bodyPost m c t) := by
  unfold bodyPre bodyPost bodyAt0
  simp only [before_0, before_1, before_2, before_3]
  rw [show (dats m 0 c).owesAt () t.succ = (dats m 0 c).owesAt () t.castSucc from rfl, Phi_castSucc, Phi_succ,
    leaves0, leaves1, leaves2, leaves3]
  have hN : t.val < 100 := lt_of_lt_of_eq t.isLt (show cfg0.N = 100 from N_0)
  by_cases h0 : t.val % 50 = 0
  · -- a tile 0: the scratch at anything in, at the first step from the reset out
    have hc1 : cond1 (grid0.coords t) := (hcond1 t).mpr h0
    have hc2 : ¬cond2 (grid0.coords t) := fun h => by have := (hcond2 t).mp h; omega
    rw [PhiS_reset m c _ h0, PhiA_eq, PhiS_carried m c (t.val + 1) (by omega), scrAfter_succ, if_pos h0,
      leaves4_idle m c t (by omega)]
    unfold scrOwn
    iintro ⟨⟨⟨⟨%s0, G0⟩, ⟨%s1, G1⟩, ⟨%s2, G2⟩⟩, Hg⟩, Ho, ⟨%d0, H0⟩, ⟨%d1, H1⟩, ⟨%d2, H2⟩, ⟨%d3, H3⟩, ⟨%d4, H4⟩⟩
    iapply (run_A c Set.univ (grid0.coords t) (ms0 t) _ (ms1 t) _ (ms2 t) _ (ms3 t) _ (ms4 t) _ hc1 hc2 _ _ _ _ _ s0 s1 s2 _)
    isplitl [H0]; · iexact H0
    isplitl [H1]; · iexact H1
    isplitl [H2]; · iexact H2
    isplitl [H3]; · iexact H3
    isplitl [H4]; · iexact H4
    isplitl [G0]; · iexact G0
    isplitl [G1]; · iexact G1
    isplitl [G2]; · iexact G2
    iintro ⟨H0, H1, H2, H3, H4, G0, G1, G2⟩
    irw [← step_fill_indep m c t (xblk m c t) (lblk m c t) reset d1 d2]
    isplitl [G0 G1 G2 Hg]
    · isplitl [G0 G1 G2]
      · isplitl [G0]; · iexact G0
        isplitl [G1]; · iexact G1
        iexact G2
      iexact Hg
    isplitl [Ho]; · iexact Ho
    isplitl [H0]; · iexact H0
    isplitl [H1]; · iexists d1; iexact H1
    isplitl [H2]; · iexists d2; iexact H2
    isplitl [H3]; · iexact H3
    iexists d4; iexact H4
  · by_cases h49 : t.val % 50 = 49
    · -- a tile 49: the carried vectors in; the output stored; the scratch's contents forgotten
      have hc1 : ¬cond1 (grid0.coords t) := fun h => h0 ((hcond1 t).mp h)
      have hc2 : cond2 (grid0.coords t) := (hcond2 t).mpr h49
      rw [PhiS_carried m c _ h0, PhiS_reset m c (t.val + 1) (by omega), PhiA_eq, leaves4_live m c t h49]
      unfold outAt scrOwn
      rw [scrAfter_succ, if_neg h0]
      iintro ⟨⟨⟨G0, G1, G2⟩, Hg⟩, Ho, ⟨%d0, H0⟩, ⟨%d1, H1⟩, ⟨%d2, H2⟩, ⟨%d3, H3⟩, ⟨%d4, H4⟩⟩
      iapply (run_C c Set.univ (grid0.coords t) (ms0 t) _ (ms1 t) _ (ms2 t) _ (ms3 t) _ (ms4 t) _ hc1 hc2 _ _ _ _ _ (scrAfter m c t.val) _)
      isplitl [H0]; · iexact H0
      isplitl [H1]; · iexact H1
      isplitl [H2]; · iexact H2
      isplitl [H3]; · iexact H3
      isplitl [H4]; · iexact H4
      isplitl [G0]; · iexact G0
      isplitl [G1]; · iexact G1
      isplitl [G2]; · iexact G2
      iintro ⟨H0, H1, H2, H3, H4, G0, G1, G2⟩
      irw [← step_fill_indep m c t (xblk m c t) (lblk m c t) (scrAfter m c t.val) d1 d2]
      isplitl [G0 G1 G2 Hg]
      · isplitl [G0 G1 G2]
        · isplitl [G0]; · iexists _; iexact G0
          isplitl [G1]; · iexists _; iexact G1
          iexists _; iexact G2
        iexact Hg
      isplitl [Ho]; · iexact Ho
      isplitl [H0]; · iexact H0
      isplitl [H1]; · iexists d1; iexact H1
      isplitl [H2]; · iexists d2; iexact H2
      isplitl [H3]; · iexact H3
      iexact H4
    · -- a tile between: the carried vectors in and out
      have hc1 : ¬cond1 (grid0.coords t) := fun h => h0 ((hcond1 t).mp h)
      have hc2 : ¬cond2 (grid0.coords t) := fun h => h49 ((hcond2 t).mp h)
      rw [PhiS_carried m c _ h0, PhiS_carried m c (t.val + 1) (by omega), scrAfter_succ, if_neg h0,
        leaves4_idle m c t h49]
      unfold scrOwn
      iintro ⟨⟨⟨G0, G1, G2⟩, Hg⟩, Ho, ⟨%d0, H0⟩, ⟨%d1, H1⟩, ⟨%d2, H2⟩, ⟨%d3, H3⟩, ⟨%d4, H4⟩⟩
      iapply (run_B c Set.univ (grid0.coords t) (ms0 t) _ (ms1 t) _ (ms2 t) _ (ms3 t) _ (ms4 t) _ hc1 hc2 _ _ _ _ _ (scrAfter m c t.val) _)
      isplitl [H0]; · iexact H0
      isplitl [H1]; · iexact H1
      isplitl [H2]; · iexact H2
      isplitl [H3]; · iexact H3
      isplitl [H4]; · iexact H4
      isplitl [G0]; · iexact G0
      isplitl [G1]; · iexact G1
      isplitl [G2]; · iexact G2
      iintro ⟨H0, H1, H2, H3, H4, G0, G1, G2⟩
      irw [← step_fill_indep m c t (xblk m c t) (lblk m c t) (scrAfter m c t.val) d1 d2]
      isplitl [G0 G1 G2 Hg]
      · isplitl [G0 G1 G2]
        · isplitl [G0]; · iexact G0
          isplitl [G1]; · iexact G1
          iexact G2
        iexact Hg
      isplitl [Ho]; · iexact Ho
      isplitl [H0]; · iexact H0
      isplitl [H1]; · iexists d1; iexact H1
      isplitl [H2]; · iexists d2; iexact H2
      isplitl [H3]; · iexact H3
      iexists d4; iexact H4

/-- The library's body obligation, at every point. -/
theorem body_obligation (c : Dev nD) :
    BodyObligationLoose (dats m 0 c) (defs₀ (F := Ideal)) 𝒱₀ () Set.univ := fun t => by
  rw [bigSep_W0, bigSep_W0]
  exact sound_body m c t

/-! ## The run and the frame -/

variable (ρ : Dev nD → PrngReg)

set_option backward.isDefEq.respectTransparency.types false in
/-- At the compiled mesh, from any memory with zero counters: every weakly fair execution of @main on the TensorCores
    terminates, and every final state has every array of the pipeline at what the proof data say and every other
    unscoped buffer as the lines after the region leave it. -/
theorem run_ideal : θ_run defs (onTc (τ := τ) (main (F := Ideal))) (s₀ m ρ)
    (Pipeline.FramePost cfgs (dats m) 0 (Pipeline.afterTail₀ cfgs (dats m) 0 (Gen.V0 m) [hostOps1, hostOps1_1, hostOps1_2])) :=
  Pipeline.θ_run_frame_around_track cfgs (dats m) (0 : Fin 1) Gen.launch0 defs₀ 𝒱₀ m ρ main
    (hbody := fun c => body_obligation m c) (hshare := fun c => (dats m 0 c).share_full fun _ => rfl)
    (howed := fun _ _ => rfl) (V₀ := Gen.V0 m) (opss := [hostOps1, hostOps1_1, hostOps1_2])
    (hsub := Gen.sfx_sub) (hfresh := Gen.sfx_fresh) (hkeep := Gen.sfx_keeps)
    (hmain := Gen.hmain m 𝒱₀) (hA := A_eq m) (hin := hin m) (hout := hout m)

/-- The idealized kernel runs and leaves its argument arrays unchanged. -/
theorem frame_pi : Cert.frame_KernelIdeal :=
  fun m ρ _ => Gen.frame_of m ρ (dats m) (A_eq m) (run_ideal m ρ)

end Cert.KernelIdeal.Exact

end
-- ==== Proof.Tail.lean ====
/-
  The last fifteen operations of the loss, as functions of the row mask and of the per-row cross entropy.

  `masked v z` keeps `z` on the rows whose mask bit is set and puts `0` on the others; `core y` is the focal
  weighting and the two means: with `p = exp (-y)`, `w = (1 - p) ^ 1`, `α = 1 / (∑ w / 4094)`, the result is
  `(∑ α · w · y) / 4094`. `tail v z = core (masked v z)` reads `z` only on the rows the mask keeps (`tail_congr`).
-/
import proofs.«423894_j137438953739_3_alg».proof.Proof.Gen.ReferenceIdeal
import Idealize.ShloMosaic.Lib.ValueIdx

noncomputable section

namespace Cert.Proof.Tail

open Cert.ReferenceIdeal Cert.ReferenceIdeal.Facts₀
open Idealize.ShloMosaic Idealize.ShloMosaic.ValueIdx

/-- The masked per-row value: `z` where the mask bit is `1`, the splat of `0.0` elsewhere. -/
def masked (v : IVec S4094 1) (z : FVec Ideal S4094 .f32) : FVec Ideal S4094 .f32 :=
  select v z (broadcastInDim S4094 ![] bcast_S_S4094 (id (constant (F := Ideal) S_ .f32 0x00000000#32)))

/-- The focal weight `w = (1 - exp (-y)) ^ 1` of each row. -/
def weight (y : FVec Ideal S4094 .f32) : FVec Ideal S4094 .f32 :=
  Host.powf (subf (broadcastInDim S4094 ![] bcast_S_S4094 (constant (F := Ideal) S_ .f32 0x3F800000#32)) (Host.exp (Host.negf y))) (broadcastInDim S4094 ![] bcast_S_S4094 (constant (F := Ideal) S_ .f32 0x3F800000#32))

/-- The mean over the rows of `α · w · y`, `α` the reciprocal of the mean weight. -/
def core (y : FVec Ideal S4094 .f32) : FVec Ideal S_ .f32 :=
  Host.divf (Host.reduceAdd (mulf (mulf (broadcastInDim S4094 ![] bcast_S_S4094 (Host.divf (constant (F := Ideal) S_ .f32 0x3F800000#32) (Host.divf (Host.reduceAdd (weight y) (constant (F := Ideal) S_ .f32 0x00000000#32) reducesTo_S4094_S_d0 h_S_) (constant (F := Ideal) S_ .f32 0x457FE000#32)))) (weight y)) y) (constant (F := Ideal) S_ .f32 0x00000000#32) reducesTo_S4094_S_d0 h_S_) (constant (F := Ideal) S_ .f32 0x457FE000#32)

/-- The loss from the row mask and the per-row value. -/
def tail (v : IVec S4094 1) (z : FVec Ideal S4094 .f32) : FVec Ideal S_ .f32 := core (masked v z)

/-- The masked value at a row whose bit is set is the value itself. -/
theorem masked_apply_one (v : IVec S4094 1) (z : FVec Ideal S4094 .f32) (i : S4094.Idx) (h : v i = 1#1) :
    masked v z i = z i := by
  show Scalar.select (v i) (z i) _ = z i
  rw [h, select_one]

/-- The masked value at a row whose bit is clear does not depend on the value. -/
theorem masked_apply_zero (v : IVec S4094 1) (z z' : FVec Ideal S4094 .f32) (i : S4094.Idx) (h : ¬ v i = 1#1) :
    masked v z i = masked v z' i := by
  show Scalar.select (v i) (z i) _ = Scalar.select (v i) (z' i) _
  rw [eq_zero_of_ne_one h, select_zero, select_zero]

/-- The loss reads the per-row value only on the rows the mask keeps. -/
theorem tail_congr (v : IVec S4094 1) (z z' : FVec Ideal S4094 .f32)
    (h : ∀ n : Fin 4094, v (ix1 n) = 1#1 → z (ix1 n) = z' (ix1 n)) : tail v z = tail v z' := by
  refine congrArg core (funext fun i => ?_)
  obtain ⟨n, rfl⟩ : ∃ n : Fin 4094, i = ix1 n := ⟨i 0, eq_ix1 i⟩
  by_cases hb : v (ix1 n) = 1#1
  · rw [masked_apply_one v z _ hb, masked_apply_one v z' _ hb, h _ hb]
  · exact masked_apply_zero v z z' _ hb

end Cert.Proof.Tail

end
-- ==== Proof.IdealOut.lean ====
/-
  What the idealized kernel's program returns, read off the region's exit contents (floats are extended reals).

  The output array [4096, 1] is written back twice, at the last vocabulary tile (49) of each of the two row blocks:
  point `t` with `t % 50 = 49` writes rows `2048 (t / 50) … 2048 (t / 50) + 2047`. The two blocks are disjoint and cover
  the array, so row `q` ends holding row `q % 2048` of what point `(q / 2048) · 50 + 49` stored (`arrAt4_apply`).

  After the region the program reshapes the array to [4096], keeps rows `0 … 4093` (`out_row`), masks them by the
  row mask computed before the region (zero where the bit is clear), and applies the focal weighting and the two means:
  with `y` the masked rows, `p = exp (-y)`, `w = (1 - p) ^ 1`, `α = 1 / (∑ w / 4094)`, the result is
  `(∑ α · w · y) / 4094` — the function `Cert.Proof.Tail.tail` of the mask and the rows (`tail_eq`).
-/
import proofs.«423894_j137438953739_3_alg».proof.Proof.IdealData
import proofs.«423894_j137438953739_3_alg».proof.Proof.Tail
import proofs.«423894_j137438953739_3_alg».proof.Proof.Gen.KernelIdeal.Frame
import proofs.«423894_j137438953739_3_alg».proof.Proof.Gen.KernelIdeal.Points
import proofs.«423894_j137438953739_3_alg».proof.Proof.Gen.KernelIdeal.Launch
import Idealize.ShloMosaic.Lib.Pipeline.Value
import Idealize.ShloMosaic.Lib.Pipeline.FrameSuffix
import Idealize.ShloMosaic.Lib.StableHlo.Run
import Idealize.ShloMosaic.Lib.ValueIdx

set_option maxRecDepth 16384

noncomputable section

namespace Cert.KernelIdeal.Exact

open Cert.KernelIdeal Cert.KernelIdeal.Gen
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ)

/-- The reshape [4096, 1] → [4096] followed by the slice [0 : 4094], read at row `n`: the array's row `n`. -/
theorem out_row (z : S4096x1.Idx → EReal) (n : Fin 4094) :
    extractStridedSlice S4094 ![0] (shapeCast S4096 z shapeCasts_S4096x1_S4096) slices_S4096_S4094_0 (ix1 n)
      = z (ix2 ⟨n.val, by have := n.isLt; omega⟩ 0) := by
  refine (extractStridedSlice_apply _ _ _ (ix1 n) (ix1 ⟨n.val, by have := n.isLt; omega⟩) (fun a => ?_)).trans ?_
  · match a with
    | ⟨0, _⟩ => show n.val = 0 + n.val; omega
  · refine shapeCast_apply _ _ _ (ix2 ⟨n.val, by have := n.isLt; omega⟩ 0) ?_
    rw [Shape.rowMajor_val_two, Shape.rowMajor_val_one]
    show n.val * 1 + 0 = n.val
    omega

/-- The output window's block index at point `t` is `(t / 50, 0)`, decided over the grid. -/
theorem idx4 : ∀ t : Fin cfg0.N, win0_4.index t (0 : Fin 2) = t.val / 50 ∧ win0_4.index t (1 : Fin 2) = 0 :=
  (by decide +kernel : ∀ t : Fin grid0.N, _)

/-- An index of the output array is in point `t`'s block iff each coordinate is in the block's range on its axis. -/
theorem mem_blk4 (t : Fin cfg0.N) (i : S4096x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v11).slice (win0_4.rect t)).set ↔ _
  rw [View.set_slice_whole, Rect.mem_set_unit]
  exact Iff.rfl

/-- What a point left in the output's staging buffer, read at equal points and equal indices. -/
theorem outAt_congr (c : Dev nD) {t t' : Fin cfg0.N} {y y' : S2048x1.Idx} (ht : t.val = t'.val)
    (h0 : (y 0).val = (y' 0).val) : outAt m c t y = outAt m c t' y' := by
  obtain rfl : t = t' := Fin.ext ht
  obtain rfl : y = y' := by
    funext a
    apply Fin.ext
    match a with
    | ⟨0, _⟩ => exact h0
    | ⟨1, _⟩ => have h1 : (y 1).val < 1 := (y 1).isLt; have h2 : (y' 1).val < 1 := (y' 1).isLt; show (y 1).val = (y' 1).val; omega
  rfl

/-- The output array after the region, as one function of the index: row `q` is row `q % 2048` of what the last
    tile (49) of row block `q / 2048` stored. -/
def outArr (c : Dev nD) : S4096x1.Idx → EReal := fun i =>
  outAt m c ⟨((i 0).val / 2048) * 50 + 49, by have := (i 0).isLt; show _ < 100; have : (i 0).val < 4096 := (i 0).isLt; omega⟩
    (ix2 ⟨(i 0).val % 2048, Nat.mod_lt _ (by decide)⟩ 0)

/-- The output array after the region, entry by entry: the write-backs happen at the points `t % 50 = 49`, whose blocks
    (rows `2048 (t / 50) …`) are disjoint and cover the array. -/
theorem arrAt4_apply (c : Dev nD) (dat : Pipeline.Dat τ (Elt Ideal) Unit ℕ (UR sig nD τ) ℕ cfg0 c)
    (hafter : ∀ t : Fin cfg0.N, dat.after 4 t = outAt m c t) (q : Fin 4096) :
    dat.arrAt 4 cfg0.N (ix2 q 0)
      = outAt m c ⟨(q.val / 2048) * 50 + 49, by have := q.isLt; show _ < 100; omega⟩ (ix2 ⟨q.val % 2048, Nat.mod_lt _ (by decide)⟩ 0) := by
  have hq : q.val < 4096 := q.isLt
  have hG : ∀ t, (cfg0.win 4).flush t = true → dat.flushed 4 t = ((cfg0.win 4).blk t).view.read (Elt Ideal) (outArr m c) := by
    intro t hf
    have h49 : t.val % 50 = 49 := (flush0_4 t).mp hf
    have htlt : t.val < 100 := t.isLt
    obtain ⟨e0, e1⟩ := idx4 t
    show (cfg0.win 4).cut (grid0.coords t) (dat.after 4 t) = _
    rw [hafter]
    funext y
    have hy0 : (y 0).val < 2048 := (y 0).isLt
    have hemb : ((((cfg0.win 4).blk t).view.emb y) 0).val = win0_4.index t (0 : Fin 2) * 2048 + 1 * (y 0).val := rfl
    show outAt m c t y = outArr m c (((cfg0.win 4).blk t).view.emb y)
    unfold outArr
    refine outAt_congr m c ?_ ?_
    · show t.val = ((((cfg0.win 4).blk t).view.emb y) 0).val / 2048 * 50 + 49
      rw [hemb, e0]; omega
    · show (y 0).val = ((((cfg0.win 4).blk t).view.emb y) 0).val % 2048
      rw [hemb, e0]; omega
  have ht : (q.val / 2048) * 50 + 49 < cfg0.N := by show _ < 100; omega
  have hf : (cfg0.win 4).flush ⟨(q.val / 2048) * 50 + 49, ht⟩ = true := (flush0_4 _).mpr (by show ((q.val / 2048) * 50 + 49) % 50 = 49; omega)
  refine (dat.arrAt_apply_of_mem 4 (outArr m c) hG cfg0.N ⟨(q.val / 2048) * 50 + 49, ht⟩ (ix2 q 0) ht hf ?_).trans rfl
  rw [mem_blk4]
  obtain ⟨e0, e1⟩ := idx4 ⟨(q.val / 2048) * 50 + 49, ht⟩
  intro a
  match a with
  | ⟨0, _⟩ =>
    show win0_4.index ⟨(q.val / 2048) * 50 + 49, ht⟩ (0 : Fin 2) * 2048 ≤ q.val ∧ q.val < win0_4.index ⟨(q.val / 2048) * 50 + 49, ht⟩ (0 : Fin 2) * 2048 + 2048
    rw [e0]; show ((q.val / 2048) * 50 + 49) / 50 * 2048 ≤ q.val ∧ q.val < ((q.val / 2048) * 50 + 49) / 50 * 2048 + 2048
    omega
  | ⟨1, _⟩ =>
    show win0_4.index ⟨(q.val / 2048) * 50 + 49, ht⟩ (1 : Fin 2) * 1 ≤ 0 ∧ 0 < win0_4.index ⟨(q.val / 2048) * 50 + 49, ht⟩ (1 : Fin 2) * 1 + 1
    rw [e1]; omega

/-- The program's result: the loss's last operations applied to the row mask (untouched by the region) and to rows
    `0 … 4093` of the output array as the region leaves it. -/
theorem tail_eq (dats : (p : Fin 1) → (c : Dev nD) → Pipeline.Dat τ (Elt Ideal) Unit ℕ (UR sig nD τ) ℕ (cfgs p) c) (c : Dev nD) :
    Pipeline.afterTail₀ cfgs dats 0 (Gen.V0 m) [hostOps1, hostOps1_1, hostOps1_2] c main_v28
      = Cert.Proof.Tail.tail (Gen.V m c main_v5)
          (extractStridedSlice S4094 ![0] (shapeCast S4096 ((dats 0 c).arrAt 4 cfg0.N) shapeCasts_S4096x1_S4096) slices_S4096_S4094_0) := by
  have h5 : Pipeline.withArrays (cfgs 0).spec c (V0 m c) (fun w => (dats 0 c).arrAt w (cfgs 0).N) (Proc.devRef .tc main_v5)
      = V m c main_v5 :=
    Pipeline.withArrays_of_ne _ c (V0 m c) _ main_v5 (by exact (by decide : ∀ w, Pipeline.arrRef spec0 w ≠ main_v5))
  have h11 : Pipeline.withArrays (cfgs 0).spec c (V0 m c) (fun w => (dats 0 c).arrAt w (cfgs 0).N) (Proc.devRef .tc main_v11)
      = (dats 0 c).arrAt 4 cfg0.N :=
    Pipeline.withArrays_arr spec0 launch0.win.arr_inj c _ _ 4
  unfold Pipeline.afterTail₀
  simp only [Gen.hostOps1, Gen.hostOps1_1, Gen.hostOps1_2, List.flatten_cons, List.flatten_nil, List.append_nil, List.cons_append, List.nil_append]
  show StableHlo.after _ _ (Proc.devRef .tc main_v28) = _
  after_results_simp
  rw [h5, h11]
  rfl

end Cert.KernelIdeal.Exact

end
-- ==== Proof.IdealFold.lean ====
/-
  The kernel's carried numbers, row by row, are the specification's tiled fold.

  Row `p` of row block `r` is row `q = r · 2048 + p` of the padded problem; for `q < 4094` it is a row of the shifted
  problem, its embeddings `emb[q / 2047, q % 2047, ·]` and its label `labels[q / 2047, q % 2047 + 1]`. At point
  `r · 50 + j` the tile the body sees for that row (`tileOf`) is tile `j` of the row's logits — the products with the
  tile's rows of `W` plus the bias inside the vocabulary, `-∞` past its end — and the label's test against the column
  index is the specification's `hit`. By induction on the tile, the three carried entries of the row after `j` tiles
  are `accUpTo` of the row's logits and label at `j`; after tile 49 the stored output is `Acc.out` of the fold at 50.
-/
import proofs.«423894_j137438953739_3_alg».proof.Proof.IdealStep
import proofs.«423894_j137438953739_3_alg».proof.Proof.IdealBlocks

noncomputable section

namespace Cert.KernelIdeal.Exact

open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (c : Dev nD)

/-- The logits of row `n` of the shifted problem, from the launch contents of the three float arguments. -/
abbrev rowLogit (n : Fin 4094) : Fin 50257 → EReal :=
  Cert.Spec.logit (m ((c.tc : Thread nD τ).loc main_arg0)) (m ((c.tc : Thread nD τ).loc main_arg1))
    (m ((c.tc : Thread nD τ).loc main_arg2)) n
/-- Its label word. -/
abbrev rowLabel (n : Fin 4094) : BitVec 32 := Cert.Spec.label (m ((c.tc : Thread nD τ).loc main_arg3)) n

/-- The tile the body sees for a real row at point `t` is tile `t % 50` of the row's logits. -/
theorem tileOf_eq (t : Fin cfg0.N) (p : Fin 2048) (hq : (t.val / 50) * 2048 + p.val < 4094) :
    tileOf (grid0.coords t) (xblk m c t) (wblk m c t) (bblk m c t) p
      = Cert.Spec.tile (rowLogit m c ⟨(t.val / 50) * 2048 + p.val, hq⟩) (t.val % 50) := by
  funext k
  unfold tileOf Cert.Spec.tile
  rw [coords_vt]
  by_cases h : (t.val % 50) * 1024 + k.val < 50257
  · rw [if_pos h, dif_pos h]
    unfold rowLogit Cert.Spec.logit
    congr 1
    · refine Finset.sum_congr rfl fun d _ => ?_
      rw [xblk_apply m c t p d, V_v7_apply m c _ d, dif_pos hq]
      unfold wblk
      rw [fill1_apply m c t _ k d h, Gen.V_main_arg1 m c]
    · unfold bblk
      rw [fill2_apply m c t _ k h, V_v10_apply m c _]
  · rw [if_neg h, dif_neg h]

/-- The label's test against the column index at point `t` is the specification's `hit` at tile `t % 50`. -/
theorem sel_eq (t : Fin cfg0.N) (p : Fin 2048) (hq : (t.val / 50) * 2048 + p.val < 4094) :
    (fun k : Fin 1024 => lblk m c t (ix2 p 0) == BitVec.ofNat 32 ((grid0.coords t 1).val * 1024 + k.val))
      = Cert.Spec.hit (rowLabel m c ⟨(t.val / 50) * 2048 + p.val, hq⟩) (t.val % 50) := by
  funext k
  unfold Cert.Spec.hit rowLabel
  rw [coords_vt, lblk_apply m c t p, V_v9_apply m c _, dif_pos hq]

/-- One point of the recursion, unfolded. -/
theorem scrAfter_unfold (n : Nat) (h : n < cfg0.N) :
    scrAfter m c (n + 1)
      = step (grid0.coords ⟨n, h⟩) (xblk m c ⟨n, h⟩) (wblk m c ⟨n, h⟩) (bblk m c ⟨n, h⟩) (lblk m c ⟨n, h⟩)
          (if n % 50 = 0 then reset else scrAfter m c n) := by
  rw [scrAfter, dif_pos h]

/-- One tile at point `t`, read at row `p` of its row block: the specification's step on row `n`'s tile `vt`. -/
theorem acc_step_point (t : Fin cfg0.N) (p : Fin 2048) (n : Fin 4094) (hn : n.val = (t.val / 50) * 2048 + p.val)
    (vt : Nat) (hvt : t.val % 50 = vt) (s : Scr) :
    accOf (step (grid0.coords t) (xblk m c t) (wblk m c t) (bblk m c t) (lblk m c t) s) p
      = (accOf s p).step (Cert.Spec.tile (rowLogit m c n) vt) (Cert.Spec.hit (rowLabel m c n) vt) := by
  subst hvt
  have hq : (t.val / 50) * 2048 + p.val < 4094 := hn ▸ n.isLt
  have e : n = ⟨(t.val / 50) * 2048 + p.val, hq⟩ := Fin.ext hn
  subst e
  rw [step_acc, tileOf_eq m c t p hq, sel_eq m c t p hq]

/-- After `j + 1` tiles of row block `r`, a real row's carried entries are the fold of its logits and label. -/
theorem acc_scrAfter (r : Fin 2) (p : Fin 2048) (hq : r.val * 2048 + p.val < 4094) :
    ∀ j : Nat, j < 50 →
      accOf (scrAfter m c (r.val * 50 + j + 1)) p
        = Cert.Spec.accUpTo (rowLogit m c ⟨r.val * 2048 + p.val, hq⟩) (rowLabel m c ⟨r.val * 2048 + p.val, hq⟩) (j + 1) := by
  intro j
  induction j with
  | zero =>
    intro _
    have hr := r.isLt
    have hN : r.val * 50 + 0 < cfg0.N := by show _ < 100; omega
    rw [scrAfter_unfold m c (r.val * 50 + 0) hN,
      acc_step_point m c ⟨r.val * 50 + 0, hN⟩ p ⟨r.val * 2048 + p.val, hq⟩
        (by show r.val * 2048 + p.val = (r.val * 50 + 0) / 50 * 2048 + p.val; omega) 0
        (by show (r.val * 50 + 0) % 50 = 0; omega),
      if_pos (by omega : (r.val * 50 + 0) % 50 = 0), reset_acc]
    rfl
  | succ j ih =>
    intro hj
    have hr := r.isLt
    have hN : r.val * 50 + (j + 1) < cfg0.N := by show _ < 100; omega
    rw [show r.val * 50 + (j + 1) + 1 = (r.val * 50 + (j + 1)) + 1 from rfl,
      scrAfter_unfold m c (r.val * 50 + (j + 1)) hN,
      acc_step_point m c ⟨r.val * 50 + (j + 1), hN⟩ p ⟨r.val * 2048 + p.val, hq⟩
        (by show r.val * 2048 + p.val = (r.val * 50 + (j + 1)) / 50 * 2048 + p.val; omega) (j + 1)
        (by show (r.val * 50 + (j + 1)) % 50 = j + 1; omega),
      if_neg (by omega : ¬ (r.val * 50 + (j + 1)) % 50 = 0),
      show r.val * 50 + (j + 1) = r.val * 50 + j + 1 from rfl, ih (by omega)]
    rfl

/-- What tile 49 of row block `r` stores for a real row: the fold's output at fifty tiles. -/
theorem outAt_row (r : Fin 2) (p : Fin 2048) (hq : r.val * 2048 + p.val < 4094) :
    outAt m c ⟨r.val * 50 + 49, by have := r.isLt; show _ < 100; omega⟩ (ix2 p 0)
      = (Cert.Spec.accUpTo (rowLogit m c ⟨r.val * 2048 + p.val, hq⟩) (rowLabel m c ⟨r.val * 2048 + p.val, hq⟩) 50).out := by
  unfold outAt
  rw [pay4_acc]
  exact congrArg Cert.Spec.Acc.out (acc_scrAfter m c r p hq 49 (by omega))

end Cert.KernelIdeal.Exact

end
-- ==== Proof.RefValue.lean ====
/-
  The reference program's value, read down to the pure specification.

  The program's result is the last fifteen operations (the masked focal mean) applied to two functions of the
  arguments: the row mask validOf (label ≠ -100) and the per-row value zOf (minus the entry of the row's
  log-softmax that the label selects). This module reads the mask at a row as a test on the row's label word, and the
  per-row value, on a row labelled with a vocabulary entry k, as the cross entropy of the row's logits at k:
  the label is then not -100, not negative and inside [0, 50256], so every select on the way keeps the label
  and the gathered element; the maximum-reduce from minus infinity followed by the maximum with minus infinity is
  the row maximum; the host sum from 0 is the sum of the exponentials; row n of the flattened arrays is position
  n % 2047 of sequence n / 2047.
-/
import proofs.«423894_j137438953739_3_alg».proof.Proof.RefRead
import proofs.«423894_j137438953739_3_alg».proof.Proof.Tail
import proofs.«423894_j137438953739_3_alg».proof.Proof.Spec
import Idealize.ShloMosaic.Lib.ValueIdx
import Idealize.ShloMosaic.Lib.StableHlo.Predicate
import Idealize.ShloMosaic.PureOps.Ideal.Laws
import Idealize.ShloMosaic.PureOps.Reduce

noncomputable section

namespace Cert.Proof.RefValue

open Cert.ReferenceIdeal Cert.ReferenceIdeal.Facts₀ Cert.ReferenceIdeal.ReadP
open Idealize.ShloMosaic Idealize.ShloMosaic.ValueIdx
open Cert.Spec (rowB rowS rowS1 logit label rowMax ce)

/-! ## The two functions of the arguments -/

/-- The row mask: bit 1 on the rows whose label is not -100. -/
def validOf (labels : IVec S2x2048 32) : IVec S4094 1 := val_main_v9 (F := Ideal) labels

/-- The per-row value before masking: minus the gathered entry of the shifted log-softmax. -/
def zOf (emb : FVec Ideal S2x2048x1024 .f32) (W : FVec Ideal S50257x1024 .f32) (bias : FVec Ideal S50257 .f32)
    (labels : IVec S2x2048 32) : FVec Ideal S4094 .f32 :=
  val_main_v15 (F := Ideal) emb W bias labels

/-- The loss as the composition of the program's last fifteen operations after the mask and the per-row value. -/
theorem val_eq_tail (emb : FVec Ideal S2x2048x1024 .f32) (W : FVec Ideal S50257x1024 .f32) (bias : FVec Ideal S50257 .f32)
    (labels : IVec S2x2048 32) :
    val_main_v30 (F := Ideal) emb W bias labels = Cert.Proof.Tail.tail (validOf labels) (zOf emb W bias labels) := rfl

/-! ## Reads of the three stages that depend on more than one element -/

/-- The f32 pattern of minus infinity is the bottom element. -/
theorem ofBits_neg_inf : Ideal.ofBits .f32 0xFF800000#32 = ⊥ := by simp [Ideal.ofBits, Ideal.ieee]

/-- A take-along-the-last-axis gather at row n: the row's entry at the start index, read signed and clamped. -/
theorem gather_row_apply {α : Type} (x : S4094x50257.Idx → α) (idx : IVec S4094x1x1 32) (n : Fin 4094) :
    Host.gather gather_S4094x50257_S4094x1x1_S4094x1_n_1_0_0_1_2_11 x idx (ix2 n (0 : Fin 1))
      = x (ix2 n ⟨min (idx (ix3 n (0 : Fin 1) (0 : Fin 1))).toInt.toNat 50256, by omega⟩) := by
  unfold Host.gather
  congr 1
  funext a
  refine Fin.ext ?_
  match a with
  | ⟨0, _⟩ =>
    show gather_S4094x50257_S4094x1x1_S4094x1_n_1_0_0_1_2_11.start (ix2 n (0 : Fin 1)) idx 0
        + gather_S4094x50257_S4094x1x1_S4094x1_n_1_0_0_1_2_11.batchCoord (ix2 n (0 : Fin 1)) 0
        + gather_S4094x50257_S4094x1x1_S4094x1_n_1_0_0_1_2_11.offCoord (ix2 n (0 : Fin 1)) 0 = n.val
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    rfl
  | ⟨1, _⟩ =>
    show gather_S4094x50257_S4094x1x1_S4094x1_n_1_0_0_1_2_11.start (ix2 n (0 : Fin 1)) idx 1
        + gather_S4094x50257_S4094x1x1_S4094x1_n_1_0_0_1_2_11.batchCoord (ix2 n (0 : Fin 1)) 1
        + gather_S4094x50257_S4094x1x1_S4094x1_n_1_0_0_1_2_11.offCoord (ix2 n (0 : Fin 1)) 1 = _
    rw [GatherDims.batchCoord_eq_zero _ _ _ (by decide),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S4094x50257_S4094x1x1_S4094x1_n_1_0_0_1_2_11.startIndexMap from
      List.mem_singleton.mpr rfl)]
    have hsi : gather_S4094x50257_S4094x1x1_S4094x1_n_1_0_0_1_2_11.siIdx (ix2 n (0 : Fin 1))
        ⟨List.idxOf (1 : Fin 2) gather_S4094x50257_S4094x1x1_S4094x1_n_1_0_0_1_2_11.startIndexMap,
          List.idxOf_lt_length_iff.2 (List.mem_singleton.mpr rfl)⟩ = ix3 n (0 : Fin 1) (0 : Fin 1) := by
      funext b; refine Fin.ext ?_
      match b with
      | ⟨0, _⟩ => rfl
      | ⟨1, _⟩ => rfl
      | ⟨2, _⟩ => rfl
    rw [hsi]
    rfl

/-- The maximum-reduce over the vocabulary axis from minus infinity, at row n: the fold of max from bottom. -/
theorem rowmax_read (x : FVec Ideal S4094x50257 .f32) (n : Fin 4094) :
    Host.reduce FloatOps.maximumf x (constant (F := Ideal) S_ .f32 0xFF800000#32) reducesTo_S4094x50257_S4094_d1 h_S_ (ix1 n)
      = (Finset.univ : Finset (Fin 50257)).fold max ⊥ (fun j => x (ix2 n j)) := by
  have hR : S4094x50257.Reduces [1] S4094 := by decide
  rw [Host.reduce_eq_fold_single FloatOps.maximumf x _ reducesTo_S4094x50257_S4094_d1 hR h_S_ (ix1 n)]
  show (Finset.univ : Finset (Fin 50257)).fold max (Ideal.ofBits .f32 0xFF800000#32) (x ∘ hR.lift (ix1 n)) = _
  rw [ofBits_neg_inf]
  refine congrArg (fun f => (Finset.univ : Finset (Fin 50257)).fold max ⊥ f) (funext fun j => ?_)
  exact congrArg x (funext fun a => Fin.ext (by match a with | ⟨0, _⟩ => rfl | ⟨1, _⟩ => rfl))

/-- A fold over the one-element index set is one application. -/
theorem fold_fin_one {α : Type} (op : α → α → α) [Std.Commutative op] [Std.Associative op] (b : α) (f : Fin 1 → α) :
    (Finset.univ : Finset (Fin 1)).fold op b f = op (f 0) b := by
  rw [Finset.univ_unique, Finset.fold_singleton]; rfl

/-- The and-reduce over a unit axis from 1: the one element it folds. -/
theorem and_unit_read (x : IVec S4094x1x1 1) (n : Fin 4094) :
    Host.reduce IntOp.andi x (constantI S_ 1 1#1) reducesTo_S4094x1x1_S4094x1_d2 h_S_ (ix2 n (0 : Fin 1))
      = x (ix3 n (0 : Fin 1) (0 : Fin 1)) := by
  have hR : S4094x1x1.Reduces [2] S4094x1 := by decide
  rw [Host.reduce_eq_fold_single IntOp.andi x _ reducesTo_S4094x1x1_S4094x1_d2 hR h_S_ (ix2 n (0 : Fin 1))]
  refine (fold_fin_one IntOp.andi 1#1 (x ∘ hR.lift (ix2 n (0 : Fin 1)))).trans ?_
  have e : hR.lift (ix2 n (0 : Fin 1)) (0 : Fin 1) = ix3 n (0 : Fin 1) (0 : Fin 1) :=
    funext fun a => Fin.ext (by match a with | ⟨0, _⟩ => rfl | ⟨1, _⟩ => rfl | ⟨2, _⟩ => rfl)
  show IntOp.andi (x (hR.lift (ix2 n (0 : Fin 1)) (0 : Fin 1))) 1#1 = _
  rw [e]
  rcases BitVec.eq_zero_or_eq_one (x (ix3 n (0 : Fin 1) (0 : Fin 1))) with h | h <;> rw [h] <;> rfl

/-! ## The label side -/

/-- The shifted labels at row n: the row's label word. -/
theorem label_read (labels : IVec S2x2048 32) (n : Fin 4094) :
    val_main_v7 (F := Ideal) labels (ix1 n) = label labels n := by
  rw [val_main_v7_apply, val_main_v6_apply]
  exact congrArg labels (funext fun a => Fin.ext (by
    match a with
    | ⟨0, _⟩ => rfl
    | ⟨1, _⟩ => show 1 + n.val % 2047 = n.val % 2047 + 1; omega))

/-- The mask bit of row n: 0 when the label is -100, else 1. -/
theorem validOf_apply (labels : IVec S2x2048 32) (n : Fin 4094) :
    validOf labels (ix1 n) = if label labels n = 4294967196#32 then 0#1 else 1#1 := by
  unfold validOf
  rw [val_main_v9_apply, label_read, val_main_v8_apply, val_main_c_apply]
  by_cases h : label labels n = 4294967196#32
  · rw [if_pos h, h]; rfl
  · rw [if_neg h]; exact IntOp.cmpi_ne.mpr h

/-- The mask bit of row n is set exactly when the label is not -100. -/
theorem validOf_eq_one_iff (labels : IVec S2x2048 32) (n : Fin 4094) :
    validOf labels (ix1 n) = 1#1 ↔ label labels n ≠ 4294967196#32 := by
  rw [validOf_apply]
  by_cases h : label labels n = 4294967196#32
  · rw [if_pos h]; exact ⟨fun e => absurd e (by decide), fun e => absurd h e⟩
  · rw [if_neg h]; exact ⟨fun _ => h, fun _ => rfl⟩

/-- A vocabulary entry, as a 32-bit word, has its own value. -/
theorem toNat_vocab (k : Fin 50257) : (BitVec.ofNat 32 k.val).toNat = k.val := by
  rw [BitVec.toNat_ofNat]; exact Nat.mod_eq_of_lt (by have := k.isLt; omega)

/-- It is not negative as a signed word. -/
theorem toInt_vocab (k : Fin 50257) : (BitVec.ofNat 32 k.val).toInt = (k.val : Int) := by
  rw [StableHlo.Predicate.toInt_eq_toNat_of_lt (by rw [toNat_vocab]; have := k.isLt; omega), toNat_vocab]

/-- It is not the ignore word -100. -/
theorem vocab_ne_ignore (k : Fin 50257) : BitVec.ofNat 32 k.val ≠ 4294967196#32 := by
  intro h
  have e := congrArg BitVec.toNat h
  rw [toNat_vocab] at e
  have hk := k.isLt
  have : (4294967196#32 : BitVec 32).toNat = 4294967196 := by decide
  omega

/-- On a row labelled with a vocabulary entry the safe label is the label. -/
theorem safe_read (labels : IVec S2x2048 32) (n : Fin 4094) (k : Fin 50257) (hk : label labels n = BitVec.ofNat 32 k.val) :
    val_main_v10 (F := Ideal) labels (ix1 n) = BitVec.ofNat 32 k.val := by
  have hv : val_main_v9 (F := Ideal) labels (ix1 n) = 1#1 := by
    have h := validOf_apply labels n
    rw [hk, if_neg (vocab_ne_ignore k)] at h
    exact h
  rw [val_main_v10_apply, hv, select_one, label_read, hk]

/-- … and the gather's start index, after the wrap of negative indices, is still the label. -/
theorem index_read (labels : IVec S2x2048 32) (n : Fin 4094) (k : Fin 50257) (hk : label labels n = BitVec.ofNat 32 k.val) :
    val_main_call2_v5 (F := Ideal) labels (ix3 n (0 : Fin 1) (0 : Fin 1)) = BitVec.ofNat 32 k.val := by
  have e5 : idx_main_call2_v5 (ix3 n (0 : Fin 1) (0 : Fin 1)) = ix2 n (0 : Fin 1) :=
    funext fun a => Fin.ext (by
      match a with
      | ⟨0, _⟩ => show ((n.val * 1 + 0) * 1 + 0) / 1 = n.val; omega
      | ⟨1, _⟩ => rfl)
  have e12 : idx_main_v12 (ix2 n (0 : Fin 1)) = ix1 n := funext fun a => by match a with | ⟨0, _⟩ => rfl
  have h12 : val_main_v12 (F := Ideal) labels (ix2 n (0 : Fin 1)) = BitVec.ofNat 32 k.val := by
    rw [val_main_v12_apply, e12, safe_read labels n k hk]
  have hlt : IntOp.cmpi .slt (BitVec.ofNat 32 k.val) 0#32 = 0#1 := by
    refine eq_zero_of_ne_one fun h => ?_
    have h' := IntOp.cmpi_slt.mp h
    rw [toInt_vocab, show (0#32 : BitVec 32).toInt = 0 from by decide] at h'
    omega
  rw [val_main_call2_v5_apply, e5, val_main_call2_v4_apply, val_main_call2_v1_apply, h12, val_main_call2_v0_apply,
    val_main_call2_c_apply, hlt, select_zero]

/-- … it lies in [0, 50256], so the in-bounds mask of the row is set. -/
theorem inb_read (labels : IVec S2x2048 32) (n : Fin 4094) (k : Fin 50257) (hk : label labels n = BitVec.ofNat 32 k.val) :
    val_main_call2_v12 (F := Ideal) labels (ix2 n (0 : Fin 1)) = 1#1 := by
  show Host.reduce IntOp.andi (val_main_call2_v11 (F := Ideal) labels) (constantI S_ 1 1#1) reducesTo_S4094x1x1_S4094x1_d2 h_S_
      (ix2 n (0 : Fin 1)) = 1#1
  rw [and_unit_read, val_main_call2_v11_apply, val_main_call2_v7_apply, val_main_call2_v10_apply, index_read labels n k hk,
    val_main_call2_v6_apply, val_main_call2_c_2_apply, val_main_call2_v9_apply, val_main_call2_v8_apply, val_main_call2_c_1_apply]
  have hk' := k.isLt
  refine IntOp.andi_eq_one.mpr ⟨IntOp.cmpi_sge.mpr ?_, IntOp.cmpi_sle.mpr ?_⟩
  · rw [toInt_vocab, show (0#32 : BitVec 32).toInt = 0 from by decide]; omega
  · rw [toInt_vocab, show (50256#32 : BitVec 32).toInt = 50256 from by decide]; omega

/-! ## The logits side -/

/-- Row n of the sliced and flattened logits is position n % 2047 of sequence n / 2047. -/
theorem row_index (n : Fin 4094) (j : Fin 50257) :
    idx_main_v4 (idx_main_v5 (ix2 n j)) = ix3 (rowB n) (rowS n) j :=
  funext fun a => Fin.ext (by
    have hn := n.isLt; have hj := j.isLt
    match a with
    | ⟨0, _⟩ => show (n.val * 50257 + j.val) / 102876079 = n.val / 2047; omega
    | ⟨1, _⟩ => show (n.val * 50257 + j.val) / 50257 % 2047 = n.val % 2047; omega
    | ⟨2, _⟩ => show (n.val * 50257 + j.val) % 50257 = j.val; omega)

/-- The flattened logits at (n, j): the contraction over the model axis plus the bias. -/
theorem logits_read (emb : FVec Ideal S2x2048x1024 .f32) (W : FVec Ideal S50257x1024 .f32) (bias : FVec Ideal S50257 .f32)
    (n : Fin 4094) (j : Fin 50257) :
    val_main_v5 (F := Ideal) emb W bias (ix2 n j) = logit emb W bias n j := by
  rw [val_main_v5_apply, val_main_v4_apply, row_index, val_main_v3_apply, val_main_v0_apply, val_main_v2_apply, val_main_v1_apply]
  have el : ∀ d : Fin 1024, lidx_main_v0 (ix3 (rowB n) (rowS n) j) d = ix3 (rowB n) (rowS n) d := fun d =>
    funext fun a => by match a with | ⟨0, _⟩ => rfl | ⟨1, _⟩ => rfl | ⟨2, _⟩ => rfl
  have er : ∀ d : Fin 1024, ridx_main_v0 (ix3 (rowB n) (rowS n) j) d = ix2 j d := fun d =>
    funext fun a => by match a with | ⟨0, _⟩ => rfl | ⟨1, _⟩ => rfl
  have eb : idx_main_v1 (idx_main_v2 (ix3 (rowB n) (rowS n) j)) = ix1 j :=
    funext fun a => by match a with | ⟨0, _⟩ => rfl
  rw [eb]
  unfold logit
  refine congrArg (· + bias (ix1 j)) (Finset.sum_congr rfl fun d _ => ?_)
  rw [el d, er d]

/-- The row maximum the log-softmax subtracts: the fold of max from bottom over the row's logits. -/
theorem max_read (emb : FVec Ideal S2x2048x1024 .f32) (W : FVec Ideal S50257x1024 .f32) (bias : FVec Ideal S50257 .f32)
    (n : Fin 4094) :
    val_main_call1_v2 (F := Ideal) emb W bias (ix1 n) = rowMax (logit emb W bias n) := by
  rw [val_main_call1_v2_apply, val_main_call1_v1_apply, val_main_call1_cst_0_apply]
  show max (Ideal.ofBits .f32 0xFF800000#32)
      (Host.reduce FloatOps.maximumf (val_main_v5 (F := Ideal) emb W bias) (constant (F := Ideal) S_ .f32 0xFF800000#32)
        reducesTo_S4094x50257_S4094_d1 h_S_ (ix1 n)) = _
  rw [rowmax_read, ofBits_neg_inf, max_eq_right bot_le]
  unfold rowMax
  exact congrArg (fun f => (Finset.univ : Finset (Fin 50257)).fold max ⊥ f) (funext fun j => logits_read emb W bias n j)

/-- The shifted logits at (n, j). -/
theorem shifted_read (emb : FVec Ideal S2x2048x1024 .f32) (W : FVec Ideal S50257x1024 .f32) (bias : FVec Ideal S50257 .f32)
    (n : Fin 4094) (j : Fin 50257) :
    val_main_call1_v5 (F := Ideal) emb W bias (ix2 n j) = logit emb W bias n j - rowMax (logit emb W bias n) := by
  have e : idx_main_call1_v3 (idx_main_call1_v4 (ix2 n j)) = ix1 n := funext fun a => by match a with | ⟨0, _⟩ => rfl
  rw [val_main_call1_v5_apply, logits_read, val_main_call1_v4_apply, val_main_call1_v3_apply, e, max_read]
  rfl

/-- The logarithm of the row's sum of exponentials of the shifted logits, broadcast along the row. -/
theorem lse_read (emb : FVec Ideal S2x2048x1024 .f32) (W : FVec Ideal S50257x1024 .f32) (bias : FVec Ideal S50257 .f32)
    (n : Fin 4094) (j : Fin 50257) :
    val_main_call1_v10 (F := Ideal) emb W bias (ix2 n j)
      = Ideal.log (∑ j' : Fin 50257, Ideal.exp (logit emb W bias n j' - rowMax (logit emb W bias n))) := by
  have e : idx_main_call1_v8 (idx_main_call1_v10 (ix2 n j)) = ix1 n := funext fun a => by match a with | ⟨0, _⟩ => rfl
  rw [val_main_call1_v10_apply, val_main_call1_v9_apply, val_main_call1_v8_apply, e, val_main_call1_v7_apply,
    val_main_call1_cst_1_apply]
  rw [Ideal.hostUnary_log_def, Ideal.ofBits_def, Ideal.ofBits_zero_f32, zero_add]
  refine congrArg Ideal.log (Finset.sum_congr rfl fun k _ => ?_)
  have ek : idx_main_call1_v7 (ix1 n) k = ix2 n k := funext fun a => by match a with | ⟨0, _⟩ => rfl | ⟨1, _⟩ => rfl
  rw [ek, val_main_call1_v6_apply, shifted_read]
  rfl

/-- The log-softmax at (n, j). -/
theorem logp_read (emb : FVec Ideal S2x2048x1024 .f32) (W : FVec Ideal S50257x1024 .f32) (bias : FVec Ideal S50257 .f32)
    (n : Fin 4094) (j : Fin 50257) :
    val_main_v11 (F := Ideal) emb W bias (ix2 n j)
      = (logit emb W bias n j - rowMax (logit emb W bias n))
        - Ideal.log (∑ j' : Fin 50257, Ideal.exp (logit emb W bias n j' - rowMax (logit emb W bias n))) := by
  rw [val_main_v11_apply, shifted_read, lse_read]
  rfl

/-! ## The per-row value on a row labelled with a vocabulary entry -/

/-- On a row whose label is the vocabulary entry k, the per-row value is the cross entropy of the row's logits at k. -/
theorem zOf_apply (emb : FVec Ideal S2x2048x1024 .f32) (W : FVec Ideal S50257x1024 .f32) (bias : FVec Ideal S50257 .f32)
    (labels : IVec S2x2048 32) (n : Fin 4094) (k : Fin 50257) (hk : label labels n = BitVec.ofNat 32 k.val) :
    zOf emb W bias labels (ix1 n) = ce (logit emb W bias n) k := by
  have e14 : idx_main_v14 (ix1 n) = ix2 n (0 : Fin 1) :=
    funext fun a => Fin.ext (by
      match a with
      | ⟨0, _⟩ => show n.val / 1 = n.val; omega
      | ⟨1, _⟩ => rfl)
  have hg : val_main_call2_v13 (F := Ideal) emb W bias labels (ix2 n (0 : Fin 1))
      = val_main_v11 (F := Ideal) emb W bias (ix2 n k) := by
    show Host.gather gather_S4094x50257_S4094x1x1_S4094x1_n_1_0_0_1_2_11 (val_main_v11 (F := Ideal) emb W bias)
        (val_main_call2_v5 (F := Ideal) labels) (ix2 n (0 : Fin 1)) = _
    rw [gather_row_apply]
    refine congrArg (fun c : Fin 50257 => val_main_v11 (F := Ideal) emb W bias (ix2 n c)) (Fin.ext ?_)
    show min (val_main_call2_v5 (F := Ideal) labels (ix3 n (0 : Fin 1) (0 : Fin 1))).toInt.toNat 50256 = k.val
    rw [index_read labels n k hk, toInt_vocab]
    have := k.isLt
    omega
  unfold zOf
  rw [val_main_v15_apply, val_main_v14_apply, e14, val_main_v13_apply, inb_read labels n k hk, select_one, hg, logp_read]
  rfl

end Cert.Proof.RefValue

end
-- ==== Proof.PreFacts.lean ====
/-
  The precondition `finite_inputs`, read back at the ideal instance. The printed predicate is the conjunction of
  three `jnp.all(|x| < +inf)` over the float inputs and of `jnp.all(((ls ≥ 0) ∧ (ls < 50257)) ∨ (ls = -100))` over
  the shifted labels `ls = labels[:, 1:]`. Each `jnp.all` is a reduction by `and` over all axes, so its being 1 gives
  the element predicate at every index; an extended real whose absolute value is below `+∞` is a real; a signed word
  compare that is 1 is the order of the integers the words denote.
-/
import proofs.«423894_j137438953739_3_alg».proof.Pre_finite_inputs
import proofs.«423894_j137438953739_3_alg».proof.Proof.Gen.Pre_finite_inputs
import Idealize.ShloMosaic.PureOps.Ideal
import Idealize.ShloMosaic.Lib.ReduceAll
import Idealize.ShloMosaic.Lib.StableHlo.Predicate

noncomputable section

namespace Cert.Proof.PreFacts

open Idealize.ShloMosaic Cert.Pre_finite_inputs

attribute [local instance] Cert.Pre_finite_inputs.Gen.facts

/-- The rank-0 shape has one index. -/
instance subsingleton_S_ : Subsingleton S_.Idx := ⟨fun a b => funext fun d => d.elim0⟩

/-- The f32 pattern `0x7F800000` (sign 0, exponent all ones, fraction 0) denotes `+∞`. -/
theorem inf_bits : Ideal.ofBits .f32 0x7F800000#32 = (⊤ : EReal) := by
  simp [Ideal.ofBits, Ideal.ieee]

/-- An extended real with `max x (-x) < ⊤` is neither infinity: it is a real. -/
theorem real_of_abs_lt_top (x : EReal) (h : Ideal.cmp .olt (max x (-x)) ⊤ = 1#1) : ∃ r : ℝ, x = ((r : ℝ) : EReal) := by
  induction x using EReal.rec with
  | bot => simp [Ideal.cmp] at h
  | coe r => exact ⟨r, rfl⟩
  | top => simp [Ideal.cmp] at h

/-- The element predicate `|x| < +inf` of the printed program, at one element, gives a real. -/
theorem real_of_elt (x : EReal)
    (h : FloatOps.cmpf (F := Ideal) (φ := .f32) .olt (FloatOps.hostAbsf (F := Ideal) (φ := .f32) x)
      (FloatOps.ofBits (F := Ideal) .f32 0x7F800000#32) = 1#1) : ∃ r : ℝ, x = ((r : ℝ) : EReal) := by
  refine real_of_abs_lt_top x ?_
  rw [← inf_bits]
  exact h

/-- The element predicate `((x ≥ 0) ∧ (x < 50257)) ∨ (x = -100)` on signed 32-bit words, read as integers. -/
theorem label_of_elt (x : BitVec 32)
    (h : IntOp.ori (IntOp.andi (IntOp.cmpi .sge x 0#32) (IntOp.cmpi .slt x 50257#32)) (IntOp.cmpi .eq x 4294967196#32) = 1#1) :
    (0 ≤ x.toInt ∧ x.toInt < 50257) ∨ x = 4294967196#32 := by
  rw [IntOp.ori_eq_one, IntOp.andi_eq_one, IntOp.cmpi_sge, IntOp.cmpi_slt, IntOp.cmpi_eq] at h
  have h0 : (0#32 : BitVec 32).toInt = 0 := by decide
  have h1 : (50257#32 : BitVec 32).toInt = 50257 := by decide
  rw [h0, h1] at h
  exact h

/-- A word that reads as a nonnegative integer below `n` reads the same unsigned. -/
theorem toNat_of_toInt_range (x : BitVec 32) (n : ℕ) (h0 : 0 ≤ x.toInt) (h1 : x.toInt < n) : x.toNat < n := by
  have := BitVec.toInt_eq_toNat_of_lt (x := x) (by
    by_contra hc
    have := BitVec.toInt_neg_iff.2 (by omega : 2 ^ 32 ≤ 2 * x.toNat)
    omega)
  omega

/-- A conjunction of `i1` vectors at an index is the conjunction of the words there. -/
theorem andi_at {s : Shape} {w : Nat} (x y : IVec s w) (i : s.Idx) : andi x y i = IntOp.andi (x i) (y i) := rfl

section
variable {a0 : FVec Ideal S2x2048x1024 .f32} {a1 : FVec Ideal S50257x1024 .f32} {a2 : FVec Ideal S50257 .f32}
  {a3 a4 : IVec S2x2048 32}

/-- Every entry of the first float input is a real. -/
theorem finite_arg0 (h : fn (F := Ideal) a0 a1 a2 a3 a4 = fun _ => 1#1) : ∀ i, ∃ r : ℝ, a0 i = ((r : ℝ) : EReal) := by
  have e := congrFun h (fun d => d.elim0)
  dsimp only [fn, fn_part1] at e
  simp only [andi_at, IntOp.andi_eq_one] at e
  obtain ⟨⟨⟨e0, e1⟩, e2⟩, e3⟩ := e
  exact fun i => real_of_elt _ (Host.reduce_andi_all _ _ _ _ _ e0 i)

/-- Every entry of the second float input is a real. -/
theorem finite_arg1 (h : fn (F := Ideal) a0 a1 a2 a3 a4 = fun _ => 1#1) : ∀ i, ∃ r : ℝ, a1 i = ((r : ℝ) : EReal) := by
  have e := congrFun h (fun d => d.elim0)
  dsimp only [fn, fn_part1] at e
  simp only [andi_at, IntOp.andi_eq_one] at e
  obtain ⟨⟨⟨e0, e1⟩, e2⟩, e3⟩ := e
  exact fun i => real_of_elt _ (Host.reduce_andi_all _ _ _ _ _ e1 i)

/-- Every entry of the third float input is a real. -/
theorem finite_arg2 (h : fn (F := Ideal) a0 a1 a2 a3 a4 = fun _ => 1#1) : ∀ i, ∃ r : ℝ, a2 i = ((r : ℝ) : EReal) := by
  have e := congrFun h (fun d => d.elim0)
  dsimp only [fn, fn_part1] at e
  simp only [andi_at, IntOp.andi_eq_one] at e
  obtain ⟨⟨⟨e0, e1⟩, e2⟩, e3⟩ := e
  exact fun i => real_of_elt _ (Host.reduce_andi_all _ _ _ _ _ e2 i)

/-- Every shifted label `labels[:, 1:]` is a class index in `[0, 50257)` or the ignore word `-100`. -/
theorem labels_ok (h : fn (F := Ideal) a0 a1 a2 a3 a4 = fun _ => 1#1) (hs : S2x2048.Slices ![0, 1] S2x2047)
    (i : S2x2047.Idx) :
    (0 ≤ (extractStridedSlice S2x2047 ![0, 1] a3 hs i).toInt ∧ (extractStridedSlice S2x2047 ![0, 1] a3 hs i).toInt < 50257)
      ∨ extractStridedSlice S2x2047 ![0, 1] a3 hs i = 4294967196#32 := by
  have e := congrFun h (fun d => d.elim0)
  dsimp only [fn, fn_part1] at e
  simp only [andi_at, IntOp.andi_eq_one] at e
  obtain ⟨⟨⟨e0, e1⟩, e2⟩, e3⟩ := e
  exact label_of_elt _ (Host.reduce_andi_all _ _ _ _ _ e3 i)

/-- The same, unsigned: a shifted label is below 50257 as a natural number, or it is the ignore word. -/
theorem labels_ok_toNat (h : fn (F := Ideal) a0 a1 a2 a3 a4 = fun _ => 1#1) (hs : S2x2048.Slices ![0, 1] S2x2047)
    (i : S2x2047.Idx) :
    (extractStridedSlice S2x2047 ![0, 1] a3 hs i).toNat < 50257
      ∨ extractStridedSlice S2x2047 ![0, 1] a3 hs i = 4294967196#32 := by
  rcases labels_ok h hs i with ⟨h0, h1⟩ | h2
  · exact Or.inl (toNat_of_toInt_range _ 50257 h0 (by exact_mod_cast h1))
  · exact Or.inr h2

/-- The slice `labels[:, 1:]` at row `b`, column `t` is the label at row `b`, column `t + 1`. -/
theorem slice_at (x : IVec S2x2048 32) (hs : S2x2048.Slices ![0, 1] S2x2047) (b : Fin 2) (t : Fin 2047) :
    extractStridedSlice S2x2047 ![0, 1] x hs (StableHlo.Predicate.ij b t)
      = x (StableHlo.Predicate.ij b ⟨t.val + 1, by omega⟩) := by
  refine congrArg x (funext fun a => ?_)
  match a with
  | ⟨0, _⟩ => exact Fin.ext (Nat.zero_add _)
  | ⟨1, _⟩ => exact Fin.ext (Nat.add_comm _ _)

/-- The label at row `b`, column `t + 1` (every column but the first) is a class index in `[0, 50257)` or `-100`. -/
theorem labels_at (h : fn (F := Ideal) a0 a1 a2 a3 a4 = fun _ => 1#1) (b : Fin 2) (t : Fin 2047) :
    (0 ≤ (a3 (StableHlo.Predicate.ij b ⟨t.val + 1, by omega⟩)).toInt
        ∧ (a3 (StableHlo.Predicate.ij b ⟨t.val + 1, by omega⟩)).toInt < 50257)
      ∨ a3 (StableHlo.Predicate.ij b ⟨t.val + 1, by omega⟩) = 4294967196#32 := by
  have hs : S2x2048.Slices ![0, 1] S2x2047 := Facts.slices_S2x2048_S2x2047_0_1
  have e := labels_ok h hs (StableHlo.Predicate.ij b t)
  rw [slice_at a3 hs b t] at e
  exact e

/-- The same, unsigned. -/
theorem labels_at_toNat (h : fn (F := Ideal) a0 a1 a2 a3 a4 = fun _ => 1#1) (b : Fin 2) (t : Fin 2047) :
    (a3 (StableHlo.Predicate.ij b ⟨t.val + 1, by omega⟩)).toNat < 50257
      ∨ a3 (StableHlo.Predicate.ij b ⟨t.val + 1, by omega⟩) = 4294967196#32 := by
  rcases labels_at h b t with ⟨h0, h1⟩ | h2
  · exact Or.inl (toNat_of_toInt_range _ 50257 h0 (by exact_mod_cast h1))
  · exact Or.inr h2

end

end Cert.Proof.PreFacts
-- ==== Proof.OnlineLse.lean ====
/-
  The tiled (online) log-sum-exp equals the shifted log-softmax arrangement, over the extended reals.

  A row has real logits x j, j < 50257. Along the naturals the row is continued by ⊥ past the vocabulary's end, so
  that entry i of tile n is the entry at n · 1024 + i. After the first N = n · 1024 entries the tiled form carries

    m = the maximum of the first N entries (a real M as soon as N > 0: entry 0 is real and no entry is ⊤),
    l = ∑ p < N, exp (x p - M), the entries past the vocabulary adding exp ⊥ = 0,
    t = x k if k < N, else 0,

  and one tile keeps this: the maxima join (max is associative, ⊥ is neutral), the carried sum is rescaled by
  exp (x - M) · exp (M - M') = exp (x - M') and the tile's own sum is appended, and the label word, being below
  2 ^ 32 like every index met, selects exactly the entry at k. After 50 tiles N = 51200 ≥ 50257 covers the
  vocabulary: m is the row's maximum, l the full sum, t = x k, and both sides are the real M + log l - x k.
-/
import proofs.«423894_j137438953739_3_alg».proof.Proof.Spec
import Mathlib.Data.Finset.Fold
import Mathlib.Data.EReal.Operations
import Mathlib.Analysis.SpecialFunctions.Log.Basic
import Mathlib.Analysis.SpecialFunctions.Exp
import Mathlib.Algebra.BigOperators.Fin
import Mathlib.Algebra.BigOperators.Group.Finset.Basic

noncomputable section

namespace Cert.Proof.OnlineLse

open Idealize.ShloMosaic Cert.Spec

/-! ### Finite sums of reals inside the extended reals -/

/-- The coercion of the reals into the extended reals commutes with finite sums. -/
theorem coe_finsum {ι : Type*} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-! ### The row along the naturals -/

/-- The logits along the naturals: the real logit inside the vocabulary, ⊥ past its end. -/
def ext (x : Fin 50257 → ℝ) (p : ℕ) : EReal :=
  if h : p < 50257 then ((x ⟨p, h⟩ : ℝ) : EReal) else ⊥

/-- exp (x p - M) inside the vocabulary, 0 past its end. -/
def ex (x : Fin 50257 → ℝ) (M : ℝ) (p : ℕ) : ℝ :=
  if h : p < 50257 then Real.exp (x ⟨p, h⟩ - M) else 0

/-- The maximum of the first N entries along the naturals, from ⊥. -/
def mx (x : Fin 50257 → ℝ) (N : ℕ) : EReal := (Finset.range N).fold max ⊥ (ext x)

variable (x : Fin 50257 → ℝ)

theorem tile_eq (n : ℕ) (i : Fin 1024) :
    tile (fun j => ((x j : ℝ) : EReal)) n i = ext x (n * 1024 + i.val) := rfl

theorem ext_val (j : Fin 50257) : ext x j.val = ((x j : ℝ) : EReal) := by
  unfold ext; rw [dif_pos j.isLt]

/-- Subtracting a real shift and exponentiating: a real inside the vocabulary, 0 past its end
    (there ⊥ - M = ⊥ and exp ⊥ = 0). -/
theorem exp_ext_sub (M : ℝ) (p : ℕ) :
    Ideal.exp (ext x p - (M : EReal)) = ((ex x M p : ℝ) : EReal) := by
  unfold ext ex
  split_ifs with h
  · rw [← EReal.coe_sub]; rfl
  · rw [EReal.bot_sub]; rfl

/-- The rescaling law: exp (x - M) · exp (M - M') = exp (x - M'). -/
theorem ex_rescale (M M' : ℝ) (p : ℕ) : ex x M p * Real.exp (M - M') = ex x M' p := by
  unfold ex
  split_ifs with h
  · rw [← Real.exp_add]; congr 1; ring
  · rw [zero_mul]

/-! ### The running maximum -/

/-- The maximum over the first N entries, joined with the maximum of the next 1024, is the maximum over the
    first N + 1024 entries. -/
theorem mx_add (N : ℕ) :
    max (mx x N) ((Finset.univ : Finset (Fin 1024)).fold max ⊥ (fun i => ext x (N + i.val))) = mx x (N + 1024) := by
  apply le_antisymm
  · refine max_le ?_ ?_
    · refine (Finset.fold_max_le _).2 ⟨bot_le, fun p hp => ?_⟩
      have hp' := Finset.mem_range.1 hp
      exact (Finset.le_fold_max _).2 (Or.inr ⟨p, Finset.mem_range.2 (by omega), le_rfl⟩)
    · refine (Finset.fold_max_le _).2 ⟨bot_le, fun i _ => ?_⟩
      have hi := i.isLt
      exact (Finset.le_fold_max _).2 (Or.inr ⟨N + i.val, Finset.mem_range.2 (by omega), le_rfl⟩)
  · refine (Finset.fold_max_le _).2 ⟨bot_le, fun p hp => ?_⟩
    have hp' := Finset.mem_range.1 hp
    by_cases hpN : p < N
    · exact le_max_of_le_left ((Finset.le_fold_max _).2 (Or.inr ⟨p, Finset.mem_range.2 hpN, le_rfl⟩))
    · refine le_max_of_le_right ((Finset.le_fold_max _).2
        (Or.inr ⟨⟨p - N, by omega⟩, Finset.mem_univ _, ?_⟩))
      have e : N + (p - N) = p := by omega
      show ext x p ≤ ext x (N + (p - N))
      rw [e]

/-- Over a nonempty prefix the maximum is a real: entry 0 is real and no entry is ⊤. -/
theorem mx_real {N : ℕ} (hN : 0 < N) : ∃ M : ℝ, mx x N = (M : EReal) := by
  have h0 : ((x ⟨0, by norm_num⟩ : ℝ) : EReal) ≤ mx x N :=
    (Finset.le_fold_max _).2 (Or.inr ⟨0, Finset.mem_range.2 hN, by
      unfold ext; rw [dif_pos (by norm_num)]⟩)
  have hbot : mx x N ≠ ⊥ := fun h => by
    rw [h] at h0; exact absurd h0 (not_le.2 (EReal.bot_lt_coe _))
  have htop : mx x N ≠ ⊤ := fun h => by
    have ht : (⊤ : EReal) ≤ (Finset.range N).fold max ⊥ (ext x) := le_of_eq h.symm
    rcases (Finset.le_fold_max _).1 ht with h1 | ⟨p, _, h2⟩
    · exact absurd h1 (not_le.2 bot_lt_top)
    · unfold ext at h2
      split_ifs at h2 with hp
      · exact absurd h2 (not_le.2 (EReal.coe_lt_top _))
      · exact absurd h2 (not_le.2 bot_lt_top)
  exact ⟨(mx x N).toReal, (EReal.coe_toReal htop hbot).symm⟩

/-- The row's maximum is the maximum over any prefix of the naturals that covers the vocabulary. -/
theorem rowMax_eq_mx {N : ℕ} (hN : 50257 ≤ N) : rowMax (fun j => ((x j : ℝ) : EReal)) = mx x N := by
  apply le_antisymm
  · refine (Finset.fold_max_le _).2 ⟨bot_le, fun j _ => ?_⟩
    have hj := j.isLt
    exact (Finset.le_fold_max _).2 (Or.inr ⟨j.val, Finset.mem_range.2 (by omega), (ext_val x j).ge⟩)
  · refine (Finset.fold_max_le _).2 ⟨bot_le, fun p _ => ?_⟩
    unfold ext
    split_ifs with hp
    · exact (Finset.le_fold_max _).2 (Or.inr ⟨⟨p, hp⟩, Finset.mem_univ _, le_rfl⟩)
    · exact bot_le

/-! ### The sums of exponentials -/

/-- One tile's sum of shifted exponentials, as a real sum over the tile's stretch of the naturals. -/
theorem sum_tile_exp (N : ℕ) (M' : ℝ) :
    ∑ i : Fin 1024, Ideal.exp (ext x (N + i.val) - (M' : EReal))
      = ((∑ i ∈ Finset.range 1024, ex x M' (N + i) : ℝ) : EReal) := by
  rw [Finset.sum_range (fun i => ex x M' (N + i)), coe_finsum]
  exact Finset.sum_congr rfl (fun i _ => exp_ext_sub x M' (N + i.val))

/-- The full sum over a prefix that covers the vocabulary is the sum over the vocabulary. -/
theorem sum_ex_cover {N : ℕ} (hN : 50257 ≤ N) (M : ℝ) :
    ∑ p ∈ Finset.range N, ex x M p = ∑ j : Fin 50257, Real.exp (x j - M) := by
  have h1 : ∑ p ∈ Finset.range 50257, ex x M p = ∑ p ∈ Finset.range N, ex x M p :=
    Finset.sum_subset (Finset.range_mono hN) (fun p _ hp => by
      have hp' : ¬ p < 50257 := fun h => hp (Finset.mem_range.2 h)
      unfold ex; rw [dif_neg hp'])
  rw [← h1, Finset.sum_range]
  refine Finset.sum_congr rfl (fun j _ => ?_)
  unfold ex; rw [dif_pos j.isLt]

/-! ### The selected logit -/

/-- Both words are below 2 ^ 32, so the label word selects entry i of tile n exactly when k = n · 1024 + i. -/
theorem hit_iff (lab : BitVec 32) (k : Fin 50257) (hk : lab = BitVec.ofNat 32 k.val) (n : ℕ)
    (hn : n * 1024 + 1024 ≤ 2 ^ 32) (i : Fin 1024) :
    hit lab n i = true ↔ k.val = n * 1024 + i.val := by
  have hk' := k.isLt
  have hi := i.isLt
  unfold hit
  rw [beq_iff_eq, hk]
  constructor
  · intro h
    have h' := congrArg BitVec.toNat h
    rw [BitVec.toNat_ofNat, BitVec.toNat_ofNat] at h'
    omega
  · intro h; rw [h]

/-- One tile's selected sum: the logit at k when k lies in the tile, else 0. -/
theorem sum_hit (lab : BitVec 32) (k : Fin 50257) (hk : lab = BitVec.ofNat 32 k.val) (n : ℕ)
    (hn : n * 1024 + 1024 ≤ 2 ^ 32) :
    ∑ i : Fin 1024, (if hit lab n i then tile (fun j => ((x j : ℝ) : EReal)) n i else 0)
      = if n * 1024 ≤ k.val ∧ k.val < n * 1024 + 1024 then ((x k : ℝ) : EReal) else 0 := by
  by_cases hc : n * 1024 ≤ k.val ∧ k.val < n * 1024 + 1024
  · rw [if_pos hc]
    have e : n * 1024 + (k.val - n * 1024) = k.val := by omega
    rw [Finset.sum_eq_single (⟨k.val - n * 1024, by omega⟩ : Fin 1024)]
    · rw [if_pos ((hit_iff lab k hk n hn _).2 e.symm), tile_eq]
      show ext x (n * 1024 + (k.val - n * 1024)) = _
      rw [e, ext_val]
    · intro i _ hne
      rw [if_neg]
      intro h
      apply hne
      have := (hit_iff lab k hk n hn i).1 h
      apply Fin.ext
      show i.val = k.val - n * 1024
      omega
    · intro h; exact absurd (Finset.mem_univ _) h
  · rw [if_neg hc]
    refine Finset.sum_eq_zero (fun i _ => ?_)
    rw [if_neg]
    intro h
    have := (hit_iff lab k hk n hn i).1 h
    have hi := i.isLt
    omega

/-! ### The invariant -/

theorem step_m (a : Acc) (X : Fin 1024 → EReal) (S : Fin 1024 → Bool) :
    (a.step X S).m = max a.m ((Finset.univ : Finset (Fin 1024)).fold max ⊥ X) := rfl

theorem step_l (a : Acc) (X : Fin 1024 → EReal) (S : Fin 1024 → Bool) :
    (a.step X S).l = a.l * Ideal.exp (a.m - (a.step X S).m) + ∑ i : Fin 1024, Ideal.exp (X i - (a.step X S).m) := rfl

theorem step_t (a : Acc) (X : Fin 1024 → EReal) (S : Fin 1024 → Bool) :
    (a.step X S).t = a.t + ∑ i : Fin 1024, (if S i then X i else 0) := rfl

/-- What the carried numbers are after the first N entries: the running maximum; the running sum of
    exponentials shifted by it (before the first tile the maximum is ⊥ and the sum is 0, afterwards the
    maximum is a real M and the sum is the real ∑ exp (x p - M)); and the logit at k once k has been passed. -/
def Invariant (x : Fin 50257 → ℝ) (k : Fin 50257) (a : Acc) (N : ℕ) : Prop :=
  a.m = mx x N ∧
  ((N = 0 ∧ a.l = 0) ∨ ∃ M : ℝ, a.m = (M : EReal) ∧ a.l = ((∑ p ∈ Finset.range N, ex x M p : ℝ) : EReal)) ∧
  a.t = if k.val < N then ((x k : ℝ) : EReal) else 0

/-- One tile keeps the invariant. -/
theorem Invariant.step (lab : BitVec 32) (k : Fin 50257) (hk : lab = BitVec.ofNat 32 k.val) (n : ℕ)
    (hn : n * 1024 + 1024 ≤ 2 ^ 32) (a : Acc) (h : Invariant x k a (n * 1024)) :
    Invariant x k (a.step (tile (fun j => ((x j : ℝ) : EReal)) n) (hit lab n)) (n * 1024 + 1024) := by
  obtain ⟨hm, hl, ht⟩ := h
  obtain ⟨M', hM'⟩ := mx_real x (N := n * 1024 + 1024) (by omega)
  have hm' : (a.step (tile (fun j => ((x j : ℝ) : EReal)) n) (hit lab n)).m = (M' : EReal) := by
    rw [step_m, hm, ← hM', ← mx_add]
    rfl
  refine ⟨hm'.trans hM'.symm, Or.inr ⟨M', hm', ?_⟩, ?_⟩
  · -- the sum of exponentials: rescale the carried sum, add the tile's
    rw [step_l, hm']
    have hres : a.l * Ideal.exp (a.m - (M' : EReal))
        = ((∑ p ∈ Finset.range (n * 1024), ex x M' p : ℝ) : EReal) := by
      rcases hl with ⟨hN0, hl0⟩ | ⟨M, hmM, hlM⟩
      · rw [hl0, zero_mul, hN0, Finset.range_zero, Finset.sum_empty, EReal.coe_zero]
      · rw [hlM, hmM, ← EReal.coe_sub]
        show ((_ : ℝ) : EReal) * ((Real.exp (M - M') : ℝ) : EReal) = _
        rw [← EReal.coe_mul, Finset.sum_mul]
        exact congrArg _ (Finset.sum_congr rfl (fun p _ => ex_rescale x M M' p))
    have htile : ∑ i : Fin 1024, Ideal.exp (tile (fun j => ((x j : ℝ) : EReal)) n i - (M' : EReal))
        = ((∑ i ∈ Finset.range 1024, ex x M' (n * 1024 + i) : ℝ) : EReal) := sum_tile_exp x (n * 1024) M'
    rw [hres, htile, ← EReal.coe_add, ← Finset.sum_range_add]
  · -- the selected logit
    rw [step_t, ht, sum_hit x lab k hk n hn]
    by_cases h1 : k.val < n * 1024
    · rw [if_pos h1, if_neg (by omega), if_pos (by omega), add_zero]
    · by_cases h2 : k.val < n * 1024 + 1024
      · rw [if_neg h1, if_pos ⟨by omega, h2⟩, if_pos h2, zero_add]
      · rw [if_neg h1, if_neg (by omega), if_neg h2, add_zero]

/-- The invariant holds after every number of tiles up to 50. -/
theorem inv_accUpTo (lab : BitVec 32) (k : Fin 50257) (hk : lab = BitVec.ofNat 32 k.val) (n : ℕ) (hn : n ≤ 50) :
    Invariant x k (accUpTo (fun j => ((x j : ℝ) : EReal)) lab n) (n * 1024) := by
  induction n with
  | zero =>
    refine ⟨?_, Or.inl ⟨by norm_num, rfl⟩, ?_⟩
    · show (⊥ : EReal) = (Finset.range (0 * 1024)).fold max ⊥ (ext x)
      rw [Nat.zero_mul, Finset.range_zero, Finset.fold_empty]
    · show (0 : EReal) = _
      rw [if_neg (by omega)]
  | succ n ih =>
    have e : (n + 1) * 1024 = n * 1024 + 1024 := by ring
    rw [e]
    exact Invariant.step x lab k hk n (by norm_num; omega) _ (ih (by omega))

/-! ### The closing identity -/

/-- After the 50 tiles the tiled form returns the cross entropy in the shifted log-softmax arrangement. -/
theorem accUpTo_out_eq_ce (ℓ : Fin 50257 → EReal) (hℓ : ∀ j, ∃ r : ℝ, ℓ j = ((r : ℝ) : EReal)) (lab : BitVec 32)
    (k : Fin 50257) (hk : lab = BitVec.ofNat 32 k.val) : (accUpTo ℓ lab 50).out = ce ℓ k := by
  obtain ⟨x, rfl⟩ : ∃ x : Fin 50257 → ℝ, ℓ = fun j => ((x j : ℝ) : EReal) :=
    ⟨fun j => (hℓ j).choose, funext fun j => (hℓ j).choose_spec⟩
  obtain ⟨hm, hl, ht⟩ := inv_accUpTo x lab k hk 50 le_rfl
  rcases hl with ⟨h0, _⟩ | ⟨M, hmM, hlM⟩
  · norm_num at h0
  have hk' := k.isLt
  have hrow : rowMax (fun j => ((x j : ℝ) : EReal)) = (M : EReal) := by
    rw [rowMax_eq_mx x (N := 50 * 1024) (by norm_num), ← hm, hmM]
  have hS : ∑ p ∈ Finset.range (50 * 1024), ex x M p = ∑ j : Fin 50257, Real.exp (x j - M) :=
    sum_ex_cover x (by norm_num) M
  have hpos : 0 < ∑ j : Fin 50257, Real.exp (x j - M) :=
    Finset.sum_pos (fun j _ => Real.exp_pos _) ⟨⟨0, by norm_num⟩, Finset.mem_univ _⟩
  have hsum : ∑ j : Fin 50257, Ideal.exp (((x j : ℝ) : EReal) - (M : EReal))
      = ((∑ j : Fin 50257, Real.exp (x j - M) : ℝ) : EReal) := by
    rw [coe_finsum]
    refine Finset.sum_congr rfl (fun j _ => ?_)
    rw [← EReal.coe_sub]; rfl
  unfold Acc.out ce
  rw [hrow, hsum, hmM, hlM, ht, if_pos (by omega), hS, Ideal.log_coe, if_neg (not_le.2 hpos)]
  rw [← EReal.coe_add, ← EReal.coe_sub, ← EReal.coe_sub, ← EReal.coe_sub, ← EReal.coe_neg]
  exact EReal.coe_eq_coe_iff.2 (by ring)

/-! ### The running maximum alone (it does not depend on the label) -/

theorem accUpTo_m (lab : BitVec 32) (n : ℕ) :
    (accUpTo (fun j => ((x j : ℝ) : EReal)) lab n).m = mx x (n * 1024) := by
  induction n with
  | zero =>
    show (⊥ : EReal) = (Finset.range (0 * 1024)).fold max ⊥ (ext x)
    rw [Nat.zero_mul, Finset.range_zero, Finset.fold_empty]
  | succ n ih =>
    have e : (n + 1) * 1024 = n * 1024 + 1024 := by ring
    show ((accUpTo (fun j => ((x j : ℝ) : EReal)) lab n).step _ _).m = _
    rw [step_m, ih, e, ← mx_add]
    rfl

/-- After at least one tile the running maximum is a real. -/
theorem accUpTo_m_real (ℓ : Fin 50257 → EReal) (hℓ : ∀ j, ∃ r : ℝ, ℓ j = ((r : ℝ) : EReal)) (lab : BitVec 32)
    (n : ℕ) (hn : 1 ≤ n) : ∃ r : ℝ, (accUpTo ℓ lab n).m = (r : EReal) := by
  obtain ⟨x, rfl⟩ : ∃ x : Fin 50257 → ℝ, ℓ = fun j => ((x j : ℝ) : EReal) :=
    ⟨fun j => (hℓ j).choose, funext fun j => (hℓ j).choose_spec⟩
  obtain ⟨M, hM⟩ := mx_real x (N := n * 1024) (by omega)
  exact ⟨M, (accUpTo_m x lab n).trans hM⟩

/-- After the 50 tiles the running maximum is the row's maximum. -/
theorem accUpTo_m_eq_rowMax (ℓ : Fin 50257 → EReal) (hℓ : ∀ j, ∃ r : ℝ, ℓ j = ((r : ℝ) : EReal)) (lab : BitVec 32) :
    (accUpTo ℓ lab 50).m = rowMax ℓ := by
  obtain ⟨x, rfl⟩ : ∃ x : Fin 50257 → ℝ, ℓ = fun j => ((x j : ℝ) : EReal) :=
    ⟨fun j => (hℓ j).choose, funext fun j => (hℓ j).choose_spec⟩
  rw [accUpTo_m, rowMax_eq_mx x (N := 50 * 1024) (by norm_num)]

end Cert.Proof.OnlineLse

end
-- ==== Proof.RowFacts.lean ====
/-
  Facts about one row of the shifted problem.

  With real embeddings, weights and biases every logit of a row is a real (a finite sum of products of reals plus a
  real). A label word below the vocabulary's size 50257 is the 32-bit word of its own value, and differs from the
  word 2 ^ 32 - 100. For such a row and label the tiled log-sum-exp returns the row's cross entropy at the label.
-/
import proofs.«423894_j137438953739_3_alg».proof.Proof.Spec
import proofs.«423894_j137438953739_3_alg».proof.Proof.OnlineLse
import Idealize.ShloMosaic.Lib.ValueIdx
import Mathlib.Data.EReal.Basic
import Mathlib.Data.EReal.Operations
import Mathlib.Algebra.BigOperators.Group.Finset.Basic

noncomputable section

namespace Cert.Proof.RowFacts

open Idealize.ShloMosaic Idealize.ShloMosaic.ValueIdx Cert.Spec Cert.Proof

/-! ### A row's logits are reals -/

/-- With real embeddings, weights and biases, each logit ∑ d, emb · W + bias is a real. -/
theorem logit_real (emb : (⟨3, ![2, 2048, 1024]⟩ : Shape).Idx → EReal) (W : (⟨2, ![50257, 1024]⟩ : Shape).Idx → EReal)
    (bias : (⟨1, ![50257]⟩ : Shape).Idx → EReal) (h0 : ∀ i, ∃ r : ℝ, emb i = ((r : ℝ) : EReal))
    (h1 : ∀ i, ∃ r : ℝ, W i = ((r : ℝ) : EReal)) (h2 : ∀ i, ∃ r : ℝ, bias i = ((r : ℝ) : EReal))
    (n : Fin 4094) (j : Fin 50257) : ∃ r : ℝ, Cert.Spec.logit emb W bias n j = ((r : ℝ) : EReal) := by
  choose e he using h0
  choose w hw using h1
  choose b hb using h2
  refine ⟨(∑ d : Fin 1024, e (ix3 (rowB n) (rowS n) d) * w (ix2 j d)) + b (ix1 j), ?_⟩
  have hs : ∑ d : Fin 1024, emb (ix3 (rowB n) (rowS n) d) * W (ix2 j d)
      = ((∑ d : Fin 1024, e (ix3 (rowB n) (rowS n) d) * w (ix2 j d) : ℝ) : EReal) := by
    rw [OnlineLse.coe_finsum]
    exact Finset.sum_congr rfl (fun d _ => by rw [he, hw, EReal.coe_mul])
  unfold Cert.Spec.logit
  rw [hs, hb, EReal.coe_add]

/-! ### Label words inside the vocabulary -/

/-- A word below the vocabulary's size is the word of its own value. -/
theorem word_eq_ofNat (x : BitVec 32) (h : x.toNat < 50257) :
    x = BitVec.ofNat 32 (⟨x.toNat, h⟩ : Fin 50257).val := by
  apply BitVec.eq_of_toNat_eq
  show x.toNat = (BitVec.ofNat 32 x.toNat).toNat
  rw [BitVec.toNat_ofNat]
  omega

/-- A word below the vocabulary's size is not the word 2 ^ 32 - 100. -/
theorem ne_ignore_of_lt (x : BitVec 32) (h : x.toNat < 50257) : x ≠ 4294967196#32 := by
  intro hx
  rw [hx] at h
  exact absurd h (by decide)

/-! ### One row -/

/-- For a row of real inputs whose label lies inside the vocabulary, the tiled form returns the row's cross
    entropy at the label. -/
theorem ce_row (emb : (⟨3, ![2, 2048, 1024]⟩ : Shape).Idx → EReal) (W : (⟨2, ![50257, 1024]⟩ : Shape).Idx → EReal)
    (bias : (⟨1, ![50257]⟩ : Shape).Idx → EReal) (h0 : ∀ i, ∃ r : ℝ, emb i = ((r : ℝ) : EReal))
    (h1 : ∀ i, ∃ r : ℝ, W i = ((r : ℝ) : EReal)) (h2 : ∀ i, ∃ r : ℝ, bias i = ((r : ℝ) : EReal))
    (lab : BitVec 32) (n : Fin 4094) (h : lab.toNat < 50257) :
    (Cert.Spec.accUpTo (Cert.Spec.logit emb W bias n) lab 50).out
      = Cert.Spec.ce (Cert.Spec.logit emb W bias n) ⟨lab.toNat, h⟩ :=
  OnlineLse.accUpTo_out_eq_ce _ (fun j => logit_real emb W bias h0 h1 h2 n j) lab ⟨lab.toNat, h⟩
    (word_eq_ofNat lab h)

end Cert.Proof.RowFacts

end
-- ==== Proof.KernelValue.lean ====
/-
  What the idealized kernel's program returns, as the shared tail of the reference's own per-row values.

  The run leaves the result at the host tail of (the valid mask, the output array's first 4094 entries). Entry `n` of
  the output array is what tile 49 of row block `n / 2048` stored for row `n % 2048`: the tiled fold's output over the
  row's logits and label. Where the mask is set the label is not the ignore value, so by the precondition it is a
  vocabulary index `k < 50257`; the logits are reals (the float inputs are finite), so the fold's output is the cross
  entropy `ce ℓ k` in the reference's arrangement, which is the reference's own value at that row. Where the mask is
  clear the tail does not read the entry.
-/
import proofs.«423894_j137438953739_3_alg».proof.Defs
import proofs.«423894_j137438953739_3_alg».proof.Proof.IdealRun
import proofs.«423894_j137438953739_3_alg».proof.Proof.IdealOut
import proofs.«423894_j137438953739_3_alg».proof.Proof.IdealFold
import proofs.«423894_j137438953739_3_alg».proof.Proof.RefValue
import proofs.«423894_j137438953739_3_alg».proof.Proof.PreFacts
import proofs.«423894_j137438953739_3_alg».proof.Proof.RowFacts

noncomputable section

namespace Cert.Proof.KernelValue

open Cert.KernelIdeal Cert.KernelIdeal.Gen Cert.KernelIdeal.Exact
open Idealize.ShloMosaic Idealize.ShloMosaic.TcCoe Idealize.ShloMosaic.ValueIdx Idealize.SL.Sem

variable (m : (ℓ : Loc nD τ sig) → Buf (Elt Ideal) ℓ)

/-- Where the valid mask is set, the row's label word is a vocabulary index. -/
theorem label_lt (hpre : Cert.Pre_KernelIdeal m) (c : Dev nD) (n : Fin 4094)
    (hv : Cert.Proof.RefValue.validOf (m ((c.tc : Thread nD τ).loc main_arg3)) (ix1 n) = 1#1) :
    (Cert.Spec.label (m ((c.tc : Thread nD τ).loc main_arg3)) n).toNat < 50257 := by
  have hne : Cert.Spec.label (m ((c.tc : Thread nD τ).loc main_arg3)) n ≠ 4294967196#32 := by
    intro h
    rw [Cert.Proof.RefValue.validOf_apply, if_pos h] at hv
    exact absurd hv (by decide)
  have e : StableHlo.Predicate.ij (Cert.Spec.rowB n) (⟨n.val % 2047 + 1, by have := n.isLt; omega⟩ : Fin 2048)
      = ix2 (Cert.Spec.rowB n) (Cert.Spec.rowS1 n) := by
    funext d; match d with | ⟨0, _⟩ => rfl | ⟨1, _⟩ => rfl
  have h := Cert.Proof.PreFacts.labels_at_toNat (hpre c) (Cert.Spec.rowB n) ⟨n.val % 2047, Nat.mod_lt _ (by decide)⟩
  rw [e] at h
  rcases h with h | h
  · exact h
  · exact absurd h hne

/-- The program's result: the shared tail of the reference's valid mask and per-row values of the SAME arguments. -/
theorem kernel_value (hpre : Cert.Pre_KernelIdeal m) (c : Dev nD) :
    Pipeline.afterTail₀ cfgs (dats m) 0 (Gen.V0 m) [hostOps1, hostOps1_1, hostOps1_2] c main_v28
      = Cert.Proof.Tail.tail (Cert.Proof.RefValue.validOf (m ((c.tc : Thread nD τ).loc main_arg3)))
          (Cert.Proof.RefValue.zOf (m ((c.tc : Thread nD τ).loc main_arg0)) (m ((c.tc : Thread nD τ).loc main_arg1))
            (m ((c.tc : Thread nD τ).loc main_arg2)) (m ((c.tc : Thread nD τ).loc main_arg3))) := by
  rw [tail_eq m (dats m) c]
  have hv5 : (Gen.V m c main_v5 : S4094.Idx → BitVec 1)
      = Cert.Proof.RefValue.validOf (m ((c.tc : Thread nD τ).loc main_arg3)) := (V_v5_eq m c).trans rfl
  rw [hv5]
  refine Cert.Proof.Tail.tail_congr _ _ _ (fun n hv => ?_)
  have hlt := label_lt m hpre c n hv
  have hq : (n.val / 2048) * 2048 + n.val % 2048 < 4094 := by have := n.isLt; omega
  have hn : (⟨(n.val / 2048) * 2048 + n.val % 2048, hq⟩ : Fin 4094) = n := Fin.ext (by show (n.val / 2048) * 2048 + n.val % 2048 = n.val; omega)
  have hrow := outAt_row m c ⟨n.val / 2048, by have := n.isLt; omega⟩ ⟨n.val % 2048, Nat.mod_lt _ (by decide)⟩ hq
  rw [hn] at hrow
  rw [out_row, arrAt4_apply m c (dats m 0 c) (fun t => dats_after4 m c t) ⟨n.val, by have := n.isLt; omega⟩]
  refine hrow.trans ?_
  rw [Cert.Proof.RowFacts.ce_row _ _ _ (fun i => Cert.Proof.PreFacts.finite_arg0 (hpre c) i)
    (fun i => Cert.Proof.PreFacts.finite_arg1 (hpre c) i) (fun i => Cert.Proof.PreFacts.finite_arg2 (hpre c) i) _ n hlt]
  exact (Cert.Proof.RefValue.zOf_apply _ _ _ _ n ⟨_, hlt⟩ (Cert.Proof.RowFacts.word_eq_ofNat _ hlt)).symm

end Cert.Proof.KernelValue

end
-- ==== Proof.RefSplit.lean ====
/-
  The reference's eighty operations cut into four consecutive stretches at the values later stretches read:
  the logits and the labels' mask and safe index; the log-softmax; the take-along-the-last-axis and the negation;
  the masked focal mean. The whole list is their concatenation, and running a concatenation is running its parts in turn.
-/
import proofs.«423894_j137438953739_3_alg».proof.Proof.RefRun

noncomputable section

namespace Cert.Proof.RefAfter

open Cert.ReferenceIdeal Cert.ReferenceIdeal.Gen Idealize.ShloMosaic Idealize.ShloMosaic.TcCoe Idealize.SL.Sem Idealize.ShloMosaic.StableHlo

variable {F : FTy → Type} [FloatOps F]

/-- The first fifteen operations: the logits, sliced and flattened; the shifted labels, their mask and the safe index. -/
abbrev L1 : List (HloOp τ sig (Elt F)) :=
  [ binary main_arg0 main_arg1 main_v0 ((fun l r => Host.dotGeneral dot_S2x2048x1024_S50257x1024_S2x2048x50257_2_1_01_0_n_n none l r) : (⟨S2x2048x1024, .f32⟩ : BufTy).Contents (Elt F) → (⟨S50257x1024, .f32⟩ : BufTy).Contents (Elt F) → (⟨S2x2048x50257, .f32⟩ : BufTy).Contents (Elt F)),
    unary main_arg2 main_v1 (broadcastInDim S1x1x50257 ![2] bcast_S50257_S1x1x50257_2 : (⟨S50257, .f32⟩ : BufTy).Contents (Elt F) → (⟨S1x1x50257, .f32⟩ : BufTy).Contents (Elt F)),
    unary main_v1 main_v2 (broadcastInDim S2x2048x50257 ![0, 1, 2] bcast_S1x1x50257_S2x2048x50257_0_1_2 : (⟨S1x1x50257, .f32⟩ : BufTy).Contents (Elt F) → (⟨S2x2048x50257, .f32⟩ : BufTy).Contents (Elt F)),
    binary main_v0 main_v2 main_v3 (addf : (⟨S2x2048x50257, .f32⟩ : BufTy).Contents (Elt F) → (⟨S2x2048x50257, .f32⟩ : BufTy).Contents (Elt F) → (⟨S2x2048x50257, .f32⟩ : BufTy).Contents (Elt F)),
    unary main_v3 main_v4 ((extractStridedSlice S2x2047x50257 ![0, 0, 0] · slices_S2x2048x50257_S2x2047x50257_0_0_0) : (⟨S2x2048x50257, .f32⟩ : BufTy).Contents (Elt F) → (⟨S2x2047x50257, .f32⟩ : BufTy).Contents (Elt F)),
    reshape main_v4 main_v5 rfl shapeCasts_S2x2047x50257_S4094x50257,
    unary main_arg3 main_v6 ((extractStridedSlice S2x2047 ![0, 1] · slices_S2x2048_S2x2047_0_1) : (⟨S2x2048, .i32⟩ : BufTy).Contents (Elt F) → (⟨S2x2047, .i32⟩ : BufTy).Contents (Elt F)),
    reshape main_v6 main_v7 rfl shapeCasts_S2x2047_S4094,
    nullary main_c (constantI S_ 32 4294967196#32),
    unary main_c main_v8 (broadcastInDim S4094 ![] bcast_S_S4094 : (⟨S_, .i32⟩ : BufTy).Contents (Elt F) → (⟨S4094, .i32⟩ : BufTy).Contents (Elt F)),
    binary main_v7 main_v8 main_v9 (cmpi .ne : (⟨S4094, .i32⟩ : BufTy).Contents (Elt F) → (⟨S4094, .i32⟩ : BufTy).Contents (Elt F) → (⟨S4094, .i1⟩ : BufTy).Contents (Elt F)),
    nullary main_c_0 (constantI S_ 32 0#32),
    TRef.unary (TRef.of (T := ⟨S_, .i32⟩) main_c_0) (TRef.of (T := ⟨S_, .i32⟩) main_call0_v0) id,
    TRef.unary (TRef.of (T := ⟨S_, .i32⟩) main_call0_v0) (TRef.of (T := ⟨S4094, .i32⟩) main_call0_v1) (broadcastInDim S4094 ![] bcast_S_S4094),
    TRef.ternary (TRef.of (T := ⟨S4094, .i1⟩) main_v9) (TRef.of (T := ⟨S4094, .i32⟩) main_v7) (TRef.of (T := ⟨S4094, .i32⟩) main_call0_v1) (TRef.of (T := ⟨S4094, .i32⟩) main_v10) select ]

/-- The log-softmax's fifteen operations. -/
abbrev L2 : List (HloOp τ sig (Elt F)) :=
  [ TRef.nullary (TRef.of (T := ⟨S_, .f32⟩) main_call1_cst) (constant S_ .f32 0xFF800000#32),
    TRef.binary (TRef.of (T := ⟨S4094x50257, .f32⟩) main_v5) (TRef.of (T := ⟨S_, .f32⟩) main_call1_cst) (TRef.of (T := ⟨S4094, .f32⟩) main_call1_v0) (fun x v => Host.reduce FloatOps.maximumf x v reducesTo_S4094x50257_S4094_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S4094, .f32⟩) main_call1_v1) (broadcastInDim S4094 ![] bcast_S_S4094),
    TRef.binary (TRef.of (T := ⟨S4094, .f32⟩) main_call1_v1) (TRef.of (T := ⟨S4094, .f32⟩) main_call1_v0) (TRef.of (T := ⟨S4094, .f32⟩) main_call1_v2) maximumf,
    TRef.unary (TRef.of (T := ⟨S4094, .f32⟩) main_call1_v2) (TRef.of (T := ⟨S4094x1, .f32⟩) main_call1_v3) (broadcastInDim S4094x1 ![0] bcast_S4094_S4094x1_0),
    TRef.unary (TRef.of (T := ⟨S4094x1, .f32⟩) main_call1_v3) (TRef.of (T := ⟨S4094x50257, .f32⟩) main_call1_v4) (broadcastInDim S4094x50257 ![0, 1] bcast_S4094x1_S4094x50257_0_1),
    TRef.binary (TRef.of (T := ⟨S4094x50257, .f32⟩) main_v5) (TRef.of (T := ⟨S4094x50257, .f32⟩) main_call1_v4) (TRef.of (T := ⟨S4094x50257, .f32⟩) main_call1_v5) subf,
    TRef.unary (TRef.of (T := ⟨S4094x50257, .f32⟩) main_call1_v5) (TRef.of (T := ⟨S4094x50257, .f32⟩) main_call1_v6) Host.exp,
    TRef.nullary (TRef.of (T := ⟨S_, .f32⟩) main_call1_cst_1) (constant S_ .f32 0x00000000#32),
    TRef.binary (TRef.of (T := ⟨S4094x50257, .f32⟩) main_call1_v6) (TRef.of (T := ⟨S_, .f32⟩) main_call1_cst_1) (TRef.of (T := ⟨S4094, .f32⟩) main_call1_v7) (fun x v => Host.reduceAdd x v reducesTo_S4094x50257_S4094_d1 h_S_),
    TRef.unary (TRef.of (T := ⟨S4094, .f32⟩) main_call1_v7) (TRef.of (T := ⟨S4094x1, .f32⟩) main_call1_v8) (broadcastInDim S4094x1 ![0] bcast_S4094_S4094x1_0),
    TRef.unary (TRef.of (T := ⟨S4094x1, .f32⟩) main_call1_v8) (TRef.of (T := ⟨S4094x1, .f32⟩) main_call1_v9) Host.log,
    TRef.unary (TRef.of (T := ⟨S4094x1, .f32⟩) main_call1_v9) (TRef.of (T := ⟨S4094x50257, .f32⟩) main_call1_v10) (broadcastInDim S4094x50257 ![0, 1] bcast_S4094x1_S4094x50257_0_1),
    TRef.binary (TRef.of (T := ⟨S4094x50257, .f32⟩) main_call1_v5) (TRef.of (T := ⟨S4094x50257, .f32⟩) main_call1_v10) (TRef.of (T := ⟨S4094x50257, .f32⟩) main_v11) subf ]

/-- The index as a column, the take along the last axis, the flattening and the negation: twenty-five operations. -/
abbrev L3 : List (HloOp τ sig (Elt F)) :=
  [ unary main_v10 main_v12 (broadcastInDim S4094x1 ![0] bcast_S4094_S4094x1_0 : (⟨S4094, .i32⟩ : BufTy).Contents (Elt F) → (⟨S4094x1, .i32⟩ : BufTy).Contents (Elt F)),
    TRef.nullary (TRef.of (T := ⟨S_, .i32⟩) main_call2_c) (constantI S_ 32 0#32),
    TRef.unary (TRef.of (T := ⟨S_, .i32⟩) main_call2_c) (TRef.of (T := ⟨S4094x1, .i32⟩) main_call2_v0) (broadcastInDim S4094x1 ![] bcast_S_S4094x1),
    TRef.binary (TRef.of (T := ⟨S4094x1, .i32⟩) main_v12) (TRef.of (T := ⟨S4094x1, .i32⟩) main_call2_v0) (TRef.of (T := ⟨S4094x1, .i1⟩) main_call2_v1) (cmpi .slt),
    TRef.nullary (TRef.of (T := ⟨S_, .i32⟩) main_call2_c_0) (constantI S_ 32 50257#32),
    TRef.unary (TRef.of (T := ⟨S_, .i32⟩) main_call2_c_0) (TRef.of (T := ⟨S4094x1, .i32⟩) main_call2_v2) (broadcastInDim S4094x1 ![] bcast_S_S4094x1),
    TRef.binary (TRef.of (T := ⟨S4094x1, .i32⟩) main_v12) (TRef.of (T := ⟨S4094x1, .i32⟩) main_call2_v2) (TRef.of (T := ⟨S4094x1, .i32⟩) main_call2_v3) addi,
    TRef.ternary (TRef.of (T := ⟨S4094x1, .i1⟩) main_call2_v1) (TRef.of (T := ⟨S4094x1, .i32⟩) main_call2_v3) (TRef.of (T := ⟨S4094x1, .i32⟩) main_v12) (TRef.of (T := ⟨S4094x1, .i32⟩) main_call2_v4) select,
    TRef.reshape (TRef.of (T := ⟨S4094x1, .i32⟩) main_call2_v4) (TRef.of (T := ⟨S4094x1x1, .i32⟩) main_call2_v5) rfl shapeCasts_S4094x1_S4094x1x1,
    TRef.nullary (TRef.of (T := ⟨S1, .i32⟩) main_call2_c_1) (constantI S1 32 50256#32),
    TRef.nullary (TRef.of (T := ⟨S_, .i32⟩) main_call2_c_2) (constantI S_ 32 0#32),
    TRef.unary (TRef.of (T := ⟨S_, .i32⟩) main_call2_c_2) (TRef.of (T := ⟨S4094x1x1, .i32⟩) main_call2_v6) (broadcastInDim S4094x1x1 ![] bcast_S_S4094x1x1),
    TRef.binary (TRef.of (T := ⟨S4094x1x1, .i32⟩) main_call2_v5) (TRef.of (T := ⟨S4094x1x1, .i32⟩) main_call2_v6) (TRef.of (T := ⟨S4094x1x1, .i1⟩) main_call2_v7) (cmpi .sge),
    TRef.unary (TRef.of (T := ⟨S1, .i32⟩) main_call2_c_1) (TRef.of (T := ⟨S1x1x1, .i32⟩) main_call2_v8) (broadcastInDim S1x1x1 ![2] bcast_S1_S1x1x1_2),
    TRef.unary (TRef.of (T := ⟨S1x1x1, .i32⟩) main_call2_v8) (TRef.of (T := ⟨S4094x1x1, .i32⟩) main_call2_v9) (broadcastInDim S4094x1x1 ![0, 1, 2] bcast_S1x1x1_S4094x1x1_0_1_2),
    TRef.binary (TRef.of (T := ⟨S4094x1x1, .i32⟩) main_call2_v5) (TRef.of (T := ⟨S4094x1x1, .i32⟩) main_call2_v9) (TRef.of (T := ⟨S4094x1x1, .i1⟩) main_call2_v10) (cmpi .sle),
    TRef.binary (TRef.of (T := ⟨S4094x1x1, .i1⟩) main_call2_v7) (TRef.of (T := ⟨S4094x1x1, .i1⟩) main_call2_v10) (TRef.of (T := ⟨S4094x1x1, .i1⟩) main_call2_v11) andi,
    TRef.nullary (TRef.of (T := ⟨S_, .i1⟩) main_call2_c_3) (constantI S_ 1 1#1),
    TRef.binary (TRef.of (T := ⟨S4094x1x1, .i1⟩) main_call2_v11) (TRef.of (T := ⟨S_, .i1⟩) main_call2_c_3) (TRef.of (T := ⟨S4094x1, .i1⟩) main_call2_v12) (fun x v => Host.reduce IntOp.andi x v reducesTo_S4094x1x1_S4094x1_d2 h_S_),
    TRef.binary (TRef.of (T := ⟨S4094x50257, .f32⟩) main_v11) (TRef.of (T := ⟨S4094x1x1, .i32⟩) main_call2_v5) (TRef.of (T := ⟨S4094x1, .f32⟩) main_call2_v13) (fun x i => Host.gather gather_S4094x50257_S4094x1x1_S4094x1_n_1_0_0_1_2_11 x i),
    TRef.nullary (TRef.of (T := ⟨S_, .f32⟩) main_call2_cst) (constant S_ .f32 0x7FC00000#32),
    TRef.unary (TRef.of (T := ⟨S_, .f32⟩) main_call2_cst) (TRef.of (T := ⟨S4094x1, .f32⟩) main_call2_v14) (broadcastInDim S4094x1 ![] bcast_S_S4094x1),
    TRef.ternary (TRef.of (T := ⟨S4094x1, .i1⟩) main_call2_v12) (TRef.of (T := ⟨S4094x1, .f32⟩) main_call2_v13) (TRef.of (T := ⟨S4094x1, .f32⟩) main_call2_v14) (TRef.of (T := ⟨S4094x1, .f32⟩) main_v13) select,
    reshape main_v13 main_v14 rfl shapeCasts_S4094x1_S4094,
    unary main_v14 main_v15 (Host.negf : (⟨S4094, .f32⟩ : BufTy).Contents (Elt F) → (⟨S4094, .f32⟩ : BufTy).Contents (Elt F)) ]

/-- The masked focal mean: the last twenty-five operations. -/
abbrev L4 : List (HloOp τ sig (Elt F)) :=
  [ nullary main_cst (constant S_ .f32 0x00000000#32),
    TRef.unary (TRef.of (T := ⟨S_, .f32⟩) main_cst) (TRef.of (T := ⟨S_, .f32⟩) main_call3_v0) id,
    TRef.unary (TRef.of (T := ⟨S_, .f32⟩) main_call3_v0) (TRef.of (T := ⟨S4094, .f32⟩) main_call3_v1) (broadcastInDim S4094 ![] bcast_S_S4094),
    TRef.ternary (TRef.of (T := ⟨S4094, .i1⟩) main_v9) (TRef.of (T := ⟨S4094, .f32⟩) main_v15) (TRef.of (T := ⟨S4094, .f32⟩) main_call3_v1) (TRef.of (T := ⟨S4094, .f32⟩) main_v16) select,
    unary main_v16 main_v17 (Host.negf : (⟨S4094, .f32⟩ : BufTy).Contents (Elt F) → (⟨S4094, .f32⟩ : BufTy).Contents (Elt F)),
    unary main_v17 main_v18 (Host.exp : (⟨S4094, .f32⟩ : BufTy).Contents (Elt F) → (⟨S4094, .f32⟩ : BufTy).Contents (Elt F)),
    nullary main_cst_1 (constant S_ .f32 0x3F800000#32),
    unary main_cst_1 main_v19 (broadcastInDim S4094 ![] bcast_S_S4094 : (⟨S_, .f32⟩ : BufTy).Contents (Elt F) → (⟨S4094, .f32⟩ : BufTy).Contents (Elt F)),
    binary main_v19 main_v18 main_v20 (subf : (⟨S4094, .f32⟩ : BufTy).Contents (Elt F) → (⟨S4094, .f32⟩ : BufTy).Contents (Elt F) → (⟨S4094, .f32⟩ : BufTy).Contents (Elt F)),
    nullary main_cst_2 (constant S_ .f32 0x3F800000#32),
    unary main_cst_2 main_v21 (broadcastInDim S4094 ![] bcast_S_S4094 : (⟨S_, .f32⟩ : BufTy).Contents (Elt F) → (⟨S4094, .f32⟩ : BufTy).Contents (Elt F)),
    binary main_v20 main_v21 main_v22 (Host.powf : (⟨S4094, .f32⟩ : BufTy).Contents (Elt F) → (⟨S4094, .f32⟩ : BufTy).Contents (Elt F) → (⟨S4094, .f32⟩ : BufTy).Contents (Elt F)),
    nullary main_cst_3 (constant S_ .f32 0x00000000#32),
    binary main_v22 main_cst_3 main_v23 ((fun x v => Host.reduceAdd x v reducesTo_S4094_S_d0 h_S_) : (⟨S4094, .f32⟩ : BufTy).Contents (Elt F) → (⟨S_, .f32⟩ : BufTy).Contents (Elt F) → (⟨S_, .f32⟩ : BufTy).Contents (Elt F)),
    nullary main_cst_4 (constant S_ .f32 0x457FE000#32),
    binary main_v23 main_cst_4 main_v24 (Host.divf : (⟨S_, .f32⟩ : BufTy).Contents (Elt F) → (⟨S_, .f32⟩ : BufTy).Contents (Elt F) → (⟨S_, .f32⟩ : BufTy).Contents (Elt F)),
    nullary main_cst_5 (constant S_ .f32 0x3F800000#32),
    binary main_cst_5 main_v24 main_v25 (Host.divf : (⟨S_, .f32⟩ : BufTy).Contents (Elt F) → (⟨S_, .f32⟩ : BufTy).Contents (Elt F) → (⟨S_, .f32⟩ : BufTy).Contents (Elt F)),
    unary main_v25 main_v26 (broadcastInDim S4094 ![] bcast_S_S4094 : (⟨S_, .f32⟩ : BufTy).Contents (Elt F) → (⟨S4094, .f32⟩ : BufTy).Contents (Elt F)),
    binary main_v26 main_v22 main_v27 (mulf : (⟨S4094, .f32⟩ : BufTy).Contents (Elt F) → (⟨S4094, .f32⟩ : BufTy).Contents (Elt F) → (⟨S4094, .f32⟩ : BufTy).Contents (Elt F)),
    binary main_v27 main_v16 main_v28 (mulf : (⟨S4094, .f32⟩ : BufTy).Contents (Elt F) → (⟨S4094, .f32⟩ : BufTy).Contents (Elt F) → (⟨S4094, .f32⟩ : BufTy).Contents (Elt F)),
    nullary main_cst_6 (constant S_ .f32 0x00000000#32),
    binary main_v28 main_cst_6 main_v29 ((fun x v => Host.reduceAdd x v reducesTo_S4094_S_d0 h_S_) : (⟨S4094, .f32⟩ : BufTy).Contents (Elt F) → (⟨S_, .f32⟩ : BufTy).Contents (Elt F) → (⟨S_, .f32⟩ : BufTy).Contents (Elt F)),
    nullary main_cst_7 (constant S_ .f32 0x457FE000#32),
    binary main_v29 main_cst_7 main_v30 (Host.divf : (⟨S_, .f32⟩ : BufTy).Contents (Elt F) → (⟨S_, .f32⟩ : BufTy).Contents (Elt F) → (⟨S_, .f32⟩ : BufTy).Contents (Elt F)) ]

/-- The program's operations are the four stretches in order. -/
theorem ops_eq : (Cert.ReferenceIdeal.ValueP.ops : List (HloOp τ sig (Elt F))) = L1 ++ (L2 ++ (L3 ++ L4)) := rfl

/-- The contents after a concatenation are the contents after its second part, from those after its first. -/
theorem after_append (l₁ l₂ : List (HloOp τ sig (Elt F))) (V : Valuation τ sig (Elt F)) :
    after (l₁ ++ l₂) V = after l₂ (after l₁ V) := by
  induction l₁ generalizing V with
  | nil => rfl
  | cons op l ih => exact ih (op.result V)

/-- The contents after the whole program, stretch by stretch. -/
theorem after_ops (V : Valuation τ sig (Elt F)) :
    after (Cert.ReferenceIdeal.ValueP.ops : List (HloOp τ sig (Elt F))) V = after L4 (after L3 (after L2 (after L1 V))) := by
  rw [ops_eq, after_append, after_append, after_append]

end Cert.Proof.RefAfter

end
-- ==== Proof.RefAfterAB.lean ====
/-
  The reference program's first two stretches of operations, read at the buffers the later stretches use.

  The first stretch computes the logits `x · Wᵀ + b` on the rows the loss reads, reshaped to [4094, 50257], the row mask
  `label ≠ -100` and the labels with `0` where the mask is clear; the second is the row-wise log-softmax of the logits.
  Each buffer is stated at the reference's own staged value of the arguments (one definition per operation, each from
  the earlier ones), so that the logits, read three times by the second stretch, are never written out more than once.
-/
import proofs.«423894_j137438953739_3_alg».proof.Proof.RefSplit
import proofs.«423894_j137438953739_3_alg».proof.Proof.RefRead
import Idealize.ShloMosaic.Lib.StableHlo.Run

noncomputable section

namespace Cert.Proof.RefAfter

open Cert.ReferenceIdeal Cert.ReferenceIdeal.Gen Idealize.ShloMosaic Idealize.ShloMosaic.TcCoe Idealize.SL.Sem Idealize.ShloMosaic.StableHlo
open Cert.ReferenceIdeal.ReadP

variable {F : FTy → Type} [FloatOps F]

/-- Contents carried to a buffer's own type and back are unchanged. -/
theorem ofBuf_toBuf {Val : EltTy → Type} {T : BufTy} (x : TRef sig T) (v : T.Contents Val) : x.ofBuf (x.toBuf v) = v := by
  obtain ⟨r, h1, h2, h3⟩ := x
  subst h1
  rfl

/-- After the first stretch the logits' buffer holds the logits of the arguments. -/
theorem A5 (m : (ℓ : Loc nD τ sig) → Buf (Elt F) ℓ) (c : Dev nD) :
    after (L1 (F := F)) (launchContents m c) (Proc.devRef .tc main_v5)
      = val_main_v5 (F := F) (m ((c.tc : Thread nD τ).loc main_arg0)) (m ((c.tc : Thread nD τ).loc main_arg1)) (m ((c.tc : Thread nD τ).loc main_arg2)) := by
  after_results_simp
  rfl

/-- … the mask's buffer the row mask of the labels. -/
theorem A9 (m : (ℓ : Loc nD τ sig) → Buf (Elt F) ℓ) (c : Dev nD) :
    after (L1 (F := F)) (launchContents m c) (Proc.devRef .tc main_v9)
      = val_main_v9 (F := F) (m ((c.tc : Thread nD τ).loc main_arg3)) := by
  after_results_simp
  rfl

/-- … and the safe labels' buffer the labels with `0` where the mask is clear. -/
theorem A10 (m : (ℓ : Loc nD τ sig) → Buf (Elt F) ℓ) (c : Dev nD) :
    after (L1 (F := F)) (launchContents m c) (Proc.devRef .tc main_v10)
      = val_main_v10 (F := F) (m ((c.tc : Thread nD τ).loc main_arg3)) := by
  after_results_simp
  rfl

/-- The log-softmax stretch, from any contents whose logits' buffer holds the logits of `emb`, `W`, `bias`: its result
    buffer ends at the log-softmax of those logits. -/
theorem B11 {emb : (⟨S2x2048x1024, .f32⟩ : BufTy).Contents (Elt F)} {W : (⟨S50257x1024, .f32⟩ : BufTy).Contents (Elt F)}
    {bias : (⟨S50257, .f32⟩ : BufTy).Contents (Elt F)} (V : Valuation τ sig (Elt F))
    (h5 : V (Proc.devRef .tc main_v5) = val_main_v5 (F := F) emb W bias) :
    after (L2 (F := F)) V (Proc.devRef .tc main_v11) = val_main_v11 (F := F) emb W bias := by
  after_results_simp
  rw [h5]
  simp only [ofBuf_toBuf]
  rfl

/-- The log-softmax stretch writes neither the row mask … -/
theorem Bk9 (V : Valuation τ sig (Elt F)) :
    after (L2 (F := F)) V (Proc.devRef .tc main_v9) = V (Proc.devRef .tc main_v9) :=
  after_of_forall_not_mem (b := Proc.devRef .tc main_v9) _ _ (List.forall_iff_forall_mem.mp (by
    simp only [L2, List.Forall, nullary_writes, unary_writes, binary_writes, ternary_writes, quaternary_writes, reshape_writes,
      binaryIndexed_writes, Finset.mem_singleton]
    repeat' apply And.intro
    all_goals exact devRef_ne_of_ne (by decide)))

/-- … nor the safe labels. -/
theorem Bk10 (V : Valuation τ sig (Elt F)) :
    after (L2 (F := F)) V (Proc.devRef .tc main_v10) = V (Proc.devRef .tc main_v10) :=
  after_of_forall_not_mem (b := Proc.devRef .tc main_v10) _ _ (List.forall_iff_forall_mem.mp (by
    simp only [L2, List.Forall, nullary_writes, unary_writes, binary_writes, ternary_writes, quaternary_writes, reshape_writes,
      binaryIndexed_writes, Finset.mem_singleton]
    repeat' apply And.intro
    all_goals exact devRef_ne_of_ne (by decide)))

end Cert.Proof.RefAfter

end
-- ==== Proof.RefAfter.lean ====
/-
  The contents of the result buffer after the reference's eighty operations, as the last stage's function of the four
  arguments: each stretch writes the stage values later stretches read, as the stages' functions of what it finds; a
  stretch that does not write a buffer leaves it where it was; the stretches in order give the program.
-/
import proofs.«423894_j137438953739_3_alg».proof.Proof.RefSplit
import proofs.«423894_j137438953739_3_alg».proof.Proof.RefRead
import proofs.«423894_j137438953739_3_alg».proof.Proof.RefAfterAB

noncomputable section

namespace Cert.Proof.RefAfter

open Cert.ReferenceIdeal Cert.ReferenceIdeal.Gen Cert.ReferenceIdeal.ReadP
open Idealize.ShloMosaic Idealize.ShloMosaic.TcCoe Idealize.SL.Sem Idealize.ShloMosaic.StableHlo

variable {F : FTy → Type} [FloatOps F]

/-- The third stretch writes minus the taken entry, from the log-softmax and the safe index it finds. -/
theorem C15 (emb : (⟨S2x2048x1024, .f32⟩ : BufTy).Contents (Elt F)) (W : (⟨S50257x1024, .f32⟩ : BufTy).Contents (Elt F))
    (bias : (⟨S50257, .f32⟩ : BufTy).Contents (Elt F)) (labels : (⟨S2x2048, .i32⟩ : BufTy).Contents (Elt F))
    (V : Valuation τ sig (Elt F))
    (h11 : V (Proc.devRef .tc main_v11) = val_main_v11 (F := F) emb W bias)
    (h10 : V (Proc.devRef .tc main_v10) = val_main_v10 (F := F) labels) :
    after (L3 (F := F)) V (Proc.devRef .tc main_v15) = val_main_v15 (F := F) emb W bias labels := by
  after_results_simp
  simp only [TRef.ofBuf, TRef.toBuf, cast_eq]
  rw [h11, h10]
  rfl

/-- The third stretch leaves the mask where it was. -/
theorem Ck9 (V : Valuation τ sig (Elt F)) :
    after (L3 (F := F)) V (Proc.devRef .tc main_v9) = V (Proc.devRef .tc main_v9) := by
  after_results_simp

/-- The last stretch writes the loss, from the mask and the per-row value it finds. -/
theorem D30 (emb : (⟨S2x2048x1024, .f32⟩ : BufTy).Contents (Elt F)) (W : (⟨S50257x1024, .f32⟩ : BufTy).Contents (Elt F))
    (bias : (⟨S50257, .f32⟩ : BufTy).Contents (Elt F)) (labels : (⟨S2x2048, .i32⟩ : BufTy).Contents (Elt F))
    (V : Valuation τ sig (Elt F))
    (h9 : V (Proc.devRef .tc main_v9) = val_main_v9 (F := F) labels)
    (h15 : V (Proc.devRef .tc main_v15) = val_main_v15 (F := F) emb W bias labels) :
    after (L4 (F := F)) V (Proc.devRef .tc main_v30) = val_main_v30 (F := F) emb W bias labels := by
  after_results_simp
  simp only [TRef.ofBuf, TRef.toBuf, cast_eq]
  rw [h9, h15]
  rfl

/-- After the whole program from the launch contents, the result buffer holds the last stage of the four arguments. -/
theorem after_main_v30 (m : (ℓ : Loc nD τ sig) → Buf (Elt Ideal) ℓ) (c : Dev nD) :
    after (Cert.ReferenceIdeal.ValueP.ops (F := Ideal)) (launchContents m c) (Proc.devRef .tc main_v30)
      = val_main_v30 (F := Ideal) (m ((c.tc : Thread nD τ).loc main_arg0)) (m ((c.tc : Thread nD τ).loc main_arg1))
          (m ((c.tc : Thread nD τ).loc main_arg2)) (m ((c.tc : Thread nD τ).loc main_arg3)) := by
  rw [after_ops]
  refine D30 _ _ _ _ _ ?_ ?_
  · exact (Ck9 _).trans ((Bk9 _).trans (A9 m c))
  · exact C15 _ _ _ _ _ (B11 _ (A5 m c)) ((Bk10 _).trans (A10 m c))

end Cert.Proof.RefAfter

end
-- ==== Proof.RefOut.lean ====
/-
  The contents of the result buffer after the reference's operations, as the masked focal mean of the two functions of
  the arguments: after the program the buffer holds the last stage, and the last stage is the last fifteen operations
  applied to the row mask and to the per-row value.
-/
import proofs.«423894_j137438953739_3_alg».proof.Proof.RefAfter
import proofs.«423894_j137438953739_3_alg».proof.Proof.RefValue

noncomputable section

namespace Cert.Proof.RefValue

open Cert.ReferenceIdeal Cert.ReferenceIdeal.ReadP
open Idealize.ShloMosaic Idealize.ShloMosaic.TcCoe Idealize.SL.Sem Idealize.ShloMosaic.StableHlo

/-- What the run leaves in the result buffer is the masked focal mean of the mask and the per-row value of the arguments. -/
theorem out_eq (m : (ℓ : Loc nD τ sig) → Buf (Elt Ideal) ℓ) (c : Dev nD) :
    after (Cert.ReferenceIdeal.ValueP.ops (F := Ideal)) (launchContents m c) (Proc.devRef .tc main_v30)
      = Cert.Proof.Tail.tail (validOf (m ((c.tc : Thread nD τ).loc main_arg3)))
          (zOf (m ((c.tc : Thread nD τ).loc main_arg0)) (m ((c.tc : Thread nD τ).loc main_arg1))
            (m ((c.tc : Thread nD τ).loc main_arg2)) (m ((c.tc : Thread nD τ).loc main_arg3))) :=
  (Cert.Proof.RefAfter.after_main_v30 m c).trans (val_eq_tail _ _ _ _)

end Cert.Proof.RefValue

end
-- ==== Proof.lean ====
/-
  The five claims of this certificate.

  The kernel tiles the vocabulary (50 tiles of 1024 columns, the 943 columns past the vocabulary's end standing at the
  named `-∞`) and carries an online log-sum-exp per row; the reference takes a shifted log-softmax of the whole logit
  matrix and gathers the label's column. Row by row both are `log ∑ⱼ exp ℓⱼ - ℓ_label` over the extended reals
  (the logits are reals: the float inputs are finite), and rows whose label is the ignore value are masked to zero by
  both; the host operations that turn the per-row values into the focal loss are the same in the two programs.

  * the word-level kernel's frame: relational proof data that say nothing about values (`KernelFrame`);
  * the idealized kernel's run with exact proof data (`IdealRun`), from which its frame and its result are read: the
    output array by the cover of the two write-backs and the host tail (`IdealOut`), each row's carried numbers as the
    tiled fold of the specification (`IdealFold` over `IdealStep`, `IdealBlocks`), the fold as the reference's
    arrangement (`OnlineLse`, `RowFacts`);
  * the reference's run (a patched copy of the generated run, `RefRun`, its result the fold of the eighty host
    operations, evaluated in four stretches against the staged reads of `RefRead`: `RefAfter`) read down to the same
    specification (`RefValue`, `Tail`, `RefOut`);
  * the precondition decoded into finiteness of the float inputs and the label range (`PreFacts`).
-/
import proofs.«423894_j137438953739_3_alg».proof.Defs
import proofs.«423894_j137438953739_3_alg».proof.Proof.Gen.Kernel
import proofs.«423894_j137438953739_3_alg».proof.Proof.Gen.KernelIdeal
import proofs.«423894_j137438953739_3_alg».proof.Proof.Gen.ReferenceIdeal
import proofs.«423894_j137438953739_3_alg».proof.Proof.Gen.Pre_finite_inputs
import proofs.«423894_j137438953739_3_alg».proof.Proof.KernelFrame
import proofs.«423894_j137438953739_3_alg».proof.Proof.IdealRun
import proofs.«423894_j137438953739_3_alg».proof.Proof.KernelValue
import proofs.«423894_j137438953739_3_alg».proof.Proof.RefOut
import Idealize.ShloMosaic.Adequacy
import Idealize.ShloMosaic.Init

noncomputable section

namespace Cert.Proof

open Idealize.ShloMosaic Idealize.ShloMosaic.TcCoe Idealize.SL.Sem

/-- The word-level kernel runs, faults nowhere and leaves its arguments: by relational proof data. -/
theorem frame_p : Cert.frame_Kernel := Cert.Kernel.FrameProof.frame_p

/-- The idealized kernel likewise: read off its run with exact proof data. -/
theorem frame_pi : Cert.frame_KernelIdeal := Cert.KernelIdeal.Exact.frame_pi

/-- The reference is host operations only: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ledger's one entry: the mask fill `0xFF333332` is named `-∞`, and the printed constant is that value at the
    ideal instance. -/
theorem preserves : Cert.preserves_Kernel_KernelIdeal :=
  IdealRules.named_const.statement Cert.KernelIdeal.κ "neg_big" .f32 0xFF333332#32 ⊥ rfl

/-- Both programs end at the shared tail of the valid mask and the per-row cross entropies of the arguments. -/
theorem algebraic : Cert.algebraic_KernelIdeal_ReferenceIdeal := by
  intro m ρ m' ρ' hpre hagree
  refine ⟨fun c => Cert.Proof.Tail.tail
      (Cert.Proof.RefValue.validOf (m ((c.tc : Thread Cert.KernelIdeal.nD Cert.KernelIdeal.τ).loc Cert.KernelIdeal.main_arg3)))
      (Cert.Proof.RefValue.zOf (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))), ?_, ?_⟩
  · refine (θ_run Cert.KernelIdeal.defs _ _).mono (fun r h c => ⟨?_, ?_, ?_, ?_, ?_, ?_⟩)
      (Cert.KernelIdeal.Exact.run_ideal m ρ)
    · exact ((h c).2 Cert.KernelIdeal.main_v28 (Pipeline.mem_restRefs_of Cert.KernelIdeal.main_v28 (by decide) (by decide))).trans
        (Cert.Proof.KernelValue.kernel_value m hpre c)
    · exact ((h c).2 Cert.KernelIdeal.main_arg0 (Pipeline.mem_restRefs_of Cert.KernelIdeal.main_arg0 (by decide) (by decide))).trans
        (Cert.KernelIdeal.Gen.W_main_arg0 m (Cert.KernelIdeal.Exact.dats m) c)
    · exact ((h c).1 1).trans (((Cert.KernelIdeal.Exact.dats m 0 c).arrAt_in 1 rfl _).trans
        ((Cert.KernelIdeal.Exact.A_eq m c 1).trans (Cert.KernelIdeal.Gen.V_main_arg1 m c)))
    · exact ((h c).2 Cert.KernelIdeal.main_arg2 (Pipeline.mem_restRefs_of Cert.KernelIdeal.main_arg2 (by decide) (by decide))).trans
        (Cert.KernelIdeal.Gen.W_main_arg2 m (Cert.KernelIdeal.Exact.dats m) c)
    · exact ((h c).2 Cert.KernelIdeal.main_arg3 (Pipeline.mem_restRefs_of Cert.KernelIdeal.main_arg3 (by decide) (by decide))).trans
        (Cert.KernelIdeal.Gen.W_main_arg3 m (Cert.KernelIdeal.Exact.dats m) c)
    · exact ((h c).2 Cert.KernelIdeal.main_arg4 (Pipeline.mem_restRefs_of Cert.KernelIdeal.main_arg4 (by decide) (by decide))).trans
        (Cert.KernelIdeal.Gen.W_main_arg4 m (Cert.KernelIdeal.Exact.dats m) c)
  · refine (θ_run Cert.ReferenceIdeal.defs _ _).mono (fun _ h c => ⟨(h c).1.trans ?_, (h c).2⟩)
      (Cert.ReferenceIdeal.ValueP.run (F := Ideal) m' ρ')
    rw [Cert.Proof.RefValue.out_eq m' c, (hagree c).1, (hagree c).2.1, (hagree c).2.2.1, (hagree c).2.2.2.1]

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
